-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 92
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S100000, .i32⟩
  | .hbm, ⟨7, _⟩ => ⟨S1700000, .i32⟩
  | .hbm, ⟨8, _⟩ => ⟨S1700000, .i32⟩
  | .hbm, ⟨9, _⟩ => ⟨S_, .f32⟩
  | .hbm, ⟨10, _⟩ => ⟨S1700000, .f32⟩
  | .hbm, ⟨11, _⟩ => ⟨S_, .f32⟩
  | .hbm, ⟨12, _⟩ => ⟨S100000, .f32⟩
  | .hbm, ⟨13, _⟩ => ⟨S1700000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x1, .f32⟩
  | .hbm, ⟨51, _⟩ => ⟨S1700000x64, .f32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_9 : Ref sig .tc := ⟨.hbm, 58, rfl⟩
abbrev main_v45 : Ref sig .tc := ⟨.hbm, 59, rfl⟩
abbrev main_v46 : Ref sig .tc := ⟨.hbm, 60, rfl⟩
abbrev main_c_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_12 : Ref sig .tc := ⟨.hbm, 75, rfl⟩
abbrev main_v59 : Ref sig .tc := ⟨.hbm, 76, rfl⟩
abbrev main_v60 : Ref sig .tc := ⟨.hbm, 77, rfl⟩
abbrev main_c_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v72) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x1 : Shape := ⟨2, ![100000, 1]⟩

abbrev nBuf : Space → Nat
  | .hbm => 195
  | .vmem => 0
  | .smem => 0
  | _ => 0

abbrev hbmTy0_0 (i : Nat) : BufTy := match i % 128 with
  | 0 => ⟨S100000x64, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S100000, .i32⟩
  | 7 => ⟨S1700000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x64, .f32⟩
  | 51 => ⟨S1700000x1, .f32⟩
  | 52 => ⟨S1700000x64, .f32⟩
  | 53 => ⟨S1700000x64, .f32⟩
  | 54 => ⟨S_, .f32⟩
  | 55 => ⟨S100000x64, .f32⟩
  | 56 => ⟨S1700000x1, .i32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .i1⟩
  | 71 => ⟨S_, .f32⟩
  | 72 => ⟨S100000, .f32⟩
  | 73 => ⟨S100000, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .i1⟩
  | 80 => ⟨S_, .f32⟩
  | 81 => ⟨S_, .f32⟩
  | 82 => ⟨S100000, .f32⟩
  | 83 => ⟨S100000, .f32⟩
  | 84 => ⟨S100000, .f32⟩
  | 85 => ⟨S_, .f32⟩
  | 86 => ⟨S_, .f32⟩
  | 87 => ⟨S100000, .f32⟩
  | 88 => ⟨S100000, .f32⟩
  | 89 => ⟨S100000x1, .f32⟩
  | 90 => ⟨S100000x64, .f32⟩
  | 91 => ⟨S100000x64, .f32⟩
  | 92 => ⟨S100000x64, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .f32⟩
  | 117 => ⟨S100000, .f32⟩
  | 118 => ⟨S100000, .f32⟩
  | 119 => ⟨S_, .f32⟩
  | 120 => ⟨S100000, .f32⟩
  | 121 => ⟨S100000, .i1⟩
  | 122 => ⟨S_, .f32⟩
  | 123 => ⟨S100000, .f32⟩
  | 124 => ⟨S100000, .f32⟩
  | 125 => ⟨S_, .f32⟩
  | 126 => ⟨S100000, .f32⟩
  | 127 => ⟨S100000, .f32⟩
  | _ => ⟨S100000x64, .f32⟩

abbrev hbmTy0_1 (i : Nat) : BufTy := match i % 128 with
  | 0 => ⟨S_, .f32⟩
  | 1 => ⟨S100000, .f32⟩
  | 2 => ⟨S100000, .i1⟩
  | 3 => ⟨S_, .f32⟩
  | 4 => ⟨S_, .f32⟩
  | 5 => ⟨S100000, .f32⟩
  | 6 => ⟨S100000, .f32⟩
  | 7 => ⟨S100000, .f32⟩
  | 8 => ⟨S_, .f32⟩
  | 9 => ⟨S_, .f32⟩
  | 10 => ⟨S100000, .f32⟩
  | 11 => ⟨S100000, .f32⟩
  | 12 => ⟨S100000x1, .f32⟩
  | 13 => ⟨S100000x64, .f32⟩
  | 14 => ⟨S100000x64, .f32⟩
  | 15 => ⟨S100000x64, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x64, .f32⟩
  | 25 => ⟨S1700000x1, .f32⟩
  | 26 => ⟨S1700000x64, .f32⟩
  | 27 => ⟨S1700000x64, .f32⟩
  | 28 => ⟨S_, .f32⟩
  | 29 => ⟨S100000x64, .f32⟩
  | 30 => ⟨S1700000x1, .i32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .i1⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .i1⟩
  | 54 => ⟨S_, .f32⟩
  | 55 => ⟨S_, .f32⟩
  | 56 => ⟨S100000, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S100000x1, .f32⟩
  | 64 => ⟨S100000x64, .f32⟩
  | 65 => ⟨S100000x64, .f32⟩
  | 66 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_c_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_call1_v0 : Ref sig .tc := ⟨.hbm, 81, rfl⟩
abbrev main_call1_v1 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_call2_v0 : Ref sig .tc := ⟨.hbm, 86, rfl⟩
abbrev main_call2_v1 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_c_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_cst_22 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_cst_24 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_cst_26 : Ref sig .tc := ⟨.hbm, 131, rfl⟩
abbrev main_call3_v0 : Ref sig .tc := ⟨.hbm, 132, rfl⟩
abbrev main_call3_v1 : Ref sig .tc := ⟨.hbm, 133, rfl⟩
abbrev main_v97 : Ref sig .tc := ⟨.hbm, 134, rfl⟩
abbrev main_v98 : Ref sig .tc := ⟨.hbm, 135, rfl⟩
abbrev main_cst_27 : Ref sig .tc := ⟨.hbm, 136, rfl⟩
abbrev main_call4_v0 : Ref sig .tc := ⟨.hbm, 137, rfl⟩
abbrev main_call4_v1 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_28 : Ref sig .tc := ⟨.hbm, 144, rfl⟩
abbrev main_v104 : Ref sig .tc := ⟨.hbm, 145, rfl⟩
abbrev main_v105 : Ref sig .tc := ⟨.hbm, 146, rfl⟩
abbrev main_c_29 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_30 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_31 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_32 : Ref sig .tc := ⟨.hbm, 167, rfl⟩
abbrev main_v123 : Ref sig .tc := ⟨.hbm, 168, rfl⟩
abbrev main_v124 : Ref sig .tc := ⟨.hbm, 169, rfl⟩
abbrev main_cst_33 : Ref sig .tc := ⟨.hbm, 170, rfl⟩
abbrev main_v125 : Ref sig .tc := ⟨.hbm, 171, rfl⟩
abbrev main_v126 : Ref sig .tc := ⟨.hbm, 172, rfl⟩
abbrev main_cst_34 : Ref sig .tc := ⟨.hbm, 173, rfl⟩
abbrev main_v127 : Ref sig .tc := ⟨.hbm, 174, rfl⟩
abbrev main_v128 : Ref sig .tc := ⟨.hbm, 175, rfl⟩
abbrev main_cst_35 : Ref sig .tc := ⟨.hbm, 176, rfl⟩
abbrev main_v129 : Ref sig .tc := ⟨.hbm, 177, rfl⟩
abbrev main_v130 : Ref sig .tc := ⟨.hbm, 178, rfl⟩
abbrev main_cst_36 : Ref sig .tc := ⟨.hbm, 179, rfl⟩
abbrev main_v131 : Ref sig .tc := ⟨.hbm, 180, rfl⟩
abbrev main_v132 : Ref sig .tc := ⟨.hbm, 181, rfl⟩
abbrev main_cst_37 : Ref sig .tc := ⟨.hbm, 182, rfl⟩
abbrev main_call5_v0 : Ref sig .tc := ⟨.hbm, 183, rfl⟩
abbrev main_call5_v1 : Ref sig .tc := ⟨.hbm, 184, rfl⟩
abbrev main_v133 : Ref sig .tc := ⟨.hbm, 185, rfl⟩
abbrev main_v134 : Ref sig .tc := ⟨.hbm, 186, rfl⟩
abbrev main_cst_38 : Ref sig .tc := ⟨.hbm, 187, rfl⟩
abbrev main_call6_v0 : Ref sig .tc := ⟨.hbm, 188, rfl⟩
abbrev main_call6_v1 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.Body0.lean ====
/-
  The first proximal step's pallas_call (pipeline 0), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×64 block as a rectangle. -/
abbrev rb0 : Rect S2000x64 := Rect.unit (s := S2000x64) ![0, 0] S2000x64.size inb_S2000x64_S2000x64_0_0

/-- The output window's staging buffer after the body, from the three input blocks: one whole-block store. -/
def out0_3 (x0 x1 x2 : Vec F S2000x64 .f32) : Vec F S2000x64 .f32 :=
  View.canon [⟨rb0, k0_pay1 (View.ld x0 rb0) (View.ld x1 rb0) (View.ld x2 rb0)⟩]

/-- The one store covers the buffer. -/
theorem cover0_3 (p0 : Vec F S2000x64 .f32) (y : S2000x64.Idx) :
    ∃ pc ∈ ([⟨rb0, p0⟩] : List (View.Piece (Elt F) S2000x64 .f32)), y ∈ pc.1.set :=
  -- the single rectangle starts at the origin and has the buffer's own extents, so it tiles the buffer
  View.cover_of_tiled [⟨rb0, p0⟩] S2000x64.size (by rfl) y

set_option maxHeartbeats 1000000 in
/-- The body on whole staging memrefs: the inputs' at read contents, the output's at anything, runs to the
    continuation holding the inputs' as they were and the output's at out0_3 of the inputs'. -/
theorem sound_kernel0 (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prox_kernel i arg1 harg1 arg2 harg2 arg3 harg3 arg4 harg4) K := by
  simp only [cc0__prox_kernel_eq_skeleton]; unfold cc0__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover0_3 _)

/-- The proof data of pipeline 0 on core c at region-entry contents V and input shares q: after the body at point t
    each input's buffer at its block and the output's at out0_3 of the input blocks; the invariant the scoped rest and
    the generator register, untouched; nothing owed. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) :
    (dat0 V q c).after 3 t = out0_3 (iblk0 V c 0 t) (iblk0 V c 1 t) (iblk0 V c 2 t) := by dsimp only [dat0]

/-- An operand window's current staging buffer holds its block at every point: the window is fetched at every
    point, and what a fetch puts in the buffer of an uncut window is the block read off the array. Stated for any
    proof data whose array for the window is the region-entry contents. -/
theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (t : Fin cfg0.N) (d) : dat.before 2 t d = iblk0 V c 2 t :=
  (dat.before_fetched 2 t (fetch0_2 t) d).trans (by unfold Dat.fetched Dat.blockOf iblk0; rw [hA]; try rfl)

theorem before0_0 (c : Dev nD) (t : Fin cfg0.N) (d) : (dat0 V q c).before 0 t d = iblk0 V c 0 t :=
  before0_0_of V (dat0 V q c) (A_eq0 V q c 0) t d
theorem before0_1 (c : Dev nD) (t : Fin cfg0.N) (d) : (dat0 V q c).before 1 t d = iblk0 V c 1 t :=
  before0_1_of V (dat0 V q c) (A_eq0 V q c 1) t d
theorem before0_2 (c : Dev nD) (t : Fin cfg0.N) (d) : (dat0 V q c).before 2 t d = iblk0 V c 2 t :=
  before0_2_of V (dat0 V q c) (A_eq0 V q c 2) t d

/-- What the body is called with at point t: the invariant, what the core owes, and each window's current
    staging buffer whole, at what it then holds, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns: the same at the next point, each buffer at what the body leaves in it. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the three operands' buffers hold their blocks, so the body's triple applies at those
    blocks; the invariant and what the core owes do not depend on the point and pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.Kernel.Hand

end
-- ==== Proof.K.Body1.lean ====
/-
  The second proximal step's pallas_call (pipeline 1), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 2000×64 block as a rectangle. -/
abbrev rb1 : Rect S2000x64 := Rect.unit (s := S2000x64) ![0, 0] S2000x64.size inb_S2000x64_S2000x64_0_0

/-- The output window's staging buffer after the body, from the three input blocks: one whole-block store. -/
def out1_3 (x0 x1 x2 : Vec F S2000x64 .f32) : Vec F S2000x64 .f32 :=
  View.canon [⟨rb1, k1_pay1 (View.ld x0 rb1) (View.ld x1 rb1) (View.ld x2 rb1)⟩]

/-- The one store covers the buffer. -/
theorem cover1_3 (p0 : Vec F S2000x64 .f32) (y : S2000x64.Idx) :
    ∃ pc ∈ ([⟨rb1, p0⟩] : List (View.Piece (Elt F) S2000x64 .f32)), y ∈ pc.1.set :=
  -- the single rectangle starts at the origin and has the buffer's own extents, so it tiles the buffer
  View.cover_of_tiled [⟨rb1, p0⟩] S2000x64.size (by rfl) y

set_option maxHeartbeats 1000000 in
/-- The body on whole staging memrefs: the inputs' at read contents, the output's at anything, runs to the
    continuation holding the inputs' as they were and the output's at out1_3 of the inputs'. -/
theorem sound_kernel1 (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prox_kernel i arg1 harg1 arg2 harg2 arg3 harg3 arg4 harg4) K := by
  simp only [cc1__prox_kernel_eq_skeleton]; unfold cc1__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover1_3 _)

/-- The proof data of pipeline 1 on core c at region-entry contents V and input shares q: after the body at point t
    each input's buffer at its block and the output's at out1_3 of the input blocks; the invariant the scoped rest and
    the generator register, untouched; nothing owed. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) :
    (dat1 V q c).after 3 t = out1_3 (iblk1 V c 0 t) (iblk1 V c 1 t) (iblk1 V c 2 t) := by dsimp only [dat1]

/-- An operand window's current staging buffer holds its block at every point: the window is fetched at every
    point, and what a fetch puts in the buffer of an uncut window is the block read off the array. Stated for any
    proof data whose array for the window is the region-entry contents. -/
theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t :=
  (dat.before_fetched 0 t (fetch1_0 t) d).trans (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t :=
  (dat.before_fetched 1 t (fetch1_1 t) d).trans (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (t : Fin cfg1.N) (d) : dat.before 2 t d = iblk1 V c 2 t :=
  (dat.before_fetched 2 t (fetch1_2 t) d).trans (by unfold Dat.fetched Dat.blockOf iblk1; rw [hA]; try rfl)

theorem before1_0 (c : Dev nD) (t : Fin cfg1.N) (d) : (dat1 V q c).before 0 t d = iblk1 V c 0 t :=
  before1_0_of V (dat1 V q c) (A_eq1 V q c 0) t d
theorem before1_1 (c : Dev nD) (t : Fin cfg1.N) (d) : (dat1 V q c).before 1 t d = iblk1 V c 1 t :=
  before1_1_of V (dat1 V q c) (A_eq1 V q c 1) t d
theorem before1_2 (c : Dev nD) (t : Fin cfg1.N) (d) : (dat1 V q c).before 2 t d = iblk1 V c 2 t :=
  before1_2_of V (dat1 V q c) (A_eq1 V q c 2) t d

/-- What the body is called with at point t: the invariant, what the core owes, and each window's current
    staging buffer whole, at what it then holds, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns: the same at the next point, each buffer at what the body leaves in it. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the three operands' buffers hold their blocks, so the body's triple applies at those
    blocks; the invariant and what the core owes do not depend on the point and pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.Hand

end
-- ==== Proof.K.Body2.lean ====
/-
  The third proximal step's pallas_call (pipeline 2), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 2000×64 block as a rectangle. -/
abbrev rb2 : Rect S2000x64 := Rect.unit (s := S2000x64) ![0, 0] S2000x64.size inb_S2000x64_S2000x64_0_0

/-- The output window's staging buffer after the body, from the three input blocks: one whole-block store. -/
def out2_3 (x0 x1 x2 : Vec F S2000x64 .f32) : Vec F S2000x64 .f32 :=
  View.canon [⟨rb2, k2_pay1 (View.ld x0 rb2) (View.ld x1 rb2) (View.ld x2 rb2)⟩]

/-- The one store covers the buffer. -/
theorem cover2_3 (p0 : Vec F S2000x64 .f32) (y : S2000x64.Idx) :
    ∃ pc ∈ ([⟨rb2, p0⟩] : List (View.Piece (Elt F) S2000x64 .f32)), y ∈ pc.1.set :=
  -- the single rectangle starts at the origin and has the buffer's own extents, so it tiles the buffer
  View.cover_of_tiled [⟨rb2, p0⟩] S2000x64.size (by rfl) y

set_option maxHeartbeats 1000000 in
/-- The body on whole staging memrefs: the inputs' at read contents, the output's at anything, runs to the
    continuation holding the inputs' as they were and the output's at out2_3 of the inputs'. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prox_kernel i arg1 harg1 arg2 harg2 arg3 harg3 arg4 harg4) K := by
  simp only [cc2__prox_kernel_eq_skeleton]; unfold cc2__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover2_3 _)

/-- The proof data of pipeline 2 on core c at region-entry contents V and input shares q: after the body at point t
    each input's buffer at its block and the output's at out2_3 of the input blocks; the invariant the scoped rest and
    the generator register, untouched; nothing owed. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) :
    (dat2 V q c).after 3 t = out2_3 (iblk2 V c 0 t) (iblk2 V c 1 t) (iblk2 V c 2 t) := by dsimp only [dat2]

/-- An operand window's current staging buffer holds its block at every point: the window is fetched at every
    point, and what a fetch puts in the buffer of an uncut window is the block read off the array. Stated for any
    proof data whose array for the window is the region-entry contents. -/
theorem before2_0_of {c : Dev nD} (dat : Dat τ (Elt F) Unit ℕ (UR sig nD τ) ℕ cfg2 c) (hA : dat.A 0 = V c (Pipeline.arrRef spec2 0))
    (t : Fin cfg2.N) (d) : dat.before 0 t d = iblk2 V c 0 t :=
  (dat.before_fetched 0 t (fetch2_0 t) d).trans (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (t : Fin cfg2.N) (d) : dat.before 1 t d = iblk2 V c 1 t :=
  (dat.before_fetched 1 t (fetch2_1 t) d).trans (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (t : Fin cfg2.N) (d) : dat.before 2 t d = iblk2 V c 2 t :=
  (dat.before_fetched 2 t (fetch2_2 t) d).trans (by unfold Dat.fetched Dat.blockOf iblk2; rw [hA]; try rfl)

theorem before2_0 (c : Dev nD) (t : Fin cfg2.N) (d) : (dat2 V q c).before 0 t d = iblk2 V c 0 t :=
  before2_0_of V (dat2 V q c) (A_eq2 V q c 0) t d
theorem before2_1 (c : Dev nD) (t : Fin cfg2.N) (d) : (dat2 V q c).before 1 t d = iblk2 V c 1 t :=
  before2_1_of V (dat2 V q c) (A_eq2 V q c 1) t d
theorem before2_2 (c : Dev nD) (t : Fin cfg2.N) (d) : (dat2 V q c).before 2 t d = iblk2 V c 2 t :=
  before2_2_of V (dat2 V q c) (A_eq2 V q c 2) t d

/-- What the body is called with at point t: the invariant, what the core owes, and each window's current
    staging buffer whole, at what it then holds, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns: the same at the next point, each buffer at what the body leaves in it. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

/-- The body at any point: the three operands' buffers hold their blocks, so the body's triple applies at those
    blocks; the invariant and what the core owes do not depend on the point and pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end Cert.Kernel.Hand

end
-- ==== Proof.K.Fold.lean ====
/-
  The buffer contents at every boundary of the program, as a fold from the launch memory: after each stretch of
  host operations the stretch applied to what was there; after each pallas_call the same contents with the call's
  result array replaced by what the pipeline's write-backs leave in it (the three operand arrays are only read).
  Then the three pipelines' proof data, each at its call's entry contents, and what rides beside the buffers
  through every segment (the generator register and the core owing nothing).

  The first call reads the input features through two of its windows (the iterate and the anchor are the same
  array there), so that array is held in two halves, one per window; every other operand is held whole.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import proofs.«410928_j41137196761669_3_alg».proof.Proof.Gen.Kernel.Regions
import proofs.«410928_j41137196761669_3_alg».proof.Proof.K.Body0
import proofs.«410928_j41137196761669_3_alg».proof.Proof.K.Body1
import proofs.«410928_j41137196761669_3_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of the first call's operands: the input features' array in two halves, the rest whole. -/
def q0 : Fin cfg0.W → PosShare TreeShare
  | ⟨0, _⟩ => (fullShare : PosShare TreeShare).left
  | ⟨1, _⟩ => fullShare
  | ⟨2, _⟩ => (fullShare : PosShare TreeShare).right
  | ⟨3, _⟩ => fullShare
/-- Every operand of the later calls is held whole. -/
abbrev qF {W : Nat} : Fin W → PosShare TreeShare := fun _ => fullShare

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The first call's entry contents. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- The first call's exit contents: its result array at what the write-backs leave. -/
def W4 (c : Dev nD) : Valuation τ sig (Elt F) :=
  Function.update (W3 m c) (Proc.devRef .tc main_v44) ((dat0 (V3 m) q0 c).arrAt 3 cfg0.N)
abbrev V4 : (c : Dev nD) → (b : Ref sig .tc) → Buf (Elt F) ((c : Thread nD τ).loc b) := fun c b => W4 m c b
/-- The second call's entry contents. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Function.update (W5 m c) (Proc.devRef .tc main_v58) ((dat1 (V5 m) qF c).arrAt 3 cfg1.N)
abbrev V6 : (c : Dev nD) → (b : Ref sig .tc) → Buf (Elt F) ((c : Thread nD τ).loc b) := fun c b => W6 m c b
/-- The third call's entry contents. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- The contents at the return. -/
def W8 (c : Dev nD) : Valuation τ sig (Elt F) :=
  Function.update (W7 m c) (Proc.devRef .tc main_v72) ((dat2 (V7 m) qF c).arrAt 3 cfg2.N)
abbrev V8 : (c : Dev nD) → (b : Ref sig .tc) → Buf (Elt F) ((c : Thread nD τ).loc b) := fun c b => W8 m c b

/-- The result array at the return is what the third pipeline leaves. -/
theorem W8_main_v72 (c : Dev nD) : W8 m c (Proc.devRef .tc main_v72) = (dat2 (V7 m) qF c).arrAt 3 cfg2.N := by
  unfold W8; exact Function.update_self _ _ _

/-- No stretch and no call writes an argument: each reaches the return as launched. -/
theorem W8_main_arg0 (c : Dev nD) : W8 m c (Proc.devRef .tc main_arg0) = m ((c : Thread nD τ).loc main_arg0) :=
  calc W8 m c (Proc.devRef .tc main_arg0)
    -- the third call replaces its result array only
    _ = W7 m c (Proc.devRef .tc main_arg0) := by
          unfold W8; exact Function.update_of_ne (StableHlo.devRef_ne_of_ne (by decide)) _ _
    -- the stretch before it writes its own results only
    _ = W6 m c (Proc.devRef .tc main_arg0) := StableHlo.after_of_writes_sub hostOps2 _ hostOps2_writes (by decide)
    _ = W5 m c (Proc.devRef .tc main_arg0) := by
          unfold W6; exact Function.update_of_ne (StableHlo.devRef_ne_of_ne (by decide)) _ _
    _ = W4 m c (Proc.devRef .tc main_arg0) := StableHlo.after_of_writes_sub hostOps1 _ hostOps1_writes (by decide)
    _ = W3 m c (Proc.devRef .tc main_arg0) := by
          unfold W4; exact Function.update_of_ne (StableHlo.devRef_ne_of_ne (by decide)) _ _
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := by
          unfold W8; exact Function.update_of_ne (StableHlo.devRef_ne_of_ne (by decide)) _ _
    _ = W6 m c (Proc.devRef .tc main_arg1) := StableHlo.after_of_writes_sub hostOps2 _ hostOps2_writes (by decide)
    _ = W5 m c (Proc.devRef .tc main_arg1) := by
          unfold W6; exact Function.update_of_ne (StableHlo.devRef_ne_of_ne (by decide)) _ _
    _ = W4 m c (Proc.devRef .tc main_arg1) := StableHlo.after_of_writes_sub hostOps1 _ hostOps1_writes (by decide)
    _ = W3 m c (Proc.devRef .tc main_arg1) := by
          unfold W4; exact Function.update_of_ne (StableHlo.devRef_ne_of_ne (by decide)) _ _
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- No pallas_call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V3 m) q0 c
  | ⟨1, _⟩ => fun c => dat1 (V5 m) qF c
  | ⟨2, _⟩ => fun c => dat2 (V7 m) qF c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The thread state between two segments: every unscoped buffer at the boundary's contents, beside R. -/
abbrev T (W : Dev nD → Valuation τ sig (Elt F)) (c : Dev nD) : sProp 𝕄 :=
  iprop(StableHlo.held (c : Thread nD τ) (Pipeline.ucRefs τ sig) (W c) ∗ R c)

end Cert.Kernel.Hand

end
-- ==== Proof.K.Reg0.lean ====
/-
  The first pallas_call as a segment of the program. Two of its windows read ONE array (the input features serve as
  the iterate and as the anchor), so at entry that array's points-to is dealt in two halves, one to each window, and at
  exit the halves, both still at the entry contents because an input array is never written, are joined again; the
  neighbour sum's array and the result array are held whole. The result array leaves at what the write-backs made it.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import proofs.«410928_j41137196761669_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

/-! ## The three buffers behind the four windows -/

/-- The arrays the windows stand on, listed once each: the input features (windows 0 and 2), the neighbour sum
    (window 1), the result (window 3). -/
theorem arrImage0 : (Finset.univ.image (Pipeline.arrRef spec0)) = ([main_arg0, main_v43, main_v44] : List (Ref sig .tc)).toFinset := by decide

/-- The buffers behind the windows' arrays, one by one. -/
theorem arrBufs0_open (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v43) ↦{fullShare} V' main_v43)
          ∗ (((c : Thread nD τ).loc main_v44) ↦{fullShare} V' main_v44)) := by
  unfold Pipeline.arrBufs
  exact bigSep_eq_bigSepL_of_eq [main_arg0, main_v43, main_v44] arrImage0 (by decide) _

section Deal

variable {c : Dev nD} (dat : Dat τ (Elt F) Unit ℕ (UR sig nD τ) ℕ cfg0 c)

/-- An input window's array is held at the share the proof data name, the output's whole. -/
theorem share_in0 : dat.share 0 = dat.q 0 := rfl
theorem share_in1 : dat.share 1 = dat.q 1 := rfl
theorem share_in2 : dat.share 2 = dat.q 2 := rfl
theorem share_out3 : dat.share 3 = fullShare := rfl

/-- The windows' arrays one by one, each a whole buffer, when the shared array goes in halves to windows 0 and 2. -/
theorem arrays0_open (h0 : dat.q 0 = (fullShare : PosShare TreeShare).left) (h1 : dat.q 1 = fullShare) (h2 : dat.q 2 = (fullShare : PosShare TreeShare).right)
    (Fw : (w : Fin cfg0.W) → Buf (Elt F) ((cfg0.win w).arr.view.loc (c : Thread nD τ))) :
    (dat.arrays Fw : sProp 𝕄)
      = iprop((((c : Thread nD τ).loc main_arg0) ↦{(fullShare : PosShare TreeShare).left} Fw 0) ∗ (((c : Thread nD τ).loc main_v43) ↦{fullShare} Fw 1)
          ∗ (((c : Thread nD τ).loc main_arg0) ↦{(fullShare : PosShare TreeShare).right} Fw 2) ∗ (((c : Thread nD τ).loc main_v44) ↦{fullShare} Fw 3)) := by
  unfold Dat.arrays
  -- windows 0 and 2 stand on one array: its element set is rewritten for both at once
  rw [bigSep_W0, share_in0, share_in1, share_in2, share_out3, h0, h1, h2, (arr_whole0 0).set_eq_univ, (arr_whole0 1).set_eq_univ, (arr_whole0 3).set_eq_univ]

/-- A whole buffer dealt in two halves, and the halves joined. -/
theorem halves_of_whole {ℓ : Loc nD τ sig} (f : Buf (Elt F) ℓ) :
    (ℓ ↦{fullShare} f : sProp 𝕄) ⊢ iprop((ℓ ↦{(fullShare : PosShare TreeShare).left} f) ∗ ℓ ↦{(fullShare : PosShare TreeShare).right} f) :=
  (pointsTo_share (PosShare.mem_left_op_right fullShare)).1
theorem whole_of_halves {ℓ : Loc nD τ sig} (f : Buf (Elt F) ℓ) :
    iprop((ℓ ↦{(fullShare : PosShare TreeShare).left} f) ∗ ℓ ↦{(fullShare : PosShare TreeShare).right} f) ⊢ (ℓ ↦{fullShare} f : sProp 𝕄) :=
  (pointsTo_share (PosShare.mem_left_op_right fullShare)).2

section
variable (V' : (b : Ref sig .tc) → Buf (Elt F) ((c : Thread nD τ).loc b))

/-- The three whole buffers, the input features' dealt in halves. -/
theorem deal0 :
    iprop((((c : Thread nD τ).loc main_arg0) ↦{fullShare} V' main_arg0) ∗ (((c : Thread nD τ).loc main_v43) ↦{fullShare} V' main_v43)
          ∗ (((c : Thread nD τ).loc main_v44) ↦{fullShare} V' main_v44))
      ⊢ (iprop((((c : Thread nD τ).loc main_arg0) ↦{(fullShare : PosShare TreeShare).left} V' main_arg0) ∗ (((c : Thread nD τ).loc main_v43) ↦{fullShare} V' main_v43)
          ∗ (((c : Thread nD τ).loc main_arg0) ↦{(fullShare : PosShare TreeShare).right} V' main_arg0) ∗ (((c : Thread nD τ).loc main_v44) ↦{fullShare} V' main_v44)) : sProp 𝕄) := by
  iintro ⟨H0, H1, H3⟩
  ihave H := (halves_of_whole (V' main_arg0)) $$ H0
  icases H with ⟨Hl, Hr⟩
  isplitl [Hl]; · iexact Hl
  isplitl [H1]; · iexact H1
  isplitl [Hr]; · iexact Hr
  iexact H3

/-- The halves, both at one contents, joined: the three whole buffers again. -/
theorem undeal0 :
    (iprop((((c : Thread nD τ).loc main_arg0) ↦{(fullShare : PosShare TreeShare).left} V' main_arg0) ∗ (((c : Thread nD τ).loc main_v43) ↦{fullShare} V' main_v43)
          ∗ (((c : Thread nD τ).loc main_arg0) ↦{(fullShare : PosShare TreeShare).right} V' main_arg0) ∗ (((c : Thread nD τ).loc main_v44) ↦{fullShare} V' main_v44)) : sProp 𝕄)
      ⊢ iprop((((c : Thread nD τ).loc main_arg0) ↦{fullShare} V' main_arg0) ∗ (((c : Thread nD τ).loc main_v43) ↦{fullShare} V' main_v43)
          ∗ (((c : Thread nD τ).loc main_v44) ↦{fullShare} V' main_v44)) := by
  iintro ⟨Hl, H1, Hr, H3⟩
  isplitl [Hl Hr]
  · iapply (whole_of_halves (V' main_arg0))
    isplitl [Hl]; · iexact Hl
    iexact Hr
  isplitl [H1]; · iexact H1
  iexact H3
end

/-- With the shared array dealt in halves, the four windows' arrays at contents read off a valuation are the three
    buffers behind them, each whole at that valuation. -/
theorem arrays0_eq_arrBufs (h0 : dat.q 0 = (fullShare : PosShare TreeShare).left) (h1 : dat.q 1 = fullShare) (h2 : dat.q 2 = (fullShare : PosShare TreeShare).right)
    (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    (dat.arrays Fw : sProp 𝕄) = Pipeline.arrBufs (Ix := Unit) (Name := ℕ) (U := UR sig nD τ) (Lvl := ℕ) spec0 c V' := by
  obtain rfl : Fw = fun w => V' (Pipeline.arrRef spec0 w) := funext hF
  rw [arrays0_open dat h0 h1 h2, arrBufs0_open]
  exact equiv_iff.mp ⟨undeal0 V', deal0 V'⟩

end Deal

/-! ## The entry and exit contents at the call's arrays -/

variable (m : (ℓ : Loc nD τ sig) → Buf (Elt F) ℓ)

/-- Off the result array the exit contents are the entry contents. -/
theorem V4_of_ne (c : Dev nD) (b : Ref sig .tc) (hb : b ≠ main_v44) : V4 m c b = V3 m c b := by
  show W4 m c (Proc.devRef .tc b) = W3 m c (Proc.devRef .tc b)
  unfold W4; exact Function.update_of_ne (StableHlo.devRef_ne_of_ne hb) _ _
/-- The result array leaves at the write-backs' fold. -/
theorem V4_main_v44 (c : Dev nD) : V4 m c main_v44 = (dat0 (V3 m) q0 c).arrAt 3 cfg0.N := by
  show W4 m c (Proc.devRef .tc main_v44) = _
  unfold W4; exact Function.update_self _ _ _

/-- An operand array is never written: after every point it holds what it held at entry, which is also what the exit
    contents have there. -/
theorem exit_in0 (c : Dev nD) (w : Fin cfg0.W) (hin : (cfg0.win w).isOut = false) (hne : Pipeline.arrRef spec0 w ≠ main_v44) :
    (dat0 (V3 m) q0 c).arrAt w cfg0.N = V4 m c (Pipeline.arrRef spec0 w) :=
  ((dat0 (V3 m) q0 c).arrAt_in w hin _).trans ((A_eq0 (V3 m) q0 c w).trans (V4_of_ne m c _ hne).symm)

/-- Each window's array after the last point is the exit contents there. -/
theorem exit_arr0 (c : Dev nD) : ∀ w : Fin cfg0.W, (dat0 (V3 m) q0 c).arrAt w cfg0.N = V4 m c (Pipeline.arrRef spec0 w) := fun
  | 0 => exit_in0 m c 0 rfl (by decide)
  | 1 => exit_in0 m c 1 rfl (by decide)
  | 2 => exit_in0 m c 2 rfl (by decide)
  | 3 => (V4_main_v44 m c).symm
  | ⟨_ + 4, h⟩ => absurd h (Nat.not_lt.2 (Nat.le_add_left _ _))

/-- The unscoped buffers that are no window's array hold at exit what they held at entry. -/
theorem rest_exit0 (c : Dev nD) :
    (Pipeline.unscopedRest (Ix := Unit) (Name := ℕ) (U := UR sig nD τ) (Lvl := ℕ) spec0 c (V3 m c) : sProp 𝕄)
      = Pipeline.unscopedRest (Ix := Unit) (Name := ℕ) (U := UR sig nD τ) (Lvl := ℕ) spec0 c (V4 m c) := by
  unfold Pipeline.unscopedRest
  refine bigSep_congr fun b hb => ?_
  rw [V4_of_ne m c b fun e => (Finset.mem_sdiff.mp hb).2 (e ▸ (by decide : main_v44 ∈ Finset.univ.image (Pipeline.arrRef spec0)))]

/-- ENTRY, the buffers' part: every unscoped buffer at the entry contents is the four windows' arrays (the input
    features' in halves) and the rest. -/
theorem entry_split0 (c : Dev nD) :
    (StableHlo.held (c : Thread nD τ) (Pipeline.ucRefs τ sig) (W3 m c) : sProp 𝕄)
      ⊢ iprop((dat0 (V3 m) q0 c).arrays ((dat0 (V3 m) q0 c).arrAt · 0)
          ∗ Pipeline.unscopedRest (Ix := Unit) (Name := ℕ) (U := UR sig nD τ) (Lvl := ℕ) spec0 c (V3 m c)) := by
  have h := Pipeline.unscopedBufs_split₀ (Ix := Unit) (Val := Elt F) (Name := ℕ) (U := UR sig nD τ) (Lvl := ℕ) cfgs 0 winFacts₀0.arr_unscoped c (V3 m c)
  rw [Pipeline.unscopedBufs_held] at h
  rw [h, arrays0_eq_arrBufs (dat0 (V3 m) q0 c) rfl rfl rfl (V3 m c) ((dat0 (V3 m) q0 c).arrAt · 0) fun w =>
    (show (dat0 (V3 m) q0 c).arrAt w 0 = (dat0 (V3 m) q0 c).A w from rfl).trans (A_eq0 (V3 m) q0 c w)]
  exact .rfl

/-- EXIT, the buffers' part: the windows' arrays after the last point and the rest as entered are every unscoped buffer
    at the exit contents. -/
theorem exit_join0 (c : Dev nD) :
    iprop((dat0 (V3 m) q0 c).arrays ((dat0 (V3 m) q0 c).arrAt · cfg0.N)
          ∗ Pipeline.unscopedRest (Ix := Unit) (Name := ℕ) (U := UR sig nD τ) (Lvl := ℕ) spec0 c (V3 m c))
      ⊢ (StableHlo.held (c : Thread nD τ) (Pipeline.ucRefs τ sig) (W4 m c) : sProp 𝕄) := by
  have h := Pipeline.unscopedBufs_split₀ (Ix := Unit) (Val := Elt F) (Name := ℕ) (U := UR sig nD τ) (Lvl := ℕ) cfgs 0 winFacts₀0.arr_unscoped c (V4 m c)
  rw [Pipeline.unscopedBufs_held] at h
  rw [h, arrays0_eq_arrBufs (dat0 (V3 m) q0 c) rfl rfl rfl (V4 m c) _ (exit_arr0 m c), rest_exit0 m c]
  exact .rfl

set_option backward.isDefEq.respectTransparency.types false in
/-- The call as a segment of the program: entered from every unscoped buffer at the entry contents, left at the exit
    contents; the generator register goes into the pipeline's invariant and comes back; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V3 m) q0 c).loose
  hwaits := Pipeline.hwaits_of_owed_zero _ _ _ _ L lv 0 fun _ _ => rfl
  pre c := T (W3 m) c
  post c := T (W4 m) c
  X c := iprop(∃ r, prngReg c r)
  Y c := iprop(∃ r, prngReg c r)
  Z c := Pipeline.unscopedRest (Ix := Unit) (Name := ℕ) (U := UR sig nD τ) (Lvl := ℕ) spec0 c (V3 m c)
  hentry c := by
    -- the kernel has no semaphore of its own and no level fact is used: both are dropped
    rw [Pipeline.ownSems0_none]
    have hsplit : (StableHlo.held (c : Thread nD τ) (Pipeline.ucRefs τ sig) (W3 m c) : sProp 𝕄)
        ⊢ iprop((pdats m 0 c).arrays ((pdats m 0 c).arrAt · 0)
            ∗ Pipeline.unscopedRest (Ix := Unit) (Name := ℕ) (U := UR sig nD τ) (Lvl := ℕ) spec0 c (V3 m c)) := entry_split0 m c
    iintro ⟨⟨Hheld, Hreg, Howes⟩, -, -⟩
    ihave Hsp := hsplit $$ Hheld
    icases Hsp with ⟨Harr, Hrest⟩
    imodintro
    isplitl [Harr]
    · iexact Harr
    isplitr
    · -- no prefetched table: an empty conjunction
      unfold Pipeline.prefHeld
      rw [show (Finset.univ : Finset (Fin 0)) = ∅ from rfl, BI.bigSep_empty]
      iempintro
    isplitl [Howes]
    · -- nothing is owed, within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    -- the invariant is the scoped rest beside the generator register; there is no table to hand over
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    have hjoin : iprop((pdats m 0 c).arrays ((pdats m 0 c).arrAt · cfg0.N)
            ∗ Pipeline.unscopedRest (Ix := Unit) (Name := ℕ) (U := UR sig nD τ) (Lvl := ℕ) spec0 c (V3 m c))
        ⊢ (StableHlo.held (c : Thread nD τ) (Pipeline.ucRefs τ sig) (W4 m c) : sProp 𝕄) := exit_join0 m c
    iintro ⟨Harr, Howes, Hreg, Hrest⟩
    imodintro
    isplitl [Harr Hrest]
    · iapply hjoin
      isplitl [Harr]
      · iexact Harr
      iexact Hrest
    isplitl [Hreg]
    · iexact Hreg
    -- the owes at the last tallies, its bound forgotten
    unfold Pipeline.Dat.owesAt Pipeline.owesWithin
    icases Howes with ⟨%W, -, Howes⟩
    iexists W
    iexact Howes

end Cert.Kernel.Hand

end
-- ==== Proof.K.Reg1.lean ====
/-
  The second pallas_call as a segment of the program: its four arrays (the iterate, the neighbour sum, the anchor and
  the result) are pairwise distinct, so they are split out of the unscoped buffers whole at entry and put back at exit,
  the three operands as entered and the result at what the write-backs made it.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import proofs.«410928_j41137196761669_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The call's result array is the one buffer the exit contents replace. -/
theorem W6_ref : Pipeline.arrRef spec1 3 = main_v58 := rfl

/-- The exit contents at the result array: what the write-backs folded. -/
theorem W6_res (c : Dev nD) : W6 m c (Proc.devRef .tc main_v58) = (dat1 (V5 m) qF c).arrAt 3 cfg1.N := by
  unfold W6; exact Function.update_self _ _ _

/-- The exit contents at any other buffer: the entry contents. -/
theorem W6_off (c : Dev nD) (b : Ref sig .tc) (hb : b ≠ main_v58) :
    W6 m c (Proc.devRef .tc b) = W5 m c (Proc.devRef .tc b) := by
  unfold W6; exact Function.update_of_ne (StableHlo.devRef_ne_of_ne hb) _ _

/-- An operand array is only read, so the pipeline leaves it as entered; it is not the result array, so the exit
    contents have it as entered too. -/
theorem W6_in (c : Dev nD) (w : Fin cfg1.W) (hin : (cfg1.win w).isOut = false)
    (hne : Pipeline.arrRef spec1 w ≠ main_v58) :
    (dat1 (V5 m) qF c).arrAt w cfg1.N = V6 m c (Pipeline.arrRef spec1 w) :=
  (((dat1 (V5 m) qF c).arrAt_in w hin _).trans (A_eq1 (V5 m) qF c w)).trans (W6_off m c _ hne).symm

/-- At the exit every array of the call holds what the pipeline leaves in it. -/
theorem W6_arr (c : Dev nD) : ∀ w : Fin cfg1.W, (dat1 (V5 m) qF c).arrAt w cfg1.N = V6 m c (Pipeline.arrRef spec1 w)
  | ⟨0, _⟩ => W6_in m c 0 rfl (by decide)
  | ⟨1, _⟩ => W6_in m c 1 rfl (by decide)
  | ⟨2, _⟩ => W6_in m c 2 rfl (by decide)
  | ⟨3, _⟩ => (W6_res m c).symm

/-- Off the call's arrays the exit contents are the entry contents: the one buffer replaced is the result array. -/
theorem W6_rest (c : Dev nD) : ∀ b, b ∉ Finset.univ.image (Pipeline.arrRef spec1) → V6 m c b = V5 m c b :=
  fun b hb => W6_off m c b fun e => hb (Finset.mem_image.mpr ⟨3, Finset.mem_univ _, W6_ref.trans e.symm⟩)

set_option backward.isDefEq.respectTransparency.types false in
/-- The call as a segment of the program: entered from every unscoped buffer at the entry contents, left at the exit
    contents; the generator register goes into the pipeline's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) qF c).loose
  hwaits := Pipeline.hwaits_of_owed_zero _ _ _ _ L lv 1 fun _ _ => rfl
  pre c := T (W5 m) c
  post c := T (W6 m) c
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    -- the four arrays come out of the unscoped buffers whole, at the entry contents
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no prefetched table
    isplitr; · unfold Pipeline.prefHeld; rw [show (Finset.univ : Finset (Fin 0)) = ∅ from rfl, BI.bigSep_empty]; iempintro
    -- nothing is owed
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays go back beside the rest: together they are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (W6_arr m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  The third pallas_call as a segment of the program: its four arrays (the iterate, the neighbour sum, the anchor and
  the result) are pairwise distinct, so they are split out of the unscoped buffers whole at entry and put back at exit,
  the three operands as entered and the result at what the write-backs made it.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import proofs.«410928_j41137196761669_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The call's result array is the one buffer the exit contents replace. -/
theorem W8_ref : Pipeline.arrRef spec2 3 = main_v72 := rfl

/-- The exit contents at the result array: what the write-backs folded. -/
theorem W8_res (c : Dev nD) : W8 m c (Proc.devRef .tc main_v72) = (dat2 (V7 m) qF c).arrAt 3 cfg2.N := by
  unfold W8; exact Function.update_self _ _ _

/-- The exit contents at any other buffer: the entry contents. -/
theorem W8_off (c : Dev nD) (b : Ref sig .tc) (hb : b ≠ main_v72) :
    W8 m c (Proc.devRef .tc b) = W7 m c (Proc.devRef .tc b) := by
  unfold W8; exact Function.update_of_ne (StableHlo.devRef_ne_of_ne hb) _ _

/-- An operand array is only read, so the pipeline leaves it as entered; it is not the result array, so the exit
    contents have it as entered too. -/
theorem W8_in (c : Dev nD) (w : Fin cfg2.W) (hin : (cfg2.win w).isOut = false)
    (hne : Pipeline.arrRef spec2 w ≠ main_v72) :
    (dat2 (V7 m) qF c).arrAt w cfg2.N = V8 m c (Pipeline.arrRef spec2 w) :=
  (((dat2 (V7 m) qF c).arrAt_in w hin _).trans (A_eq2 (V7 m) qF c w)).trans (W8_off m c _ hne).symm

/-- At the exit every array of the call holds what the pipeline leaves in it. -/
theorem W8_arr (c : Dev nD) : ∀ w : Fin cfg2.W, (dat2 (V7 m) qF c).arrAt w cfg2.N = V8 m c (Pipeline.arrRef spec2 w)
  | ⟨0, _⟩ => W8_in m c 0 rfl (by decide)
  | ⟨1, _⟩ => W8_in m c 1 rfl (by decide)
  | ⟨2, _⟩ => W8_in m c 2 rfl (by decide)
  | ⟨3, _⟩ => (W8_res m c).symm

/-- Off the call's arrays the exit contents are the entry contents: the one buffer replaced is the result array. -/
theorem W8_rest (c : Dev nD) : ∀ b, b ∉ Finset.univ.image (Pipeline.arrRef spec2) → V8 m c b = V7 m c b :=
  fun b hb => W8_off m c b fun e => hb (Finset.mem_image.mpr ⟨3, Finset.mem_univ _, W8_ref.trans e.symm⟩)

set_option backward.isDefEq.respectTransparency.types false in
/-- The call as a segment of the program: entered from every unscoped buffer at the entry contents, left at the exit
    contents; the generator register goes into the pipeline's invariant and comes back; nothing is owed; the kernel has
    no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) qF c).loose
  hwaits := Pipeline.hwaits_of_owed_zero _ _ _ _ L lv 2 fun _ _ => rfl
  pre c := T (W7 m) c
  post c := T (W8 m) c
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    -- the four arrays come out of the unscoped buffers whole, at the entry contents
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no prefetched table
    isplitr; · unfold Pipeline.prefHeld; rw [show (Finset.univ : Finset (Fin 0)) = ∅ from rfl, BI.bigSep_empty]; iempintro
    -- nothing is owed
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    -- the arrays go back beside the rest: together they are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (W8_arr m c) (W8_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole program's run at any float instance: the five stretches of host operations and the three pallas_calls as
  eight segments in order, each entered from every unscoped buffer at its boundary's contents, and the launch over
  them. Every weakly fair execution terminates, nothing faults, and the final memory holds every unscoped buffer at
  the last boundary's contents; in particular the result array at what the third pipeline leaves and the two
  arguments as launched.
-/
import proofs.«410928_j41137196761669_3_alg».proof.Proof.Gen.Kernel.Launch
import proofs.«410928_j41137196761669_3_alg».proof.Proof.Gen.Kernel.Skeleton
import proofs.«410928_j41137196761669_3_alg».proof.Proof.Gen.Kernel.Points
import proofs.«410928_j41137196761669_3_alg».proof.Proof.Gen.Kernel.Regions
import proofs.«410928_j41137196761669_3_alg».proof.Proof.K.Reg0
import proofs.«410928_j41137196761669_3_alg».proof.Proof.K.Reg1
import proofs.«410928_j41137196761669_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A stretch of host operations as a segment: it runs over the unscoped buffers from the contents W and leaves them
    at the stretch applied to W; the generator register and the core owing nothing ride along untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's eight segments in order: three stretches, the first call, a stretch, the second call, a stretch,
    the third call; each stretch from its boundary's contents. -/
abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (reg0 m),
    .host (stretch hostOps1 hostOps1_sub hostOps1_fresh (W4 m)),
    .region (reg1 m),
    .host (stretch hostOps2 hostOps2_sub hostOps2_fresh (W6 m)),
    .region (reg2 m) ]

/-- The last thread state without the debt: every unscoped buffer at the last boundary's contents and the generator
    register at some state (the chain ends at this beside the core owing nothing). -/
abbrev Tend (c : Dev nD) : sProp 𝕄 :=
  iprop(StableHlo.held (c : Thread nD τ) (Pipeline.ucRefs τ sig) (W8 m c) ∗ ∃ r, prngReg c r)

set_option backward.isDefEq.respectTransparency.types false in
/-- THE RUN: from any memory with zero counters every weakly fair execution of the program terminates, nothing
    faulting, with every unscoped buffer at the contents the fold ends at. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    -- the program is the chain of the segments' programs
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tend m)
    -- every segment is entered from exactly what the one before it leaves
    (hch := ⟨fun _ => .rfl, fun _ => .rfl, fun _ => .rfl, fun _ => .rfl, fun _ => .rfl, fun _ => .rfl, fun _ => .rfl,
      fun _ => .rfl, fun c => by
        -- the last state, regrouped: the buffers and the generator register on one side, the empty debt on the other
        show T (W8 m) c ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    -- the launch deals every unscoped buffer at the launch memory, the generator register and an empty debt
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    -- holding a buffer at some contents beside the state interpretation, the memory has it at those contents
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The result array and the two arguments, read off the run. -/
theorem run_result : θ_run defs (onTc (τ := τ) (main (F := F))) ⟨m, fun _ => 0, ρ⟩ (fun r => ∀ c : Dev nD,
    r.2.mem ((c.tc : Thread nD τ).loc main_v72) = (dat2 (V7 m) qF c).arrAt 3 cfg2.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨(h c _ (mem_uc main_v72 (by decide))).trans (W8_main_v72 m c),
     (h c _ (mem_uc main_arg0 (by decide))).trans (W8_main_arg0 m c),
     (h c _ (mem_uc main_arg1 (by decide))).trans (W8_main_arg1 m c)⟩) (run_all m ρ)

end Cert.Kernel.Hand

end
-- ==== Proof.KI.Body0.lean ====
/-
  The first proximal step's pallas_call (pipeline 0), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×64 block as a rectangle. -/
abbrev rb0 : Rect S2000x64 := Rect.unit (s := S2000x64) ![0, 0] S2000x64.size inb_S2000x64_S2000x64_0_0

/-- The output window's staging buffer after the body, from the three input blocks: one whole-block store. -/
def out0_3 (x0 x1 x2 : Vec F S2000x64 .f32) : Vec F S2000x64 .f32 :=
  View.canon [⟨rb0, k0_pay1 (View.ld x0 rb0) (View.ld x1 rb0) (View.ld x2 rb0)⟩]

/-- The one store covers the buffer. -/
theorem cover0_3 (p0 : Vec F S2000x64 .f32) (y : S2000x64.Idx) :
    ∃ pc ∈ ([⟨rb0, p0⟩] : List (View.Piece (Elt F) S2000x64 .f32)), y ∈ pc.1.set :=
  -- the single rectangle starts at the origin and has the buffer's own extents, so it tiles the buffer
  View.cover_of_tiled [⟨rb0, p0⟩] S2000x64.size (by rfl) y

set_option maxHeartbeats 1000000 in
/-- The body on whole staging memrefs: the inputs' at read contents, the output's at anything, runs to the
    continuation holding the inputs' as they were and the output's at out0_3 of the inputs'. -/
theorem sound_kernel0 (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prox_kernel i arg1 harg1 arg2 harg2 arg3 harg3 arg4 harg4) K := by
  simp only [cc0__prox_kernel_eq_skeleton]; unfold cc0__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover0_3 _)

/-- The proof data of pipeline 0 on core c at region-entry contents V and input shares q: after the body at point t
    each input's buffer at its block and the output's at out0_3 of the input blocks; the invariant the scoped rest and
    the generator register, untouched; nothing owed. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) :
    (dat0 V q c).after 3 t = out0_3 (iblk0 V c 0 t) (iblk0 V c 1 t) (iblk0 V c 2 t) := by dsimp only [dat0]

/-- An operand window's current staging buffer holds its block at every point: the window is fetched at every
    point, and what a fetch puts in the buffer of an uncut window is the block read off the array. Stated for any
    proof data whose array for the window is the region-entry contents. -/
theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (t : Fin cfg0.N) (d) : dat.before 2 t d = iblk0 V c 2 t :=
  (dat.before_fetched 2 t (fetch0_2 t) d).trans (by unfold Dat.fetched Dat.blockOf iblk0; rw [hA]; try rfl)

theorem before0_0 (c : Dev nD) (t : Fin cfg0.N) (d) : (dat0 V q c).before 0 t d = iblk0 V c 0 t :=
  before0_0_of V (dat0 V q c) (A_eq0 V q c 0) t d
theorem before0_1 (c : Dev nD) (t : Fin cfg0.N) (d) : (dat0 V q c).before 1 t d = iblk0 V c 1 t :=
  before0_1_of V (dat0 V q c) (A_eq0 V q c 1) t d
theorem before0_2 (c : Dev nD) (t : Fin cfg0.N) (d) : (dat0 V q c).before 2 t d = iblk0 V c 2 t :=
  before0_2_of V (dat0 V q c) (A_eq0 V q c 2) t d

/-- What the body is called with at point t: the invariant, what the core owes, and each window's current
    staging buffer whole, at what it then holds, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns: the same at the next point, each buffer at what the body leaves in it. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the three operands' buffers hold their blocks, so the body's triple applies at those
    blocks; the invariant and what the core owes do not depend on the point and pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Hand

end
-- ==== Proof.KI.Body1.lean ====
/-
  The second proximal step's pallas_call (pipeline 1), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 2000×64 block as a rectangle. -/
abbrev rb1 : Rect S2000x64 := Rect.unit (s := S2000x64) ![0, 0] S2000x64.size inb_S2000x64_S2000x64_0_0

/-- The output window's staging buffer after the body, from the three input blocks: one whole-block store. -/
def out1_3 (x0 x1 x2 : Vec F S2000x64 .f32) : Vec F S2000x64 .f32 :=
  View.canon [⟨rb1, k1_pay1 (View.ld x0 rb1) (View.ld x1 rb1) (View.ld x2 rb1)⟩]

/-- The one store covers the buffer. -/
theorem cover1_3 (p0 : Vec F S2000x64 .f32) (y : S2000x64.Idx) :
    ∃ pc ∈ ([⟨rb1, p0⟩] : List (View.Piece (Elt F) S2000x64 .f32)), y ∈ pc.1.set :=
  -- the single rectangle starts at the origin and has the buffer's own extents, so it tiles the buffer
  View.cover_of_tiled [⟨rb1, p0⟩] S2000x64.size (by rfl) y

set_option maxHeartbeats 1000000 in
/-- The body on whole staging memrefs: the inputs' at read contents, the output's at anything, runs to the
    continuation holding the inputs' as they were and the output's at out1_3 of the inputs'. -/
theorem sound_kernel1 (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prox_kernel i arg1 harg1 arg2 harg2 arg3 harg3 arg4 harg4) K := by
  simp only [cc1__prox_kernel_eq_skeleton]; unfold cc1__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover1_3 _)

/-- The proof data of pipeline 1 on core c at region-entry contents V and input shares q: after the body at point t
    each input's buffer at its block and the output's at out1_3 of the input blocks; the invariant the scoped rest and
    the generator register, untouched; nothing owed. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) :
    (dat1 V q c).after 3 t = out1_3 (iblk1 V c 0 t) (iblk1 V c 1 t) (iblk1 V c 2 t) := by dsimp only [dat1]

/-- An operand window's current staging buffer holds its block at every point: the window is fetched at every
    point, and what a fetch puts in the buffer of an uncut window is the block read off the array. Stated for any
    proof data whose array for the window is the region-entry contents. -/
theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t :=
  (dat.before_fetched 0 t (fetch1_0 t) d).trans (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t :=
  (dat.before_fetched 1 t (fetch1_1 t) d).trans (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (t : Fin cfg1.N) (d) : dat.before 2 t d = iblk1 V c 2 t :=
  (dat.before_fetched 2 t (fetch1_2 t) d).trans (by unfold Dat.fetched Dat.blockOf iblk1; rw [hA]; try rfl)

theorem before1_0 (c : Dev nD) (t : Fin cfg1.N) (d) : (dat1 V q c).before 0 t d = iblk1 V c 0 t :=
  before1_0_of V (dat1 V q c) (A_eq1 V q c 0) t d
theorem before1_1 (c : Dev nD) (t : Fin cfg1.N) (d) : (dat1 V q c).before 1 t d = iblk1 V c 1 t :=
  before1_1_of V (dat1 V q c) (A_eq1 V q c 1) t d
theorem before1_2 (c : Dev nD) (t : Fin cfg1.N) (d) : (dat1 V q c).before 2 t d = iblk1 V c 2 t :=
  before1_2_of V (dat1 V q c) (A_eq1 V q c 2) t d

/-- What the body is called with at point t: the invariant, what the core owes, and each window's current
    staging buffer whole, at what it then holds, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns: the same at the next point, each buffer at what the body leaves in it. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the three operands' buffers hold their blocks, so the body's triple applies at those
    blocks; the invariant and what the core owes do not depend on the point and pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Hand

end
-- ==== Proof.KI.Body2.lean ====
/-
  The third proximal step's pallas_call (pipeline 2), at any float instance: what its body leaves in the output
  window's staging buffer as a function of the three input blocks, the body's triple, the pipeline's proof data
  at given region-entry contents, and the body obligation at every grid point.

  A grid point t stages rows 2000·t … 2000·t + 1999 of each of the three operands (the current iterate, the
  neighbour sum, the anchor) and writes the same rows of the result; the body loads the three blocks whole,
  computes one block of the same extent and stores it whole, so the output buffer after the body is that one
  stored value.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 2000×64 block as a rectangle. -/
abbrev rb2 : Rect S2000x64 := Rect.unit (s := S2000x64) ![0, 0] S2000x64.size inb_S2000x64_S2000x64_0_0

/-- The output window's staging buffer after the body, from the three input blocks: one whole-block store. -/
def out2_3 (x0 x1 x2 : Vec F S2000x64 .f32) : Vec F S2000x64 .f32 :=
  View.canon [⟨rb2, k2_pay1 (View.ld x0 rb2) (View.ld x1 rb2) (View.ld x2 rb2)⟩]

/-- The one store covers the buffer. -/
theorem cover2_3 (p0 : Vec F S2000x64 .f32) (y : S2000x64.Idx) :
    ∃ pc ∈ ([⟨rb2, p0⟩] : List (View.Piece (Elt F) S2000x64 .f32)), y ∈ pc.1.set :=
  -- the single rectangle starts at the origin and has the buffer's own extents, so it tiles the buffer
  View.cover_of_tiled [⟨rb2, p0⟩] S2000x64.size (by rfl) y

set_option maxHeartbeats 1000000 in
/-- The body on whole staging memrefs: the inputs' at read contents, the output's at anything, runs to the
    continuation holding the inputs' as they were and the output's at out2_3 of the inputs'. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (x0 x1 x2 : Vec F S2000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prox_kernel i arg1 harg1 arg2 harg2 arg3 harg3 arg4 harg4) K := by
  simp only [cc2__prox_kernel_eq_skeleton]; unfold cc2__prox_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- three whole-block loads, one load of the result's buffer whose value is not used, one whole-block store
  sl_exec
  sl_step
  iapply Hk
  -- the three operands' buffers were only read: they hold what they held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the result's buffer reads as the one store's payload, the store covering it
  iexists _; isplitr
  swap; · iexact H3
  ipureintro
  exact View.read_writes_eq_canon _ _ _ (cover2_3 _)

/-- The proof data of pipeline 2 on core c at region-entry contents V and input shares q: after the body at point t
    each input's buffer at its block and the output's at out2_3 of the input blocks; the invariant the scoped rest and
    the generator register, untouched; nothing owed. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) :
    (dat2 V q c).after 3 t = out2_3 (iblk2 V c 0 t) (iblk2 V c 1 t) (iblk2 V c 2 t) := by dsimp only [dat2]

/-- An operand window's current staging buffer holds its block at every point: the window is fetched at every
    point, and what a fetch puts in the buffer of an uncut window is the block read off the array. Stated for any
    proof data whose array for the window is the region-entry contents. -/
theorem before2_0_of {c : Dev nD} (dat : Dat τ (Elt F) Unit ℕ (UR sig nD τ) ℕ cfg2 c) (hA : dat.A 0 = V c (Pipeline.arrRef spec2 0))
    (t : Fin cfg2.N) (d) : dat.before 0 t d = iblk2 V c 0 t :=
  (dat.before_fetched 0 t (fetch2_0 t) d).trans (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (t : Fin cfg2.N) (d) : dat.before 1 t d = iblk2 V c 1 t :=
  (dat.before_fetched 1 t (fetch2_1 t) d).trans (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (t : Fin cfg2.N) (d) : dat.before 2 t d = iblk2 V c 2 t :=
  (dat.before_fetched 2 t (fetch2_2 t) d).trans (by unfold Dat.fetched Dat.blockOf iblk2; rw [hA]; try rfl)

theorem before2_0 (c : Dev nD) (t : Fin cfg2.N) (d) : (dat2 V q c).before 0 t d = iblk2 V c 0 t :=
  before2_0_of V (dat2 V q c) (A_eq2 V q c 0) t d
theorem before2_1 (c : Dev nD) (t : Fin cfg2.N) (d) : (dat2 V q c).before 1 t d = iblk2 V c 1 t :=
  before2_1_of V (dat2 V q c) (A_eq2 V q c 1) t d
theorem before2_2 (c : Dev nD) (t : Fin cfg2.N) (d) : (dat2 V q c).before 2 t d = iblk2 V c 2 t :=
  before2_2_of V (dat2 V q c) (A_eq2 V q c 2) t d

/-- What the body is called with at point t: the invariant, what the core owes, and each window's current
    staging buffer whole, at what it then holds, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns: the same at the next point, each buffer at what the body leaves in it. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

/-- The body at any point: the three operands' buffers hold their blocks, so the body's triple applies at those
    blocks; the invariant and what the core owes do not depend on the point and pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end Cert.KernelIdeal.Hand

end
-- ==== Proof.KI.Fold.lean ====
/-
  The buffer contents at every boundary of the program, as a fold from the launch memory: after each stretch of
  host operations the stretch applied to what was there; after each pallas_call the same contents with the call's
  result array replaced by what the pipeline's write-backs leave in it (the three operand arrays are only read).
  Then the three pipelines' proof data, each at its call's entry contents, and what rides beside the buffers
  through every segment (the generator register and the core owing nothing).

  The first call reads the input features through two of its windows (the iterate and the anchor are the same
  array there), so that array is held in two halves, one per window; every other operand is held whole.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import proofs.«410928_j41137196761669_3_alg».proof.Proof.Gen.KernelIdeal.Regions
import proofs.«410928_j41137196761669_3_alg».proof.Proof.KI.Body0
import proofs.«410928_j41137196761669_3_alg».proof.Proof.KI.Body1
import proofs.«410928_j41137196761669_3_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of the first call's operands: the input features' array in two halves, the rest whole. -/
def q0 : Fin cfg0.W → PosShare TreeShare
  | ⟨0, _⟩ => (fullShare : PosShare TreeShare).left
  | ⟨1, _⟩ => fullShare
  | ⟨2, _⟩ => (fullShare : PosShare TreeShare).right
  | ⟨3, _⟩ => fullShare
/-- Every operand of the later calls is held whole. -/
abbrev qF {W : Nat} : Fin W → PosShare TreeShare := fun _ => fullShare

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The first call's entry contents. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- The first call's exit contents: its result array at what the write-backs leave. -/
def W4 (c : Dev nD) : Valuation τ sig (Elt F) :=
  Function.update (W3 m c) (Proc.devRef .tc main_v44) ((dat0 (V3 m) q0 c).arrAt 3 cfg0.N)
abbrev V4 : (c : Dev nD) → (b : Ref sig .tc) → Buf (Elt F) ((c : Thread nD τ).loc b) := fun c b => W4 m c b
/-- The second call's entry contents. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Function.update (W5 m c) (Proc.devRef .tc main_v58) ((dat1 (V5 m) qF c).arrAt 3 cfg1.N)
abbrev V6 : (c : Dev nD) → (b : Ref sig .tc) → Buf (Elt F) ((c : Thread nD τ).loc b) := fun c b => W6 m c b
/-- The third call's entry contents. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- The contents at the return. -/
def W8 (c : Dev nD) : Valuation τ sig (Elt F) :=
  Function.update (W7 m c) (Proc.devRef .tc main_v72) ((dat2 (V7 m) qF c).arrAt 3 cfg2.N)
abbrev V8 : (c : Dev nD) → (b : Ref sig .tc) → Buf (Elt F) ((c : Thread nD τ).loc b) := fun c b => W8 m c b

/-- The result array at the return is what the third pipeline leaves. -/
theorem W8_main_v72 (c : Dev nD) : W8 m c (Proc.devRef .tc main_v72) = (dat2 (V7 m) qF c).arrAt 3 cfg2.N := by
  unfold W8; exact Function.update_self _ _ _

/-- No stretch and no call writes an argument: each reaches the return as launched. -/
theorem W8_main_arg0 (c : Dev nD) : W8 m c (Proc.devRef .tc main_arg0) = m ((c : Thread nD τ).loc main_arg0) :=
  calc W8 m c (Proc.devRef .tc main_arg0)
    -- the third call replaces its result array only
    _ = W7 m c (Proc.devRef .tc main_arg0) := by
          unfold W8; exact Function.update_of_ne (StableHlo.devRef_ne_of_ne (by decide)) _ _
    -- the stretch before it writes its own results only
    _ = W6 m c (Proc.devRef .tc main_arg0) := StableHlo.after_of_writes_sub hostOps2 _ hostOps2_writes (by decide)
    _ = W5 m c (Proc.devRef .tc main_arg0) := by
          unfold W6; exact Function.update_of_ne (StableHlo.devRef_ne_of_ne (by decide)) _ _
    _ = W4 m c (Proc.devRef .tc main_arg0) := StableHlo.after_of_writes_sub hostOps1 _ hostOps1_writes (by decide)
    _ = W3 m c (Proc.devRef .tc main_arg0) := by
          unfold W4; exact Function.update_of_ne (StableHlo.devRef_ne_of_ne (by decide)) _ _
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := by
          unfold W8; exact Function.update_of_ne (StableHlo.devRef_ne_of_ne (by decide)) _ _
    _ = W6 m c (Proc.devRef .tc main_arg1) := StableHlo.after_of_writes_sub hostOps2 _ hostOps2_writes (by decide)
    _ = W5 m c (Proc.devRef .tc main_arg1) := by
          unfold W6; exact Function.update_of_ne (StableHlo.devRef_ne_of_ne (by decide)) _ _
    _ = W4 m c (Proc.devRef .tc main_arg1) := StableHlo.after_of_writes_sub hostOps1 _ hostOps1_writes (by decide)
    _ = W3 m c (Proc.devRef .tc main_arg1) := by
          unfold W4; exact Function.update_of_ne (StableHlo.devRef_ne_of_ne (by decide)) _ _
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- No pallas_call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V3 m) q0 c
  | ⟨1, _⟩ => fun c => dat1 (V5 m) qF c
  | ⟨2, _⟩ => fun c => dat2 (V7 m) qF c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The thread state between two segments: every unscoped buffer at the boundary's contents, beside R. -/
abbrev T (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.KI.Reg0.lean ====
/-
  The first pallas_call as a segment of the program. Two of its windows read ONE array (the input features serve as
  the iterate and as the anchor), so at entry that array's points-to is dealt in two halves, one to each window, and at
  exit the halves, both still at the entry contents because an input array is never written, are joined again; the
  neighbour sum's array and the result array are held whole. The result array leaves at what the write-backs made it.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import proofs.«410928_j41137196761669_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

/-! ## The three buffers behind the four windows -/

/-- The arrays the windows stand on, listed once each: the input features (windows 0 and 2), the neighbour sum
    (window 1), the result (window 3). -/
theorem arrImage0 : (Finset.univ.image (Pipeline.arrRef spec0)) = ([main_arg0, main_v43, main_v44] : List (Ref sig .tc)).toFinset := by decide

/-- The buffers behind the windows' arrays, one by one. -/
theorem arrBufs0_open (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v43) ↦{fullShare} V' main_v43)
          ∗ (((c : Thread nD τ).loc main_v44) ↦{fullShare} V' main_v44)) := by
  unfold Pipeline.arrBufs
  exact bigSep_eq_bigSepL_of_eq [main_arg0, main_v43, main_v44] arrImage0 (by decide) _

section Deal

variable {c : Dev nD} (dat : Dat τ (Elt F) Unit ℕ (UR sig nD τ) ℕ cfg0 c)

/-- An input window's array is held at the share the proof data name, the output's whole. -/
theorem share_in0 : dat.share 0 = dat.q 0 := rfl
theorem share_in1 : dat.share 1 = dat.q 1 := rfl
theorem share_in2 : dat.share 2 = dat.q 2 := rfl
theorem share_out3 : dat.share 3 = fullShare := rfl

/-- The windows' arrays one by one, each a whole buffer, when the shared array goes in halves to windows 0 and 2. -/
theorem arrays0_open (h0 : dat.q 0 = (fullShare : PosShare TreeShare).left) (h1 : dat.q 1 = fullShare) (h2 : dat.q 2 = (fullShare : PosShare TreeShare).right)
    (Fw : (w : Fin cfg0.W) → Buf (Elt F) ((cfg0.win w).arr.view.loc (c : Thread nD τ))) :
    (dat.arrays Fw : sProp 𝕄)
      = iprop((((c : Thread nD τ).loc main_arg0) ↦{(fullShare : PosShare TreeShare).left} Fw 0) ∗ (((c : Thread nD τ).loc main_v43) ↦{fullShare} Fw 1)
          ∗ (((c : Thread nD τ).loc main_arg0) ↦{(fullShare : PosShare TreeShare).right} Fw 2) ∗ (((c : Thread nD τ).loc main_v44) ↦{fullShare} Fw 3)) := by
  unfold Dat.arrays
  -- windows 0 and 2 stand on one array: its element set is rewritten for both at once
  rw [bigSep_W0, share_in0, share_in1, share_in2, share_out3, h0, h1, h2, (arr_whole0 0).set_eq_univ, (arr_whole0 1).set_eq_univ, (arr_whole0 3).set_eq_univ]

/-- A whole buffer dealt in two halves, and the halves joined. -/
theorem halves_of_whole {ℓ : Loc nD τ sig} (f : Buf (Elt F) ℓ) :
    (ℓ ↦{fullShare} f : sProp 𝕄) ⊢ iprop((ℓ ↦{(fullShare : PosShare TreeShare).left} f) ∗ ℓ ↦{(fullShare : PosShare TreeShare).right} f) :=
  (pointsTo_share (PosShare.mem_left_op_right fullShare)).1
theorem whole_of_halves {ℓ : Loc nD τ sig} (f : Buf (Elt F) ℓ) :
    iprop((ℓ ↦{(fullShare : PosShare TreeShare).left} f) ∗ ℓ ↦{(fullShare : PosShare TreeShare).right} f) ⊢ (ℓ ↦{fullShare} f : sProp 𝕄) :=
  (pointsTo_share (PosShare.mem_left_op_right fullShare)).2

section
variable (V' : (b : Ref sig .tc) → Buf (Elt F) ((c : Thread nD τ).loc b))

/-- The three whole buffers, the input features' dealt in halves. -/
theorem deal0 :
    iprop((((c : Thread nD τ).loc main_arg0) ↦{fullShare} V' main_arg0) ∗ (((c : Thread nD τ).loc main_v43) ↦{fullShare} V' main_v43)
          ∗ (((c : Thread nD τ).loc main_v44) ↦{fullShare} V' main_v44))
      ⊢ (iprop((((c : Thread nD τ).loc main_arg0) ↦{(fullShare : PosShare TreeShare).left} V' main_arg0) ∗ (((c : Thread nD τ).loc main_v43) ↦{fullShare} V' main_v43)
          ∗ (((c : Thread nD τ).loc main_arg0) ↦{(fullShare : PosShare TreeShare).right} V' main_arg0) ∗ (((c : Thread nD τ).loc main_v44) ↦{fullShare} V' main_v44)) : sProp 𝕄) := by
  iintro ⟨H0, H1, H3⟩
  ihave H := (halves_of_whole (V' main_arg0)) $$ H0
  icases H with ⟨Hl, Hr⟩
  isplitl [Hl]; · iexact Hl
  isplitl [H1]; · iexact H1
  isplitl [Hr]; · iexact Hr
  iexact H3

/-- The halves, both at one contents, joined: the three whole buffers again. -/
theorem undeal0 :
    (iprop((((c : Thread nD τ).loc main_arg0) ↦{(fullShare : PosShare TreeShare).left} V' main_arg0) ∗ (((c : Thread nD τ).loc main_v43) ↦{fullShare} V' main_v43)
          ∗ (((c : Thread nD τ).loc main_arg0) ↦{(fullShare : PosShare TreeShare).right} V' main_arg0) ∗ (((c : Thread nD τ).loc main_v44) ↦{fullShare} V' main_v44)) : sProp 𝕄)
      ⊢ iprop((((c : Thread nD τ).loc main_arg0) ↦{fullShare} V' main_arg0) ∗ (((c : Thread nD τ).loc main_v43) ↦{fullShare} V' main_v43)
          ∗ (((c : Thread nD τ).loc main_v44) ↦{fullShare} V' main_v44)) := by
  iintro ⟨Hl, H1, Hr, H3⟩
  isplitl [Hl Hr]
  · iapply (whole_of_halves (V' main_arg0))
    isplitl [Hl]; · iexact Hl
    iexact Hr
  isplitl [H1]; · iexact H1
  iexact H3
end

/-- With the shared array dealt in halves, the four windows' arrays at contents read off a valuation are the three
    buffers behind them, each whole at that valuation. -/
theorem arrays0_eq_arrBufs (h0 : dat.q 0 = (fullShare : PosShare TreeShare).left) (h1 : dat.q 1 = fullShare) (h2 : dat.q 2 = (fullShare : PosShare TreeShare).right)
    (V' : (b : Ref sig .tc) → Buf (Elt F) ((c : Thread nD τ).loc b))
    (Fw : (w : Fin cfg0.W) → Buf (Elt F) ((cfg0.win w).arr.view.loc (c : Thread nD τ))) (hF : ∀ w, Fw w = V' (Pipeline.arrRef spec0 w)) :
    (dat.arrays Fw : sProp 𝕄) = Pipeline.arrBufs (Ix := Unit) (Name := ℕ) (U := UR sig nD τ) (Lvl := ℕ) spec0 c V' := by
  obtain rfl : Fw = fun w => V' (Pipeline.arrRef spec0 w) := funext hF
  rw [arrays0_open dat h0 h1 h2, arrBufs0_open]
  exact equiv_iff.mp ⟨undeal0 V', deal0 V'⟩

end Deal

/-! ## The entry and exit contents at the call's arrays -/

variable (m : (ℓ : Loc nD τ sig) → Buf (Elt F) ℓ)

/-- Off the result array the exit contents are the entry contents. -/
theorem V4_of_ne (c : Dev nD) (b : Ref sig .tc) (hb : b ≠ main_v44) : V4 m c b = V3 m c b := by
  show W4 m c (Proc.devRef .tc b) = W3 m c (Proc.devRef .tc b)
  unfold W4; exact Function.update_of_ne (StableHlo.devRef_ne_of_ne hb) _ _
/-- The result array leaves at the write-backs' fold. -/
theorem V4_main_v44 (c : Dev nD) : V4 m c main_v44 = (dat0 (V3 m) q0 c).arrAt 3 cfg0.N := by
  show W4 m c (Proc.devRef .tc main_v44) = _
  unfold W4; exact Function.update_self _ _ _

/-- An operand array is never written: after every point it holds what it held at entry, which is also what the exit
    contents have there. -/
theorem exit_in0 (c : Dev nD) (w : Fin cfg0.W) (hin : (cfg0.win w).isOut = false) (hne : Pipeline.arrRef spec0 w ≠ main_v44) :
    (dat0 (V3 m) q0 c).arrAt w cfg0.N = V4 m c (Pipeline.arrRef spec0 w) :=
  ((dat0 (V3 m) q0 c).arrAt_in w hin _).trans ((A_eq0 (V3 m) q0 c w).trans (V4_of_ne m c _ hne).symm)

/-- Each window's array after the last point is the exit contents there. -/
theorem exit_arr0 (c : Dev nD) : ∀ w : Fin cfg0.W, (dat0 (V3 m) q0 c).arrAt w cfg0.N = V4 m c (Pipeline.arrRef spec0 w) := fun
  | 0 => exit_in0 m c 0 rfl (by decide)
  | 1 => exit_in0 m c 1 rfl (by decide)
  | 2 => exit_in0 m c 2 rfl (by decide)
  | 3 => (V4_main_v44 m c).symm
  | ⟨_ + 4, h⟩ => absurd h (Nat.not_lt.2 (Nat.le_add_left _ _))

/-- The unscoped buffers that are no window's array hold at exit what they held at entry. -/
theorem rest_exit0 (c : Dev nD) :
    (Pipeline.unscopedRest (Ix := Unit) (Name := ℕ) (U := UR sig nD τ) (Lvl := ℕ) spec0 c (V3 m c) : sProp 𝕄)
      = Pipeline.unscopedRest (Ix := Unit) (Name := ℕ) (U := UR sig nD τ) (Lvl := ℕ) spec0 c (V4 m c) := by
  unfold Pipeline.unscopedRest
  refine bigSep_congr fun b hb => ?_
  rw [V4_of_ne m c b fun e => (Finset.mem_sdiff.mp hb).2 (e ▸ (by decide : main_v44 ∈ Finset.univ.image (Pipeline.arrRef spec0)))]

/-- ENTRY, the buffers' part: every unscoped buffer at the entry contents is the four windows' arrays (the input
    features' in halves) and the rest. -/
theorem entry_split0 (c : Dev nD) :
    (StableHlo.held (c : Thread nD τ) (Pipeline.ucRefs τ sig) (W3 m c) : sProp 𝕄)
      ⊢ iprop((dat0 (V3 m) q0 c).arrays ((dat0 (V3 m) q0 c).arrAt · 0)
          ∗ Pipeline.unscopedRest (Ix := Unit) (Name := ℕ) (U := UR sig nD τ) (Lvl := ℕ) spec0 c (V3 m c)) := by
  have h := Pipeline.unscopedBufs_split₀ (Ix := Unit) (Val := Elt F) (Name := ℕ) (U := UR sig nD τ) (Lvl := ℕ) cfgs 0 winFacts₀0.arr_unscoped c (V3 m c)
  rw [Pipeline.unscopedBufs_held] at h
  rw [h, arrays0_eq_arrBufs (dat0 (V3 m) q0 c) rfl rfl rfl (V3 m c) ((dat0 (V3 m) q0 c).arrAt · 0) fun w =>
    (show (dat0 (V3 m) q0 c).arrAt w 0 = (dat0 (V3 m) q0 c).A w from rfl).trans (A_eq0 (V3 m) q0 c w)]
  exact .rfl

/-- EXIT, the buffers' part: the windows' arrays after the last point and the rest as entered are every unscoped buffer
    at the exit contents. -/
theorem exit_join0 (c : Dev nD) :
    iprop((dat0 (V3 m) q0 c).arrays ((dat0 (V3 m) q0 c).arrAt · cfg0.N)
          ∗ Pipeline.unscopedRest (Ix := Unit) (Name := ℕ) (U := UR sig nD τ) (Lvl := ℕ) spec0 c (V3 m c))
      ⊢ (StableHlo.held (c : Thread nD τ) (Pipeline.ucRefs τ sig) (W4 m c) : sProp 𝕄) := by
  have h := Pipeline.unscopedBufs_split₀ (Ix := Unit) (Val := Elt F) (Name := ℕ) (U := UR sig nD τ) (Lvl := ℕ) cfgs 0 winFacts₀0.arr_unscoped c (V4 m c)
  rw [Pipeline.unscopedBufs_held] at h
  rw [h, arrays0_eq_arrBufs (dat0 (V3 m) q0 c) rfl rfl rfl (V4 m c) _ (exit_arr0 m c), rest_exit0 m c]
  exact .rfl

set_option backward.isDefEq.respectTransparency.types false in
/-- The call as a segment of the program: entered from every unscoped buffer at the entry contents, left at the exit
    contents; the generator register goes into the pipeline's invariant and comes back; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V3 m) q0 c).loose
  hwaits := Pipeline.hwaits_of_owed_zero _ _ _ _ L lv 0 fun _ _ => rfl
  pre c := T (W3 m) c
  post c := T (W4 m) c
  X c := iprop(∃ r, prngReg c r)
  Y c := iprop(∃ r, prngReg c r)
  Z c := Pipeline.unscopedRest (Ix := Unit) (Name := ℕ) (U := UR sig nD τ) (Lvl := ℕ) spec0 c (V3 m c)
  hentry c := by
    -- the kernel has no semaphore of its own and no level fact is used: both are dropped
    rw [Pipeline.ownSems0_none]
    have hsplit : (StableHlo.held (c : Thread nD τ) (Pipeline.ucRefs τ sig) (W3 m c) : sProp 𝕄)
        ⊢ iprop((pdats m 0 c).arrays ((pdats m 0 c).arrAt · 0)
            ∗ Pipeline.unscopedRest (Ix := Unit) (Name := ℕ) (U := UR sig nD τ) (Lvl := ℕ) spec0 c (V3 m c)) := entry_split0 m c
    iintro ⟨⟨Hheld, Hreg, Howes⟩, -, -⟩
    ihave Hsp := hsplit $$ Hheld
    icases Hsp with ⟨Harr, Hrest⟩
    imodintro
    isplitl [Harr]
    · iexact Harr
    isplitr
    · -- no prefetched table: an empty conjunction
      unfold Pipeline.prefHeld
      rw [show (Finset.univ : Finset (Fin 0)) = ∅ from rfl, BI.bigSep_empty]
      iempintro
    isplitl [Howes]
    · -- nothing is owed, within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    -- the invariant is the scoped rest beside the generator register; there is no table to hand over
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    have hjoin : iprop((pdats m 0 c).arrays ((pdats m 0 c).arrAt · cfg0.N)
            ∗ Pipeline.unscopedRest (Ix := Unit) (Name := ℕ) (U := UR sig nD τ) (Lvl := ℕ) spec0 c (V3 m c))
        ⊢ (StableHlo.held (c : Thread nD τ) (Pipeline.ucRefs τ sig) (W4 m c) : sProp 𝕄) := exit_join0 m c
    iintro ⟨Harr, Howes, Hreg, Hrest⟩
    imodintro
    isplitl [Harr Hrest]
    · iapply hjoin
      isplitl [Harr]
      · iexact Harr
      iexact Hrest
    isplitl [Hreg]
    · iexact Hreg
    -- the owes at the last tallies, its bound forgotten
    unfold Pipeline.Dat.owesAt Pipeline.owesWithin
    icases Howes with ⟨%W, -, Howes⟩
    iexists W
    iexact Howes

end Cert.KernelIdeal.Hand

end
-- ==== Proof.KI.Reg1.lean ====
/-
  The second pallas_call as a segment of the program: its four arrays (the iterate, the neighbour sum, the anchor and
  the result) are pairwise distinct, so they are split out of the unscoped buffers whole at entry and put back at exit,
  the three operands as entered and the result at what the write-backs made it.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import proofs.«410928_j41137196761669_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The call's result array is the one buffer the exit contents replace. -/
theorem W6_ref : Pipeline.arrRef spec1 3 = main_v58 := rfl

/-- The exit contents at the result array: what the write-backs folded. -/
theorem W6_res (c : Dev nD) : W6 m c (Proc.devRef .tc main_v58) = (dat1 (V5 m) qF c).arrAt 3 cfg1.N := by
  unfold W6; exact Function.update_self _ _ _

/-- The exit contents at any other buffer: the entry contents. -/
theorem W6_off (c : Dev nD) (b : Ref sig .tc) (hb : b ≠ main_v58) :
    W6 m c (Proc.devRef .tc b) = W5 m c (Proc.devRef .tc b) := by
  unfold W6; exact Function.update_of_ne (StableHlo.devRef_ne_of_ne hb) _ _

/-- An operand array is only read, so the pipeline leaves it as entered; it is not the result array, so the exit
    contents have it as entered too. -/
theorem W6_in (c : Dev nD) (w : Fin cfg1.W) (hin : (cfg1.win w).isOut = false)
    (hne : Pipeline.arrRef spec1 w ≠ main_v58) :
    (dat1 (V5 m) qF c).arrAt w cfg1.N = V6 m c (Pipeline.arrRef spec1 w) :=
  (((dat1 (V5 m) qF c).arrAt_in w hin _).trans (A_eq1 (V5 m) qF c w)).trans (W6_off m c _ hne).symm

/-- At the exit every array of the call holds what the pipeline leaves in it. -/
theorem W6_arr (c : Dev nD) : ∀ w : Fin cfg1.W, (dat1 (V5 m) qF c).arrAt w cfg1.N = V6 m c (Pipeline.arrRef spec1 w)
  | ⟨0, _⟩ => W6_in m c 0 rfl (by decide)
  | ⟨1, _⟩ => W6_in m c 1 rfl (by decide)
  | ⟨2, _⟩ => W6_in m c 2 rfl (by decide)
  | ⟨3, _⟩ => (W6_res m c).symm

/-- Off the call's arrays the exit contents are the entry contents: the one buffer replaced is the result array. -/
theorem W6_rest (c : Dev nD) : ∀ b, b ∉ Finset.univ.image (Pipeline.arrRef spec1) → V6 m c b = V5 m c b :=
  fun b hb => W6_off m c b fun e => hb (Finset.mem_image.mpr ⟨3, Finset.mem_univ _, W6_ref.trans e.symm⟩)

set_option backward.isDefEq.respectTransparency.types false in
/-- The call as a segment of the program: entered from every unscoped buffer at the entry contents, left at the exit
    contents; the generator register goes into the pipeline's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) qF c).loose
  hwaits := Pipeline.hwaits_of_owed_zero _ _ _ _ L lv 1 fun _ _ => rfl
  pre c := T (W5 m) c
  post c := T (W6 m) c
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    -- the four arrays come out of the unscoped buffers whole, at the entry contents
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no prefetched table
    isplitr; · unfold Pipeline.prefHeld; rw [show (Finset.univ : Finset (Fin 0)) = ∅ from rfl, BI.bigSep_empty]; iempintro
    -- nothing is owed
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays go back beside the rest: together they are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (W6_arr m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  The third pallas_call as a segment of the program: its four arrays (the iterate, the neighbour sum, the anchor and
  the result) are pairwise distinct, so they are split out of the unscoped buffers whole at entry and put back at exit,
  the three operands as entered and the result at what the write-backs made it.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import proofs.«410928_j41137196761669_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The call's result array is the one buffer the exit contents replace. -/
theorem W8_ref : Pipeline.arrRef spec2 3 = main_v72 := rfl

/-- The exit contents at the result array: what the write-backs folded. -/
theorem W8_res (c : Dev nD) : W8 m c (Proc.devRef .tc main_v72) = (dat2 (V7 m) qF c).arrAt 3 cfg2.N := by
  unfold W8; exact Function.update_self _ _ _

/-- The exit contents at any other buffer: the entry contents. -/
theorem W8_off (c : Dev nD) (b : Ref sig .tc) (hb : b ≠ main_v72) :
    W8 m c (Proc.devRef .tc b) = W7 m c (Proc.devRef .tc b) := by
  unfold W8; exact Function.update_of_ne (StableHlo.devRef_ne_of_ne hb) _ _

/-- An operand array is only read, so the pipeline leaves it as entered; it is not the result array, so the exit
    contents have it as entered too. -/
theorem W8_in (c : Dev nD) (w : Fin cfg2.W) (hin : (cfg2.win w).isOut = false)
    (hne : Pipeline.arrRef spec2 w ≠ main_v72) :
    (dat2 (V7 m) qF c).arrAt w cfg2.N = V8 m c (Pipeline.arrRef spec2 w) :=
  (((dat2 (V7 m) qF c).arrAt_in w hin _).trans (A_eq2 (V7 m) qF c w)).trans (W8_off m c _ hne).symm

/-- At the exit every array of the call holds what the pipeline leaves in it. -/
theorem W8_arr (c : Dev nD) : ∀ w : Fin cfg2.W, (dat2 (V7 m) qF c).arrAt w cfg2.N = V8 m c (Pipeline.arrRef spec2 w)
  | ⟨0, _⟩ => W8_in m c 0 rfl (by decide)
  | ⟨1, _⟩ => W8_in m c 1 rfl (by decide)
  | ⟨2, _⟩ => W8_in m c 2 rfl (by decide)
  | ⟨3, _⟩ => (W8_res m c).symm

/-- Off the call's arrays the exit contents are the entry contents: the one buffer replaced is the result array. -/
theorem W8_rest (c : Dev nD) : ∀ b, b ∉ Finset.univ.image (Pipeline.arrRef spec2) → V8 m c b = V7 m c b :=
  fun b hb => W8_off m c b fun e => hb (Finset.mem_image.mpr ⟨3, Finset.mem_univ _, W8_ref.trans e.symm⟩)

set_option backward.isDefEq.respectTransparency.types false in
/-- The call as a segment of the program: entered from every unscoped buffer at the entry contents, left at the exit
    contents; the generator register goes into the pipeline's invariant and comes back; nothing is owed; the kernel has
    no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) qF c).loose
  hwaits := Pipeline.hwaits_of_owed_zero _ _ _ _ L lv 2 fun _ _ => rfl
  pre c := T (W7 m) c
  post c := T (W8 m) c
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    -- the four arrays come out of the unscoped buffers whole, at the entry contents
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    -- no prefetched table
    isplitr; · unfold Pipeline.prefHeld; rw [show (Finset.univ : Finset (Fin 0)) = ∅ from rfl, BI.bigSep_empty]; iempintro
    -- nothing is owed
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    -- the arrays go back beside the rest: together they are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (W8_arr m c) (W8_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program's run at any float instance: the five stretches of host operations and the three pallas_calls as
  eight segments in order, each entered from every unscoped buffer at its boundary's contents, and the launch over
  them. Every weakly fair execution terminates, nothing faults, and the final memory holds every unscoped buffer at
  the last boundary's contents; in particular the result array at what the third pipeline leaves and the two
  arguments as launched.
-/
import proofs.«410928_j41137196761669_3_alg».proof.Proof.Gen.KernelIdeal.Launch
import proofs.«410928_j41137196761669_3_alg».proof.Proof.Gen.KernelIdeal.Skeleton
import proofs.«410928_j41137196761669_3_alg».proof.Proof.Gen.KernelIdeal.Points
import proofs.«410928_j41137196761669_3_alg».proof.Proof.Gen.KernelIdeal.Regions
import proofs.«410928_j41137196761669_3_alg».proof.Proof.KI.Reg0
import proofs.«410928_j41137196761669_3_alg».proof.Proof.KI.Reg1
import proofs.«410928_j41137196761669_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A stretch of host operations as a segment: it runs over the unscoped buffers from the contents W and leaves them
    at the stretch applied to W; the generator register and the core owing nothing ride along untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's eight segments in order: three stretches, the first call, a stretch, the second call, a stretch,
    the third call; each stretch from its boundary's contents. -/
abbrev segs : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (reg0 m),
    .host (stretch hostOps1 hostOps1_sub hostOps1_fresh (W4 m)),
    .region (reg1 m),
    .host (stretch hostOps2 hostOps2_sub hostOps2_fresh (W6 m)),
    .region (reg2 m) ]

/-- The last thread state without the debt: every unscoped buffer at the last boundary's contents and the generator
    register at some state (the chain ends at this beside the core owing nothing). -/
abbrev Tend (c : Dev nD) : sProp 𝕄 :=
  iprop(StableHlo.held (c : Thread nD τ) (Pipeline.ucRefs τ sig) (W8 m c) ∗ ∃ r, prngReg c r)

set_option backward.isDefEq.respectTransparency.types false in
/-- THE RUN: from any memory with zero counters every weakly fair execution of the program terminates, nothing
    faulting, with every unscoped buffer at the contents the fold ends at. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    -- the program is the chain of the segments' programs
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tend m)
    -- every segment is entered from exactly what the one before it leaves
    (hch := ⟨fun _ => .rfl, fun _ => .rfl, fun _ => .rfl, fun _ => .rfl, fun _ => .rfl, fun _ => .rfl, fun _ => .rfl,
      fun _ => .rfl, fun c => by
        -- the last state, regrouped: the buffers and the generator register on one side, the empty debt on the other
        show T (W8 m) c ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    -- the launch deals every unscoped buffer at the launch memory, the generator register and an empty debt
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    -- holding a buffer at some contents beside the state interpretation, the memory has it at those contents
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The result array and the two arguments, read off the run. -/
theorem run_result : θ_run defs (onTc (τ := τ) (main (F := F))) ⟨m, fun _ => 0, ρ⟩ (fun r => ∀ c : Dev nD,
    r.2.mem ((c.tc : Thread nD τ).loc main_v72) = (dat2 (V7 m) qF c).arrAt 3 cfg2.N
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨(h c _ (mem_uc main_v72 (by decide))).trans (W8_main_v72 m c),
     (h c _ (mem_uc main_arg0 (by decide))).trans (W8_main_arg0 m c),
     (h c _ (mem_uc main_arg1 (by decide))).trans (W8_main_arg1 m c)⟩) (run_all m ρ)

end Cert.KernelIdeal.Hand

end
-- ==== Proof.Value.Spec.lean ====
/-
  The row-wise proximal step, as one function of three whole arrays of 100000 rows and 64 columns.

  With cur the current iterate, sp the normalised neighbour sum of cur and hh the anchor (the input features),
  let d = (cur - 1·(cur - sp)) - hh, and for each row r let rn r = sqrt (0 + Σ_k d[r,k]²). The row's shrink
  factor is 0 when rn r ≤ 0 and otherwise max (rn r - λ, 0) / rn r, with λ the float 0x3D638E39; the divisor is
  replaced by 1 where rn r ≤ 0, so that the quotient is defined on every row before it is discarded there.
  The step's result is hh + factor · d, the factor spread along the row.

  Every operation is the host's own (the reference program's spelling); the constants are the printed words.
-/
import proofs.«410928_j41137196761669_3_alg».proof.ReferenceIdeal
import proofs.«410928_j41137196761669_3_alg».proof.Proof.Gen.ReferenceIdeal

noncomputable section

namespace Cert.Spec

open Idealize.ShloMosaic Cert.ReferenceIdeal Cert.ReferenceIdeal.Gen

variable {F : FTy → Type} [FloatOps F]

/-- A scalar word spread over the 100000 rows. -/
def rowsOf (w : BitVec 32) : FVec F S100000 .f32 :=
  broadcastInDim S100000 ![] bcast_S_S100000 (constant S_ .f32 w)

/-- The residual d = (cur - 1·(cur - sp)) - hh. -/
def resid (cur sp hh : FVec F S100000x64 .f32) : FVec F S100000x64 .f32 :=
  subf (subf cur (mulf (broadcastInDim S100000x64 ![] bcast_S_S100000x64 (constant S_ .f32 0x3F800000#32)) (subf cur sp))) hh

/-- The Euclidean norm of each row of d. -/
def rowNorm (d : FVec F S100000x64 .f32) : FVec F S100000 .f32 :=
  Host.sqrt (Host.reduceAdd (mulf d d) (constant S_ .f32 0x00000000#32) reducesTo_S100000x64_S100000_d1 h_S_)

/-- The shrink factor of each row, from the row norms. -/
def shrink (rn : FVec F S100000 .f32) : FVec F S100000 .f32 :=
  select (cmpf .ogt rn (rowsOf 0x00000000#32))
    (Host.divf (maximumf (subf rn (rowsOf 0x3D638E39#32)) (rowsOf 0x00000000#32))
      (select (cmpf .ogt rn (rowsOf 0x00000000#32)) rn (rowsOf 0x3F800000#32)))
    (rowsOf 0x00000000#32)

/-- A per-row factor spread along its row. -/
def alongRows (s : FVec F S100000 .f32) : FVec F S100000x64 .f32 :=
  broadcastInDim S100000x64 ![0, 1] bcast_S100000x1_S100000x64_0_1 (broadcastInDim S100000x1 ![0] bcast_S100000_S100000x1_0 s)

/-- The proximal step. -/
def prox (cur sp hh : FVec F S100000x64 .f32) : FVec F S100000x64 .f32 :=
  addf hh (mulf (alongRows (shrink (rowNorm (resid cur sp hh)))) (resid cur sp hh))

/-- The normalised neighbour sum of z: for every edge e of the list (the self-loops included), row rowI[e] of the result
    receives w[e] · z[colI[e], ·]; a negative column index counts from the end, as the host's gather reads it. -/
def spmm (w : FVec F S1700000 .f32) (rowI colI : IVec S1700000 32) (z : FVec F S100000x64 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 rowI)
    (mulf
      (Host.gather gather_S100000x64_S1700000x1_S1700000x64_1_0_n_n_0_1_164 z
        (broadcastInDim S1700000x1 ![0] bcast_S1700000_S1700000x1_0
          (select (cmpi .slt colI (broadcastInDim S1700000 ![] bcast_S_S1700000 (constantI S_ 32 0#32)))
            (addi colI (broadcastInDim S1700000 ![] bcast_S_S1700000 (constantI S_ 32 100000#32))) colI)))
      (broadcastInDim S1700000x64 ![0, 1] bcast_S1700000x1_S1700000x64_0_1
        (broadcastInDim S1700000x1 ![0] bcast_S1700000_S1700000x1_0 w)))

/-- One iteration: the proximal step of the iterate against its own neighbour sum, anchored at x0. -/
def step (w : FVec F S1700000 .f32) (rowI colI : IVec S1700000 32) (cur x0 : FVec F S100000x64 .f32) : FVec F S100000x64 .f32 :=
  prox cur (spmm w rowI colI cur) x0

/-- The three iterations from the input features, which are also the anchor. -/
def result (w : FVec F S1700000 .f32) (rowI colI : IVec S1700000 32) (x : FVec F S100000x64 .f32) : FVec F S100000x64 .f32 :=
  step w rowI colI (step w rowI colI (step w rowI colI x x) x) x

end Cert.Spec

end
-- ==== Proof.Value.Payload.lean ====
/-
  The body's arithmetic against the specification, row by row, at the exact instance.

  The block a grid point stores is one pure term of the three blocks it loads. Its entry at row p, column k depends
  only on row p of the three blocks: with d the residual (a - 1·(a - b)) - c taken entrywise, the row's norm is the
  square root of the sum of d² over the 64 columns, the row's shrink factor is a function of that norm alone, and the
  entry is c + factor · d. The specification's proximal step of three whole arrays reads the same way at row r,
  column k: the host's sum over axis 1 of the array's row is the same sum over the 64 columns (plus the zero it starts
  from), its square root, quotient, maximum, comparison and select are the kernel's at the exact instance, and its two
  broadcasts of the per-row factor read the row's factor, as the kernel's keep-dims column spread along the row does.
  So where row p of the three blocks is row r of the three arrays, the stored block at (p, k) is the proximal step of
  the arrays at (r, k). The second and third calls' terms differ from the first's by shape casts to the same shape.
-/
import proofs.«410928_j41137196761669_3_alg».proof.Proof.Value.Spec
import proofs.«410928_j41137196761669_3_alg».proof.Proof.Gen.KernelIdeal.Skeleton
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HandValue

open Idealize.ShloMosaic Idealize.ShloMosaic.ValueIdx
open scoped BigOperators

/-! ## Keep-dims columns read at an index -/

section Columns
variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread along its rows to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] to a column [a, 1] along axis 0 reads, at (i, u), the vector at i. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's broadcast of a column [a, 1] to [a, b] along axes 0 and 1 reads, at (p, c), the column's entry of row p. -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The proximal step on one row -/

/-- One entry of the residual: (a - 1·(a - b)) - c, the one written as the float 0x3F800000. -/
def resAt (a b c : EReal) : EReal := (a - Ideal.ofBits .f32 0x3F800000#32 * (a - b)) - c

/-- The shrink factor of a row from its norm n. -/
def factorOf (n : EReal) : EReal :=
  Scalar.select (Ideal.cmp .ogt n (Ideal.ofBits .f32 0x00000000#32))
    (Ideal.div (max (n - Ideal.ofBits .f32 0x3D638E39#32) (Ideal.ofBits .f32 0x00000000#32))
      (Scalar.select (Ideal.cmp .ogt n (Ideal.ofBits .f32 0x00000000#32)) n (Ideal.ofBits .f32 0x3F800000#32)))
    (Ideal.ofBits .f32 0x00000000#32)

/-- The proximal step on one row of 64 entries, at column k. -/
def proxRow (a b c : Fin 64 → EReal) (k : Fin 64) : EReal :=
  c k + factorOf (Ideal.sqrt (∑ k' : Fin 64, resAt (a k') (b k') (c k') * resAt (a k') (b k') (c k'))) * resAt (a k) (b k) (c k)

/-! ## The kernel's payload at an index -/

/-- The source index over row p of the lane sum, with column k inserted, is (p, k). -/
theorem lift_row (p : Fin 2000) (k : Fin 64) :
    Cert.KernelIdeal.Gen.reduces_S2000x64_S2000.lift (ix1 p) k = ix2 p k := by
  funext a; apply Fin.ext
  match a with
  | ⟨0, _⟩ => rfl
  | ⟨1, _⟩ => rfl

/-- The kernel's lane sum of a block's squares at row p is the sum over the 64 columns. -/
theorem laneSum_apply (D : FVec Ideal Cert.KernelIdeal.S2000x64 .f32) (hφ : FKind.Formats .f32)
    (hacc : (0x00000000#32 : BitVec 32) = 0x00000000#32) (p : Fin 2000) :
    multiReduction .add [1] Cert.KernelIdeal.S2000 (mulf D D) 0x00000000#32 Cert.KernelIdeal.Gen.reduces_S2000x64_S2000 hφ hacc (ix1 p)
      = ∑ k' : Fin 64, D (ix2 p k') * D (ix2 p k') := by
  refine (Ideal.multiReduction_add_single (mulf D D) 0x00000000#32 Cert.KernelIdeal.Gen.reduces_S2000x64_S2000 hφ hacc (ix1 p)).trans ?_
  refine Finset.sum_congr rfl fun k' _ => ?_
  exact congrArg (fun i => D i * D i) (lift_row p k')

/-- The column of shrink factors the kernel computes from the column N of row norms, at row p. -/
theorem shrinkCol_apply (N : FVec Ideal Cert.KernelIdeal.S2000x1 .f32) (p : Fin 2000) :
    select (cmpf .ogt N (broadcast Cert.KernelIdeal.S2000x1 (FloatOps.ofBits .f32 0x00000000#32)))
        (divf (maximumf (subf N (broadcast Cert.KernelIdeal.S2000x1 (FloatOps.ofBits .f32 0x3D638E39#32)))
            (broadcast Cert.KernelIdeal.S2000x1 (FloatOps.ofBits .f32 0x00000000#32)))
          (select (cmpf .ogt N (broadcast Cert.KernelIdeal.S2000x1 (FloatOps.ofBits .f32 0x00000000#32))) N
            (broadcast Cert.KernelIdeal.S2000x1 (FloatOps.ofBits .f32 0x3F800000#32))))
        (broadcast Cert.KernelIdeal.S2000x1 (FloatOps.ofBits .f32 0x00000000#32)) (ix2 p (0 : Fin 1))
      = factorOf (N (ix2 p (0 : Fin 1))) := rfl

theorem pay0_apply (x0 x1 x2 : FVec Ideal Cert.KernelIdeal.S2000x64 .f32) (p : Fin 2000) (k : Fin 64) :
    Cert.KernelIdeal.Gen.k0_pay1 (F := Ideal) x0 x1 x2 (ix2 p k)
      = proxRow (fun k' => x0 (ix2 p k')) (fun k' => x1 (ix2 p k')) (fun k' => x2 (ix2 p k')) k := by
  unfold Cert.KernelIdeal.Gen.k0_pay1
  rw [shapeCast_self]
  generalize hD : subf (subf x0 (mulf (broadcast Cert.KernelIdeal.S2000x64 (FloatOps.ofBits FTy.f32 0x3F800000#32)) (subf x0 x1))) x2 = D
  have hDa : ∀ k' : Fin 64, D (ix2 p k') = resAt (x0 (ix2 p k')) (x1 (ix2 p k')) (x2 (ix2 p k')) := fun k' => by rw [← hD]; rfl
  rw [addf_apply, mulf_apply, broadcastTo_a1_ab_apply, shrinkCol_apply]
  show x2 (ix2 p k) + factorOf (Ideal.sqrt (shapeCast Cert.KernelIdeal.S2000x1 _ _ (ix2 p (0 : Fin 1)))) * D (ix2 p k) = _
  rw [shapeCast_a_a1_apply, laneSum_apply]
  simp only [hDa]
  rfl

/-- The second call's payload is the first's: its two extra shape casts are identities. -/
theorem pay1_eq (x0 x1 x2 : FVec Ideal Cert.KernelIdeal.S2000x64 .f32) :
    Cert.KernelIdeal.Gen.k1_pay1 (F := Ideal) x0 x1 x2 = Cert.KernelIdeal.Gen.k0_pay1 (F := Ideal) x0 x1 x2 := by
  unfold Cert.KernelIdeal.Gen.k1_pay1 Cert.KernelIdeal.Gen.k0_pay1
  simp only [shapeCast_self]

/-- The third call's payload likewise. -/
theorem pay2_eq (x0 x1 x2 : FVec Ideal Cert.KernelIdeal.S2000x64 .f32) :
    Cert.KernelIdeal.Gen.k2_pay1 (F := Ideal) x0 x1 x2 = Cert.KernelIdeal.Gen.k0_pay1 (F := Ideal) x0 x1 x2 := by
  unfold Cert.KernelIdeal.Gen.k2_pay1 Cert.KernelIdeal.Gen.k0_pay1
  simp only [shapeCast_self]

/-! ## The specification at an index -/

/-- The host's sum over axis 1 names its source indices by the same insertion. -/
theorem reduces_rows : Cert.ReferenceIdeal.S100000x64.Reduces [1] Cert.ReferenceIdeal.S100000 := by decide

/-- The source index over row r of the host's sum, with column k inserted, is (r, k). -/
theorem lift_row_host (r : Fin 100000) (k : Fin 64) : reduces_rows.lift (ix1 r) k = ix2 r k := by
  funext a; apply Fin.ext
  match a with
  | ⟨0, _⟩ => rfl
  | ⟨1, _⟩ => rfl

/-- The host's sum over axis 1 of an array's squares, from zero, at row r: the sum over the 64 columns. -/
theorem hostSum_apply (d : FVec Ideal Cert.ReferenceIdeal.S100000x64 .f32) (r : Fin 100000) :
    Host.reduceAdd (F := Ideal) (mulf d d) (constant (F := Ideal) Cert.ReferenceIdeal.S_ .f32 0x00000000#32)
        Cert.ReferenceIdeal.Gen.reducesTo_S100000x64_S100000_d1 Cert.ReferenceIdeal.Gen.h_S_ (ix1 r)
      = ∑ k' : Fin 64, d (ix2 r k') * d (ix2 r k') := by
  refine (Ideal.hostReduceAdd_single Cert.ReferenceIdeal.Gen.reducesTo_S100000x64_S100000_d1 reduces_rows (mulf d d)
    (Ideal.ofBits .f32 0x00000000#32) (ix1 r)).trans ?_
  rw [Ideal.ofBits_zero_f32, zero_add]
  refine Finset.sum_congr rfl fun k' _ => ?_
  exact congrArg (fun i => d i * d i) (lift_row_host r k')

/-- The host's square root at an index is the exact square root of the entry. -/
theorem hostSqrt_apply {s : Shape} {φ : FTy} (x : FVec Ideal s φ) (i : s.Idx) : Host.sqrt x i = Ideal.sqrt (x i) := rfl

/-- The host's row norm at row r: the square root of the sum of the row's squares over the 64 columns. -/
theorem rowNorm_apply (d : FVec Ideal Cert.ReferenceIdeal.S100000x64 .f32) (r : Fin 100000) :
    Cert.Spec.rowNorm (F := Ideal) d (ix1 r) = Ideal.sqrt (∑ k' : Fin 64, d (ix2 r k') * d (ix2 r k')) := by
  unfold Cert.Spec.rowNorm
  rw [hostSqrt_apply, hostSum_apply]

/-- The host's shrink factor of row r is the factor of the row's norm. -/
theorem shrink_apply (rn : FVec Ideal Cert.ReferenceIdeal.S100000 .f32) (r : Fin 100000) :
    Cert.Spec.shrink (F := Ideal) rn (ix1 r) = factorOf (rn (ix1 r)) := rfl

/-- A per-row factor spread along its row reads the row's factor. -/
theorem alongRows_apply (s : FVec Ideal Cert.ReferenceIdeal.S100000 .f32) (r : Fin 100000) (k : Fin 64) :
    Cert.Spec.alongRows (F := Ideal) s (ix2 r k) = s (ix1 r) := by
  unfold Cert.Spec.alongRows
  rw [broadcastInDim_a1_ab_apply, broadcastInDim_a_a1_apply]

/-- The residual at an index. -/
theorem resid_apply (cur sp hh : FVec Ideal Cert.ReferenceIdeal.S100000x64 .f32) (r : Fin 100000) (k : Fin 64) :
    Cert.Spec.resid (F := Ideal) cur sp hh (ix2 r k) = resAt (cur (ix2 r k)) (sp (ix2 r k)) (hh (ix2 r k)) := rfl

/-- The proximal step of three whole arrays, at row r and column k, is the step on row r of each. -/
theorem prox_apply (cur sp hh : FVec Ideal Cert.ReferenceIdeal.S100000x64 .f32) (r : Fin 100000) (k : Fin 64) :
    Cert.Spec.prox (F := Ideal) cur sp hh (ix2 r k)
      = proxRow (fun k' => cur (ix2 r k')) (fun k' => sp (ix2 r k')) (fun k' => hh (ix2 r k')) k := by
  unfold Cert.Spec.prox
  rw [addf_apply, mulf_apply, alongRows_apply, shrink_apply, rowNorm_apply]
  simp only [resid_apply]
  rfl

/-! ## The stored block against the specification -/

/-- Where row p of the three loaded blocks is row r of the three arrays, the block the first call stores has, at
    (p, k), the proximal step of the arrays at (r, k). -/
theorem pay0_row (x0 x1 x2 : FVec Ideal Cert.KernelIdeal.S2000x64 .f32) (cur sp hh : FVec Ideal Cert.ReferenceIdeal.S100000x64 .f32)
    (p : Fin 2000) (r : Fin 100000)
    (h0 : ∀ k' : Fin 64, x0 (ix2 p k') = cur (ix2 r k')) (h1 : ∀ k' : Fin 64, x1 (ix2 p k') = sp (ix2 r k'))
    (h2 : ∀ k' : Fin 64, x2 (ix2 p k') = hh (ix2 r k')) (k : Fin 64) :
    Cert.KernelIdeal.Gen.k0_pay1 (F := Ideal) x0 x1 x2 (ix2 p k) = Cert.Spec.prox (F := Ideal) cur sp hh (ix2 r k) := by
  rw [pay0_apply, prox_apply]
  simp only [h0, h1, h2]

/-- The same for the second call. -/
theorem pay1_row (x0 x1 x2 : FVec Ideal Cert.KernelIdeal.S2000x64 .f32) (cur sp hh : FVec Ideal Cert.ReferenceIdeal.S100000x64 .f32)
    (p : Fin 2000) (r : Fin 100000)
    (h0 : ∀ k' : Fin 64, x0 (ix2 p k') = cur (ix2 r k')) (h1 : ∀ k' : Fin 64, x1 (ix2 p k') = sp (ix2 r k'))
    (h2 : ∀ k' : Fin 64, x2 (ix2 p k') = hh (ix2 r k')) (k : Fin 64) :
    Cert.KernelIdeal.Gen.k1_pay1 (F := Ideal) x0 x1 x2 (ix2 p k) = Cert.Spec.prox (F := Ideal) cur sp hh (ix2 r k) := by
  rw [pay1_eq]
  exact pay0_row x0 x1 x2 cur sp hh p r h0 h1 h2 k

/-- The same for the third call. -/
theorem pay2_row (x0 x1 x2 : FVec Ideal Cert.KernelIdeal.S2000x64 .f32) (cur sp hh : FVec Ideal Cert.ReferenceIdeal.S100000x64 .f32)
    (p : Fin 2000) (r : Fin 100000)
    (h0 : ∀ k' : Fin 64, x0 (ix2 p k') = cur (ix2 r k')) (h1 : ∀ k' : Fin 64, x1 (ix2 p k') = sp (ix2 r k'))
    (h2 : ∀ k' : Fin 64, x2 (ix2 p k') = hh (ix2 r k')) (k : Fin 64) :
    Cert.KernelIdeal.Gen.k2_pay1 (F := Ideal) x0 x1 x2 (ix2 p k) = Cert.Spec.prox (F := Ideal) cur sp hh (ix2 r k) := by
  rw [pay2_eq]
  exact pay0_row x0 x1 x2 cur sp hh p r h0 h1 h2 k

end Cert.KernelIdeal.HandValue

end
-- ==== Proof.Value.Blocks.lean ====
/-
  What each pipeline leaves in its result array, at the exact instance: the proximal step of the three operand arrays
  as the call finds them. Grid point t writes rows 2000·t … 2000·t + 1999; the value it writes at row p, column k of
  its block depends only on row p of the three input blocks, which is row 2000·t + p of the three arrays, and it is the
  proximal step's value there: the kernel's lane sum over the 64 columns of a block row is the host's sum over axis 1
  of the array's row, the kernel's square root, quotient, maximum, comparison and select are the host's at the exact
  instance, and the keep-dims column the kernel spreads along the row is the host's broadcast of the per-row factor.
  The 50 blocks cover the array, so the array is the step's value everywhere.
-/
import proofs.«410928_j41137196761669_3_alg».proof.Proof.KI.Body0
import proofs.«410928_j41137196761669_3_alg».proof.Proof.KI.Body1
import proofs.«410928_j41137196761669_3_alg».proof.Proof.KI.Body2
import proofs.«410928_j41137196761669_3_alg».proof.Proof.Value.Spec
import proofs.«410928_j41137196761669_3_alg».proof.Proof.Value.Payload
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.SL Idealize.SL.RA
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block's origin, however its zeros are spelt. -/
theorem origin2 : (![0, 0] : Fin 2 → Nat) = fun _ => 0 := funext fun a => by fin_cases a <;> rfl

/-! ## Call 0 -/

/-- Every window of the call moves one block of rows per grid point and never along the columns. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of an operand's block at point t is row 2000·t + p of the operand's array. -/
theorem blk0_0 (c : Dev nD) (t : Fin cfg0.N) (p : Fin 2000) (k : Fin 64) (r : Fin 100000) (hr : r.val = 2000 * t.val + p.val) :
    (iblk0 V c 0 t : Vec Ideal S2000x64 .f32) (ix2 p k) = (V c main_arg0 : S100000x64.Idx → Elt Ideal .f32) (ix2 r k) := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

theorem blk0_1 (c : Dev nD) (t : Fin cfg0.N) (p : Fin 2000) (k : Fin 64) (r : Fin 100000) (hr : r.val = 2000 * t.val + p.val) :
    (iblk0 V c 1 t : Vec Ideal S2000x64 .f32) (ix2 p k) = (V c main_v43 : S100000x64.Idx → Elt Ideal .f32) (ix2 r k) := by
  obtain ⟨-, -, e0, e1, -⟩ := index0 t
  unfold iblk0
  rw [View.read_apply]
  show V c main_v43 _ = V c main_v43 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 64 + 1 * k.val = k.val; rw [e1]; omega

theorem blk0_2 (c : Dev nD) (t : Fin cfg0.N) (p : Fin 2000) (k : Fin 64) (r : Fin 100000) (hr : r.val = 2000 * t.val + p.val) :
    (iblk0 V c 2 t : Vec Ideal S2000x64 .f32) (ix2 p k) = (V c main_arg0 : S100000x64.Idx → Elt Ideal .f32) (ix2 r k) := by
  obtain ⟨-, -, -, -, e0, e1, -⟩ := index0 t
  unfold iblk0
  rw [View.read_apply]
  show V c main_arg0 _ = V c main_arg0 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 64 + 1 * k.val = k.val; rw [e1]; omega

/-- What point t writes back is block t of the proximal step of the three operand arrays: the stored block at
    row p is the step at row 2000·t + p, and that is where the result's block puts row p. -/
theorem flushed0_eq (q : Fin cfg0.W → PosShare TreeShare) (c : Dev nD) (t : Fin cfg0.N) :
    (dat0 (F := Ideal) V q c).flushed 3 t
      = ((cfg0.win 3).blk t).view.read (Elt Ideal) (Cert.Spec.prox (F := Ideal) (V c main_arg0) (V c main_v43) (V c main_arg0)) := by
  show (cfg0.win 3).cut (grid0.coords t) ((dat0 (F := Ideal) V q c).after 3 t) = _
  rw [after0_3]
  unfold out0_3
  rw [View.canon_unit_zero origin2]
  simp only [View.ld_unit_zero (S := S2000x64) origin2]
  obtain ⟨-, -, -, -, -, -, e0, e1⟩ := index0 t
  have ht : t.val < 50 := Nat.lt_of_lt_of_eq t.isLt N_0
  funext y
  revert y
  show ∀ y : S2000x64.Idx, (k0_pay1 (F := Ideal) (iblk0 V c 0 t) (iblk0 V c 1 t) (iblk0 V c 2 t) : Vec Ideal S2000x64 .f32) y
    = Cert.Spec.prox (F := Ideal) (V c main_arg0) (V c main_v43) (V c main_arg0) (((cfg0.win 3).blk t).view.emb y)
  intro y
  have hy0 : (y 0).val < 2000 := (y 0).isLt
  have hy1 : (y 1).val < 64 := (y 1).isLt
  have hemb : ((cfg0.win 3).blk t).view.emb y
      = ix2 (⟨2000 * t.val + (y 0).val, by omega⟩ : Fin 100000) (⟨(y 1).val, hy1⟩ : Fin 64) := by
    funext a
    apply Fin.ext
    match a with
    | ⟨0, _⟩ => show win0_3.index t (0 : Fin 2) * 2000 + 1 * (y 0).val = 2000 * t.val + (y 0).val; rw [e0]; omega
    | ⟨1, _⟩ => show win0_3.index t (1 : Fin 2) * 64 + 1 * (y 1).val = (y 1).val; rw [e1]; omega
  rw [hemb]
  refine (congrArg (k0_pay1 (F := Ideal) (iblk0 V c 0 t) (iblk0 V c 1 t) (iblk0 V c 2 t)) (eq_ix2 y)).trans ?_
  exact pay0_row _ _ _ _ _ _ ⟨(y 0).val, hy0⟩ ⟨2000 * t.val + (y 0).val, by omega⟩
    (fun k' => blk0_0 V c t _ k' _ rfl) (fun k' => blk0_1 V c t _ k' _ rfl) (fun k' => blk0_2 V c t _ k' _ rfl) ⟨(y 1).val, hy1⟩

/-- An index of the result array is in point t's block iff each coordinate is in the block's range on its axis. -/
theorem mem_blk0 (t : Fin cfg0.N) (i : S100000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v44).slice (win0_3.rect t)).set ↔ _
  rw [View.set_slice_whole, Rect.mem_set_unit]
  exact Iff.rfl

/-- The 50 blocks cover the result array: row r is in the block of point r / 2000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, -, -, e0, e1⟩ := index0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e1]; omega

/-- The first call: the iterate and the anchor are both the input features. -/
theorem arrAt0 (q : Fin cfg0.W → PosShare TreeShare) (c : Dev nD) :
    (dat0 (F := Ideal) V q c).arrAt 3 cfg0.N = Cert.Spec.prox (F := Ideal) (V c main_arg0) (V c main_v43) (V c main_arg0) :=
  (dat0 (F := Ideal) V q c).arrAt_eq_of_cover 3 (Cert.Spec.prox (F := Ideal) (V c main_arg0) (V c main_v43) (V c main_arg0))
    (fun t _ => flushed0_eq V q c t) cover0

/-! ## Call 1 -/

/-- Every window of the call moves one block of rows per grid point and never along the columns. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of an operand's block at point t is row 2000·t + p of the operand's array. -/
theorem blk1_0 (c : Dev nD) (t : Fin cfg1.N) (p : Fin 2000) (k : Fin 64) (r : Fin 100000) (hr : r.val = 2000 * t.val + p.val) :
    (iblk1 V c 0 t : Vec Ideal S2000x64 .f32) (ix2 p k) = (V c main_v44 : S100000x64.Idx → Elt Ideal .f32) (ix2 r k) := by
  obtain ⟨e0, e1, -⟩ := index1 t
  unfold iblk1
  rw [View.read_apply]
  show V c main_v44 _ = V c main_v44 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

theorem blk1_1 (c : Dev nD) (t : Fin cfg1.N) (p : Fin 2000) (k : Fin 64) (r : Fin 100000) (hr : r.val = 2000 * t.val + p.val) :
    (iblk1 V c 1 t : Vec Ideal S2000x64 .f32) (ix2 p k) = (V c main_v57 : S100000x64.Idx → Elt Ideal .f32) (ix2 r k) := by
  obtain ⟨-, -, e0, e1, -⟩ := index1 t
  unfold iblk1
  rw [View.read_apply]
  show V c main_v57 _ = V c main_v57 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 64 + 1 * k.val = k.val; rw [e1]; omega

theorem blk1_2 (c : Dev nD) (t : Fin cfg1.N) (p : Fin 2000) (k : Fin 64) (r : Fin 100000) (hr : r.val = 2000 * t.val + p.val) :
    (iblk1 V c 2 t : Vec Ideal S2000x64 .f32) (ix2 p k) = (V c main_arg0 : S100000x64.Idx → Elt Ideal .f32) (ix2 r k) := by
  obtain ⟨-, -, -, -, e0, e1, -⟩ := index1 t
  unfold iblk1
  rw [View.read_apply]
  show V c main_arg0 _ = V c main_arg0 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 64 + 1 * k.val = k.val; rw [e1]; omega

/-- What point t writes back is block t of the proximal step of the three operand arrays: the stored block at
    row p is the step at row 2000·t + p, and that is where the result's block puts row p. -/
theorem flushed1_eq (q : Fin cfg1.W → PosShare TreeShare) (c : Dev nD) (t : Fin cfg1.N) :
    (dat1 (F := Ideal) V q c).flushed 3 t
      = ((cfg1.win 3).blk t).view.read (Elt Ideal) (Cert.Spec.prox (F := Ideal) (V c main_v44) (V c main_v57) (V c main_arg0)) := by
  show (cfg1.win 3).cut (grid1.coords t) ((dat1 (F := Ideal) V q c).after 3 t) = _
  rw [after1_3]
  unfold out1_3
  rw [View.canon_unit_zero origin2]
  simp only [View.ld_unit_zero (S := S2000x64) origin2]
  obtain ⟨-, -, -, -, -, -, e0, e1⟩ := index1 t
  have ht : t.val < 50 := Nat.lt_of_lt_of_eq t.isLt N_1
  funext y
  revert y
  show ∀ y : S2000x64.Idx, (k1_pay1 (F := Ideal) (iblk1 V c 0 t) (iblk1 V c 1 t) (iblk1 V c 2 t) : Vec Ideal S2000x64 .f32) y
    = Cert.Spec.prox (F := Ideal) (V c main_v44) (V c main_v57) (V c main_arg0) (((cfg1.win 3).blk t).view.emb y)
  intro y
  have hy0 : (y 0).val < 2000 := (y 0).isLt
  have hy1 : (y 1).val < 64 := (y 1).isLt
  have hemb : ((cfg1.win 3).blk t).view.emb y
      = ix2 (⟨2000 * t.val + (y 0).val, by omega⟩ : Fin 100000) (⟨(y 1).val, hy1⟩ : Fin 64) := by
    funext a
    apply Fin.ext
    match a with
    | ⟨0, _⟩ => show win1_3.index t (0 : Fin 2) * 2000 + 1 * (y 0).val = 2000 * t.val + (y 0).val; rw [e0]; omega
    | ⟨1, _⟩ => show win1_3.index t (1 : Fin 2) * 64 + 1 * (y 1).val = (y 1).val; rw [e1]; omega
  rw [hemb]
  refine (congrArg (k1_pay1 (F := Ideal) (iblk1 V c 0 t) (iblk1 V c 1 t) (iblk1 V c 2 t)) (eq_ix2 y)).trans ?_
  exact pay1_row _ _ _ _ _ _ ⟨(y 0).val, hy0⟩ ⟨2000 * t.val + (y 0).val, by omega⟩
    (fun k' => blk1_0 V c t _ k' _ rfl) (fun k' => blk1_1 V c t _ k' _ rfl) (fun k' => blk1_2 V c t _ k' _ rfl) ⟨(y 1).val, hy1⟩

/-- An index of the result array is in point t's block iff each coordinate is in the block's range on its axis. -/
theorem mem_blk1 (t : Fin cfg1.N) (i : S100000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v58).slice (win1_3.rect t)).set ↔ _
  rw [View.set_slice_whole, Rect.mem_set_unit]
  exact Iff.rfl

/-- The 50 blocks cover the result array: row r is in the block of point r / 2000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, -, -, e0, e1⟩ := index1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, hlt⟩ (1 : Fin 2) * 64 ≤ (i 1).val
      ∧ (i 1).val < win1_3.index ⟨(i 0).val / 2000, hlt⟩ (1 : Fin 2) * 64 + 64
    rw [e1]; omega

/-- The second call. -/
theorem arrAt1 (q : Fin cfg1.W → PosShare TreeShare) (c : Dev nD) :
    (dat1 (F := Ideal) V q c).arrAt 3 cfg1.N = Cert.Spec.prox (F := Ideal) (V c main_v44) (V c main_v57) (V c main_arg0) :=
  (dat1 (F := Ideal) V q c).arrAt_eq_of_cover 3 (Cert.Spec.prox (F := Ideal) (V c main_v44) (V c main_v57) (V c main_arg0))
    (fun t _ => flushed1_eq V q c t) cover1

/-! ## Call 2 -/

/-- Every window of the call moves one block of rows per grid point and never along the columns. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of an operand's block at point t is row 2000·t + p of the operand's array. -/
theorem blk2_0 (c : Dev nD) (t : Fin cfg2.N) (p : Fin 2000) (k : Fin 64) (r : Fin 100000) (hr : r.val = 2000 * t.val + p.val) :
    (iblk2 V c 0 t : Vec Ideal S2000x64 .f32) (ix2 p k) = (V c main_v58 : S100000x64.Idx → Elt Ideal .f32) (ix2 r k) := by
  obtain ⟨e0, e1, -⟩ := index2 t
  unfold iblk2
  rw [View.read_apply]
  show V c main_v58 _ = V c main_v58 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

theorem blk2_1 (c : Dev nD) (t : Fin cfg2.N) (p : Fin 2000) (k : Fin 64) (r : Fin 100000) (hr : r.val = 2000 * t.val + p.val) :
    (iblk2 V c 1 t : Vec Ideal S2000x64 .f32) (ix2 p k) = (V c main_v71 : S100000x64.Idx → Elt Ideal .f32) (ix2 r k) := by
  obtain ⟨-, -, e0, e1, -⟩ := index2 t
  unfold iblk2
  rw [View.read_apply]
  show V c main_v71 _ = V c main_v71 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 64 + 1 * k.val = k.val; rw [e1]; omega

theorem blk2_2 (c : Dev nD) (t : Fin cfg2.N) (p : Fin 2000) (k : Fin 64) (r : Fin 100000) (hr : r.val = 2000 * t.val + p.val) :
    (iblk2 V c 2 t : Vec Ideal S2000x64 .f32) (ix2 p k) = (V c main_arg0 : S100000x64.Idx → Elt Ideal .f32) (ix2 r k) := by
  obtain ⟨-, -, -, -, e0, e1, -⟩ := index2 t
  unfold iblk2
  rw [View.read_apply]
  show V c main_arg0 _ = V c main_arg0 _
  congr 1
  funext a
  apply Fin.ext
  match a with
  | ⟨0, _⟩ => show win2_2.index t (0 : Fin 2) * 2000 + 1 * p.val = r.val; rw [e0, hr]; omega
  | ⟨1, _⟩ => show win2_2.index t (1 : Fin 2) * 64 + 1 * k.val = k.val; rw [e1]; omega

/-- What point t writes back is block t of the proximal step of the three operand arrays: the stored block at
    row p is the step at row 2000·t + p, and that is where the result's block puts row p. -/
theorem flushed2_eq (q : Fin cfg2.W → PosShare TreeShare) (c : Dev nD) (t : Fin cfg2.N) :
    (dat2 (F := Ideal) V q c).flushed 3 t
      = ((cfg2.win 3).blk t).view.read (Elt Ideal) (Cert.Spec.prox (F := Ideal) (V c main_v58) (V c main_v71) (V c main_arg0)) := by
  show (cfg2.win 3).cut (grid2.coords t) ((dat2 (F := Ideal) V q c).after 3 t) = _
  rw [after2_3]
  unfold out2_3
  rw [View.canon_unit_zero origin2]
  simp only [View.ld_unit_zero (S := S2000x64) origin2]
  obtain ⟨-, -, -, -, -, -, e0, e1⟩ := index2 t
  have ht : t.val < 50 := Nat.lt_of_lt_of_eq t.isLt N_2
  funext y
  revert y
  show ∀ y : S2000x64.Idx, (k2_pay1 (F := Ideal) (iblk2 V c 0 t) (iblk2 V c 1 t) (iblk2 V c 2 t) : Vec Ideal S2000x64 .f32) y
    = Cert.Spec.prox (F := Ideal) (V c main_v58) (V c main_v71) (V c main_arg0) (((cfg2.win 3).blk t).view.emb y)
  intro y
  have hy0 : (y 0).val < 2000 := (y 0).isLt
  have hy1 : (y 1).val < 64 := (y 1).isLt
  have hemb : ((cfg2.win 3).blk t).view.emb y
      = ix2 (⟨2000 * t.val + (y 0).val, by omega⟩ : Fin 100000) (⟨(y 1).val, hy1⟩ : Fin 64) := by
    funext a
    apply Fin.ext
    match a with
    | ⟨0, _⟩ => show win2_3.index t (0 : Fin 2) * 2000 + 1 * (y 0).val = 2000 * t.val + (y 0).val; rw [e0]; omega
    | ⟨1, _⟩ => show win2_3.index t (1 : Fin 2) * 64 + 1 * (y 1).val = (y 1).val; rw [e1]; omega
  rw [hemb]
  refine (congrArg (k2_pay1 (F := Ideal) (iblk2 V c 0 t) (iblk2 V c 1 t) (iblk2 V c 2 t)) (eq_ix2 y)).trans ?_
  exact pay2_row _ _ _ _ _ _ ⟨(y 0).val, hy0⟩ ⟨2000 * t.val + (y 0).val, by omega⟩
    (fun k' => blk2_0 V c t _ k' _ rfl) (fun k' => blk2_1 V c t _ k' _ rfl) (fun k' => blk2_2 V c t _ k' _ rfl) ⟨(y 1).val, hy1⟩

/-- An index of the result array is in point t's block iff each coordinate is in the block's range on its axis. -/
theorem mem_blk2 (t : Fin cfg2.N) (i : S100000x64.Idx) :
    i ∈ ((cfg2.win 3).blk t).view.set
      ↔ ∀ a : Fin 2, win2_3.index t a * S2000x64.size a ≤ (i a).val ∧ (i a).val < win2_3.index t a * S2000x64.size a + S2000x64.size a := by
  show i ∈ ((View.whole main_v72).slice (win2_3.rect t)).set ↔ _
  rw [View.set_slice_whole, Rect.mem_set_unit]
  exact Iff.rfl

/-- The 50 blocks cover the result array: row r is in the block of point r / 2000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  have hlt : (i 0).val / 2000 < cfg2.N := by rw [hN]; omega
  obtain ⟨-, -, -, -, -, -, e0, e1⟩ := index2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, hlt⟩ (1 : Fin 2) * 64 ≤ (i 1).val
      ∧ (i 1).val < win2_3.index ⟨(i 0).val / 2000, hlt⟩ (1 : Fin 2) * 64 + 64
    rw [e1]; omega

/-- The third call. -/
theorem arrAt2 (q : Fin cfg2.W → PosShare TreeShare) (c : Dev nD) :
    (dat2 (F := Ideal) V q c).arrAt 3 cfg2.N = Cert.Spec.prox (F := Ideal) (V c main_v58) (V c main_v71) (V c main_arg0) :=
  (dat2 (F := Ideal) V q c).arrAt_eq_of_cover 3 (Cert.Spec.prox (F := Ideal) (V c main_v58) (V c main_v71) (V c main_arg0))
    (fun t _ => flushed2_eq V q c t) cover2

end Cert.KernelIdeal.HandValue

end
-- ==== Proof.Value.KernelValue.lean ====
/-
  The kernel program's result as a function of its arguments, at the exact instance: three iterations of the
  proximal step from the input features, each against the normalised neighbour sum of the current iterate, with the
  edge weights and the two index lists as the program's first host operations compute them.
  Each pallas_call's result array is the proximal step of its operand arrays; the neighbour sum's array before
  each call is the host's scatter of the weighted gathered rows, read off the stretch of host operations before it;
  the weights and index lists are written once, before the first call, and no later stretch or call writes them.
-/
import proofs.«410928_j41137196761669_3_alg».proof.Proof.KI.Fold
import proofs.«410928_j41137196761669_3_alg».proof.Proof.Gen.KernelIdeal.Regions
import proofs.«410928_j41137196761669_3_alg».proof.Proof.Value.Blocks
import Idealize.ShloMosaic.Lib.StableHlo.Run

set_option maxRecDepth 16384

noncomputable section

namespace Cert.KernelIdeal.HandValue

open Cert.KernelIdeal Cert.KernelIdeal.Gen Cert.KernelIdeal.Hand
open Idealize.SL Idealize.SL.RA
open Idealize.ShloMosaic Idealize.ShloMosaic.TcCoe Idealize.SL.Sem Idealize.ShloMosaic.StableHlo

variable (m : (ℓ : Loc nD τ sig) → Buf (Elt Ideal) ℓ)

/-- The edge weights, the row list and the column list as the kernel program computes them before its first call. -/
def wK (c : Dev nD) : FVec Ideal Cert.ReferenceIdeal.S1700000 .f32 := W3 (F := Ideal) m c (Proc.devRef .tc main_v30)
def rowK (c : Dev nD) : IVec Cert.ReferenceIdeal.S1700000 32 := W3 (F := Ideal) m c (Proc.devRef .tc main_v5)
def colK (c : Dev nD) : IVec Cert.ReferenceIdeal.S1700000 32 := W3 (F := Ideal) m c (Proc.devRef .tc main_v6)

/-! ## The neighbour sum, read off each stretch of host operations over any contents

Each of the three stretches ends with the same chain: the column list with its negative entries wrapped, the rows
of the iterate gathered at it, each multiplied by its edge's weight, and the products scatter-added into zeros at the
row list. The stretch before the first call also computes the weights it then reads. -/

set_option maxHeartbeats 2000000 in
theorem spmm_hostOps0_2 (V : Valuation τ sig (Elt Ideal)) :
    StableHlo.after (hostOps0_2 (F := Ideal)) V (Proc.devRef .tc main_v43)
      = Cert.Spec.spmm (F := Ideal) (StableHlo.after (hostOps0_2 (F := Ideal)) V (Proc.devRef .tc main_v30))
          (V (Proc.devRef .tc main_v5)) (V (Proc.devRef .tc main_v6)) (V (Proc.devRef .tc main_arg0)) := by
  after_results_simp
  rfl

set_option maxHeartbeats 2000000 in
theorem spmm_hostOps1 (V : Valuation τ sig (Elt Ideal)) :
    StableHlo.after (hostOps1 (F := Ideal)) V (Proc.devRef .tc main_v57)
      = Cert.Spec.spmm (F := Ideal) (V (Proc.devRef .tc main_v30)) (V (Proc.devRef .tc main_v5)) (V (Proc.devRef .tc main_v6)) (V (Proc.devRef .tc main_v44)) := by
  after_results_simp
  rfl

set_option maxHeartbeats 2000000 in
theorem spmm_hostOps2 (V : Valuation τ sig (Elt Ideal)) :
    StableHlo.after (hostOps2 (F := Ideal)) V (Proc.devRef .tc main_v71)
      = Cert.Spec.spmm (F := Ideal) (V (Proc.devRef .tc main_v30)) (V (Proc.devRef .tc main_v5)) (V (Proc.devRef .tc main_v6)) (V (Proc.devRef .tc main_v58)) := by
  after_results_simp
  rfl

/-! ## What each call and each later stretch leaves unchanged -/

/-- The first call changes its result array only. -/
theorem W4_of (c : Dev nD) (r : Ref sig .tc) (h : r ≠ main_v44) : W4 m c (Proc.devRef .tc r) = W3 m c (Proc.devRef .tc r) := by
  unfold W4; exact Function.update_of_ne (StableHlo.devRef_ne_of_ne h) _ _
/-- The stretch before the second call changes only what it writes. -/
theorem W5_of (c : Dev nD) (r : Ref sig .tc) (h : r ∉ hostOps1_W) : W5 m c (Proc.devRef .tc r) = W4 m c (Proc.devRef .tc r) :=
  StableHlo.after_of_writes_sub hostOps1 _ hostOps1_writes h
/-- The second call changes its result array only. -/
theorem W6_of (c : Dev nD) (r : Ref sig .tc) (h : r ≠ main_v58) : W6 m c (Proc.devRef .tc r) = W5 m c (Proc.devRef .tc r) := by
  unfold W6; exact Function.update_of_ne (StableHlo.devRef_ne_of_ne h) _ _
/-- The stretch before the third call changes only what it writes. -/
theorem W7_of (c : Dev nD) (r : Ref sig .tc) (h : r ∉ hostOps2_W) : W7 m c (Proc.devRef .tc r) = W6 m c (Proc.devRef .tc r) :=
  StableHlo.after_of_writes_sub hostOps2 _ hostOps2_writes h

/-- The input features reach the first call as launched: none of the first three stretches writes them. -/
theorem W3_arg0 (c : Dev nD) : W3 m c (Proc.devRef .tc main_arg0) = m ((c.tc : Thread nD τ).loc main_arg0) :=
  (V3_of m c main_arg0 (by decide)).trans <| (V2_of m c main_arg0 (by decide)).trans <| (V1_of m c main_arg0 (by decide)).trans rfl

/-- The four buffers every iteration reads beside its iterate hold the weights, the row list, the column list and
    the input features. -/
def Carried (c : Dev nD) (W : Valuation τ sig (Elt Ideal)) : Prop :=
  W (Proc.devRef .tc main_v30) = wK m c ∧ W (Proc.devRef .tc main_v5) = rowK m c ∧ W (Proc.devRef .tc main_v6) = colK m c
    ∧ W (Proc.devRef .tc main_arg0) = m ((c.tc : Thread nD τ).loc main_arg0)

/-- Contents that agree on the four buffers with contents that hold them hold them too. -/
theorem carried_of_eq {c : Dev nD} {W W' : Valuation τ sig (Elt Ideal)} (h : Carried m c W)
    (e30 : W' (Proc.devRef .tc main_v30) = W (Proc.devRef .tc main_v30)) (e5 : W' (Proc.devRef .tc main_v5) = W (Proc.devRef .tc main_v5))
    (e6 : W' (Proc.devRef .tc main_v6) = W (Proc.devRef .tc main_v6)) (e0 : W' (Proc.devRef .tc main_arg0) = W (Proc.devRef .tc main_arg0)) : Carried m c W' :=
  ⟨e30.trans h.1, e5.trans h.2.1, e6.trans h.2.2.1, e0.trans h.2.2.2⟩

theorem carried3 (c : Dev nD) : Carried m c (W3 m c) := ⟨rfl, rfl, rfl, W3_arg0 m c⟩
theorem carried4 (c : Dev nD) : Carried m c (W4 m c) :=
  carried_of_eq m (carried3 m c) (W4_of m c main_v30 (by decide)) (W4_of m c main_v5 (by decide)) (W4_of m c main_v6 (by decide))
    (W4_of m c main_arg0 (by decide))
theorem carried5 (c : Dev nD) : Carried m c (W5 m c) :=
  carried_of_eq m (carried4 m c) (W5_of m c main_v30 (by decide)) (W5_of m c main_v5 (by decide)) (W5_of m c main_v6 (by decide))
    (W5_of m c main_arg0 (by decide))
theorem carried6 (c : Dev nD) : Carried m c (W6 m c) :=
  carried_of_eq m (carried5 m c) (W6_of m c main_v30 (by decide)) (W6_of m c main_v5 (by decide)) (W6_of m c main_v6 (by decide))
    (W6_of m c main_arg0 (by decide))
theorem carried7 (c : Dev nD) : Carried m c (W7 m c) :=
  carried_of_eq m (carried6 m c) (W7_of m c main_v30 (by decide)) (W7_of m c main_v5 (by decide)) (W7_of m c main_v6 (by decide))
    (W7_of m c main_arg0 (by decide))

/-! ## The first iteration -/

/-- The neighbour sum the first call reads is that of the input features: the stretch before it writes neither
    index list nor the features, and the weights it reads are the ones it has just written. -/
theorem W3_v43 (c : Dev nD) :
    W3 m c (Proc.devRef .tc main_v43) = Cert.Spec.spmm (F := Ideal) (wK m c) (rowK m c) (colK m c) (m ((c.tc : Thread nD τ).loc main_arg0)) := by
  have h5 : W2 m c (Proc.devRef .tc main_v5) = rowK m c := (V3_of m c main_v5 (by decide)).symm
  have h6 : W2 m c (Proc.devRef .tc main_v6) = colK m c := (V3_of m c main_v6 (by decide)).symm
  have h0 : W2 m c (Proc.devRef .tc main_arg0) = m ((c.tc : Thread nD τ).loc main_arg0) :=
    (V2_of m c main_arg0 (by decide)).trans ((V1_of m c main_arg0 (by decide)).trans rfl)
  have h := spmm_hostOps0_2 (W2 m c)
  rw [h5, h6, h0] at h
  exact h

/-- The first call's result array is one iteration from the input features. -/
theorem call0 (c : Dev nD) :
    (dat0 (F := Ideal) (Hand.V3 m) q0 c).arrAt 3 cfg0.N = Cert.Spec.step (F := Ideal) (wK m c) (rowK m c) (colK m c) (m ((c.tc : Thread nD τ).loc main_arg0)) (m ((c.tc : Thread nD τ).loc main_arg0)) := by
  refine (arrAt0 (Hand.V3 m) q0 c).trans ?_
  show Cert.Spec.prox (F := Ideal) (W3 m c (Proc.devRef .tc main_arg0)) (W3 m c (Proc.devRef .tc main_v43)) (W3 m c (Proc.devRef .tc main_arg0)) = _
  rw [W3_v43, W3_arg0]
  rfl

/-! ## The second iteration -/

theorem W4_v44 (c : Dev nD) : W4 m c (Proc.devRef .tc main_v44) = Cert.Spec.step (F := Ideal) (wK m c) (rowK m c) (colK m c) (m ((c.tc : Thread nD τ).loc main_arg0)) (m ((c.tc : Thread nD τ).loc main_arg0)) := by
  unfold W4; exact (Function.update_self _ _ _).trans (call0 m c)

theorem W5_v44 (c : Dev nD) : W5 m c (Proc.devRef .tc main_v44) = Cert.Spec.step (F := Ideal) (wK m c) (rowK m c) (colK m c) (m ((c.tc : Thread nD τ).loc main_arg0)) (m ((c.tc : Thread nD τ).loc main_arg0)) :=
  (W5_of m c main_v44 (by decide)).trans (W4_v44 m c)

/-- The neighbour sum the second call reads is that of the first call's result. -/
theorem W5_v57 (c : Dev nD) :
    W5 m c (Proc.devRef .tc main_v57) = Cert.Spec.spmm (F := Ideal) (wK m c) (rowK m c) (colK m c) (Cert.Spec.step (F := Ideal) (wK m c) (rowK m c) (colK m c) (m ((c.tc : Thread nD τ).loc main_arg0)) (m ((c.tc : Thread nD τ).loc main_arg0))) := by
  obtain ⟨h30, h5, h6, -⟩ := carried4 m c
  have h := spmm_hostOps1 (W4 m c)
  rw [h30, h5, h6, W4_v44] at h
  exact h

/-- The second call's result array is two iterations from the input features. -/
theorem call1 (c : Dev nD) :
    (dat1 (F := Ideal) (Hand.V5 m) qF c).arrAt 3 cfg1.N
      = Cert.Spec.step (F := Ideal) (wK m c) (rowK m c) (colK m c) (Cert.Spec.step (F := Ideal) (wK m c) (rowK m c) (colK m c) (m ((c.tc : Thread nD τ).loc main_arg0)) (m ((c.tc : Thread nD τ).loc main_arg0))) (m ((c.tc : Thread nD τ).loc main_arg0)) := by
  obtain ⟨-, -, -, h0⟩ := carried5 m c
  refine (arrAt1 (Hand.V5 m) qF c).trans ?_
  show Cert.Spec.prox (F := Ideal) (W5 m c (Proc.devRef .tc main_v44)) (W5 m c (Proc.devRef .tc main_v57)) (W5 m c (Proc.devRef .tc main_arg0)) = _
  rw [W5_v44, W5_v57, h0]
  rfl

/-! ## The third iteration -/

theorem W6_v58 (c : Dev nD) :
    W6 m c (Proc.devRef .tc main_v58) = Cert.Spec.step (F := Ideal) (wK m c) (rowK m c) (colK m c) (Cert.Spec.step (F := Ideal) (wK m c) (rowK m c) (colK m c) (m ((c.tc : Thread nD τ).loc main_arg0)) (m ((c.tc : Thread nD τ).loc main_arg0))) (m ((c.tc : Thread nD τ).loc main_arg0)) := by
  unfold W6; exact (Function.update_self _ _ _).trans (call1 m c)

theorem W7_v58 (c : Dev nD) :
    W7 m c (Proc.devRef .tc main_v58) = Cert.Spec.step (F := Ideal) (wK m c) (rowK m c) (colK m c) (Cert.Spec.step (F := Ideal) (wK m c) (rowK m c) (colK m c) (m ((c.tc : Thread nD τ).loc main_arg0)) (m ((c.tc : Thread nD τ).loc main_arg0))) (m ((c.tc : Thread nD τ).loc main_arg0)) :=
  (W7_of m c main_v58 (by decide)).trans (W6_v58 m c)

/-- The neighbour sum the third call reads is that of the second call's result. -/
theorem W7_v71 (c : Dev nD) :
    W7 m c (Proc.devRef .tc main_v71) = Cert.Spec.spmm (F := Ideal) (wK m c) (rowK m c) (colK m c)
      (Cert.Spec.step (F := Ideal) (wK m c) (rowK m c) (colK m c) (Cert.Spec.step (F := Ideal) (wK m c) (rowK m c) (colK m c) (m ((c.tc : Thread nD τ).loc main_arg0)) (m ((c.tc : Thread nD τ).loc main_arg0))) (m ((c.tc : Thread nD τ).loc main_arg0))) := by
  obtain ⟨h30, h5, h6, -⟩ := carried6 m c
  have h := spmm_hostOps2 (W6 m c)
  rw [h30, h5, h6, W6_v58] at h
  exact h

/-- What the third pipeline leaves in the result array is the three-step iteration from the input features. -/
theorem kernel_value (c : Dev nD) :
    (dat2 (F := Ideal) (V7 m) qF c).arrAt 3 cfg2.N
      = Cert.Spec.result (F := Ideal) (wK m c) (rowK m c) (colK m c) (m ((c.tc : Thread nD τ).loc main_arg0)) := by
  obtain ⟨-, -, -, h0⟩ := carried7 m c
  refine (arrAt2 (Hand.V7 m) qF c).trans ?_
  show Cert.Spec.prox (F := Ideal) (W7 m c (Proc.devRef .tc main_v58)) (W7 m c (Proc.devRef .tc main_v71)) (W7 m c (Proc.devRef .tc main_arg0)) = _
  rw [W7_v58, W7_v71, h0]
  rfl

end Cert.KernelIdeal.HandValue

end
-- ==== Proof.Value.RefRun.lean ====
/-
  The reference program's run, at any float instance, written over its own list of host operations (the program has no
  kernel launch): every weakly fair execution terminates, nothing faults, the arguments end unchanged, and the result
  is the three-step iteration of the proximal step from the input features, with the edge weights and the two index
  lists as the program's first operations compute them. The list is cut into the prefix that computes the weights and
  the index lists, and one stretch per iteration; each iteration's stretch, read as a function of the buffers it
  starts from, is one normalised neighbour sum followed by one proximal step.
-/
import proofs.«410928_j41137196761669_3_alg».proof.ReferenceIdeal
import proofs.«410928_j41137196761669_3_alg».proof.Proof.Gen.ReferenceIdeal
import proofs.«410928_j41137196761669_3_alg».proof.Proof.Value.Spec
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The program's operations up to and including the edge weights (statement %31), the select of the outlined
    `where` written at its call site. -/
def opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (.of main_v12 : TRef sig ⟨S100000, .i1⟩) (.of main_v13 : TRef sig ⟨S100000, .f32⟩) (.of main_v14 : TRef sig ⟨S100000, .f32⟩) main_call0.v0 select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v7 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Core c's buffers at launch. -/
abbrev V0 (m' : (ℓ : Loc nD τ sig) → Buf (Elt F) ℓ) (c : Dev nD) : Valuation τ sig (Elt F) := fun b => m' ((c : Dev nD), b)

/-- The edge weights, the row list and the column list as the reference computes them from the buffers V. -/
def wR (V : Valuation τ sig (Elt F)) : FVec F S1700000 .f32 := StableHlo.after (opsA (F := F)) V (Proc.devRef .tc main_v31)
def rowR (V : Valuation τ sig (Elt F)) : IVec S1700000 32 := StableHlo.after (opsA (F := F)) V (Proc.devRef .tc main_v5)
def colR (V : Valuation τ sig (Elt F)) : IVec S1700000 32 := StableHlo.after (opsA (F := F)) V (Proc.devRef .tc main_v6)

/-- The first iteration's operations (statements %32 … %67): the neighbour sum of the input features, then the proximal step, the two outlined `where`s written at their call sites (the scalar's conversion, its spread over the rows, the select). -/
def ops1 : List (HloOp τ sig (Elt F)) :=
  [ nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v6 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v6 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v6 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_arg0 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v42 (broadcastInDim S100000x64 ![] bcast_S_S100000x64 : (⟨S_, .f32⟩ : BufTy).Contents (Elt F) → (⟨S100000x64, .f32⟩ : BufTy).Contents (Elt F)),
    unary main_v5 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_arg0 main_v44 main_v45 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3F800000#32),
    unary main_cst_9 main_v46 (broadcastInDim S100000x64 ![] bcast_S_S100000x64 : (⟨S_, .f32⟩ : BufTy).Contents (Elt F) → (⟨S100000x64, .f32⟩ : BufTy).Contents (Elt F)),
    binary main_v46 main_v45 main_v47 (mulf : (⟨S100000x64, .f32⟩ : BufTy).Contents (Elt F) → (⟨S100000x64, .f32⟩ : BufTy).Contents (Elt F) → (⟨S100000x64, .f32⟩ : BufTy).Contents (Elt F)),
    binary main_arg0 main_v47 main_v48 (subf : (⟨S100000x64, .f32⟩ : BufTy).Contents (Elt F) → (⟨S100000x64, .f32⟩ : BufTy).Contents (Elt F) → (⟨S100000x64, .f32⟩ : BufTy).Contents (Elt F)),
    binary main_v48 main_arg0 main_v49 (subf : (⟨S100000x64, .f32⟩ : BufTy).Contents (Elt F) → (⟨S100000x64, .f32⟩ : BufTy).Contents (Elt F) → (⟨S100000x64, .f32⟩ : BufTy).Contents (Elt F)),
    binary main_v49 main_v49 main_v50 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v50 main_cst_10 main_v51 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v51 main_v52 (Host.sqrt : (⟨S100000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    nullary main_cst_12 (constant S_ .f32 0x3D638E39#32),
    unary main_cst_12 main_v55 (broadcastInDim S100000 ![] bcast_S_S100000 : (⟨S_, .f32⟩ : BufTy).Contents (Elt F) → (⟨S100000, .f32⟩ : BufTy).Contents (Elt F)),
    binary main_v52 main_v55 main_v56 (subf : (⟨S100000, .f32⟩ : BufTy).Contents (Elt F) → (⟨S100000, .f32⟩ : BufTy).Contents (Elt F) → (⟨S100000, .f32⟩ : BufTy).Contents (Elt F)),
    nullary main_cst_13 (constant S_ .f32 0x00000000#32),
    unary main_cst_13 main_v57 (broadcastInDim S100000 ![] bcast_S_S100000 : (⟨S_, .f32⟩ : BufTy).Contents (Elt F) → (⟨S100000, .f32⟩ : BufTy).Contents (Elt F)),
    binary main_v56 main_v57 main_v58 (maximumf : (⟨S100000, .f32⟩ : BufTy).Contents (Elt F) → (⟨S100000, .f32⟩ : BufTy).Contents (Elt F) → (⟨S100000, .f32⟩ : BufTy).Contents (Elt F)),
    nullary main_cst_14 (constant S_ .f32 0x00000000#32),
    unary main_cst_14 main_v59 (broadcastInDim S100000 ![] bcast_S_S100000 : (⟨S_, .f32⟩ : BufTy).Contents (Elt F) → (⟨S100000, .f32⟩ : BufTy).Contents (Elt F)),
    binary main_v52 main_v59 main_v60 (cmpf .ogt : (⟨S100000, .f32⟩ : BufTy).Contents (Elt F) → (⟨S100000, .f32⟩ : BufTy).Contents (Elt F) → (⟨S100000, .i1⟩ : BufTy).Contents (Elt F)),
    nullary main_cst_15 (constant S_ .f32 0x3F800000#32),
    TRef.unary (.of main_cst_15 : TRef sig ⟨S_, .f32⟩) main_call1.v0 id,
    TRef.unary main_call1.v0 main_call1.v1 (broadcastInDim S100000 ![] bcast_S_S100000),
    TRef.ternary (.of main_v60 : TRef sig ⟨S100000, .i1⟩) (.of main_v52 : TRef sig ⟨S100000, .f32⟩) main_call1.v1 main_call1.v2 select,
    binary main_v58 main_v61 main_v62 (Host.divf : (⟨S100000, .f32⟩ : BufTy).Contents (Elt F) → (⟨S100000, .f32⟩ : BufTy).Contents (Elt F) → (⟨S100000, .f32⟩ : BufTy).Contents (Elt F)),
    nullary main_cst_16 (constant S_ .f32 0x00000000#32),
    TRef.unary (.of main_cst_16 : TRef sig ⟨S_, .f32⟩) main_call2.v0 id,
    TRef.unary main_call2.v0 main_call2.v1 (broadcastInDim S100000 ![] bcast_S_S100000),
    TRef.ternary (.of main_v54 : TRef sig ⟨S100000, .i1⟩) (.of main_v62 : TRef sig ⟨S100000, .f32⟩) main_call2.v1 main_call2.v2 select,
    unary main_v63 main_v64 (broadcastInDim S100000x1 ![0] bcast_S100000_S100000x1_0 : (⟨S100000, .f32⟩ : BufTy).Contents (Elt F) → (⟨S100000x1, .f32⟩ : BufTy).Contents (Elt F)),
    unary main_v64 main_v65 (broadcastInDim S100000x64 ![0, 1] bcast_S100000x1_S100000x64_0_1 : (⟨S100000x1, .f32⟩ : BufTy).Contents (Elt F) → (⟨S100000x64, .f32⟩ : BufTy).Contents (Elt F)),
    binary main_v65 main_v49 main_v66 (mulf : (⟨S100000x64, .f32⟩ : BufTy).Contents (Elt F) → (⟨S100000x64, .f32⟩ : BufTy).Contents (Elt F) → (⟨S100000x64, .f32⟩ : BufTy).Contents (Elt F)),
    binary main_arg0 main_v66 main_v67 (addf : (⟨S100000x64, .f32⟩ : BufTy).Contents (Elt F) → (⟨S100000x64, .f32⟩ : BufTy).Contents (Elt F) → (⟨S100000x64, .f32⟩ : BufTy).Contents (Elt F)) ]

/-- The second iteration's operations (statements %68 … %103), on the first iteration's result. -/
def ops2 : List (HloOp τ sig (Elt F)) :=
  [ nullary main_c_17 (constantI S_ 32 0#32),
    unary main_c_17 main_v68 (broadcastInDim S1700000 ![] bcast_S_S1700000 : (⟨S_, .i32⟩ : BufTy).Contents (Elt F) → (⟨S1700000, .i32⟩ : BufTy).Contents (Elt F)),
    binary main_v6 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v70 (broadcastInDim S1700000 ![] bcast_S_S1700000 : (⟨S_, .i32⟩ : BufTy).Contents (Elt F) → (⟨S1700000, .i32⟩ : BufTy).Contents (Elt F)),
    binary main_v6 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v6 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v75 (broadcastInDim S1700000x1 ![0] bcast_S1700000_S1700000x1_0 : (⟨S1700000, .f32⟩ : BufTy).Contents (Elt F) → (⟨S1700000x1, .f32⟩ : BufTy).Contents (Elt F)),
    unary main_v75 main_v76 (broadcastInDim S1700000x64 ![0, 1] bcast_S1700000x1_S1700000x64_0_1 : (⟨S1700000x1, .f32⟩ : BufTy).Contents (Elt F) → (⟨S1700000x64, .f32⟩ : BufTy).Contents (Elt F)),
    binary main_v74 main_v76 main_v77 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v78 (broadcastInDim S100000x64 ![] bcast_S_S100000x64 : (⟨S_, .f32⟩ : BufTy).Contents (Elt F) → (⟨S100000x64, .f32⟩ : BufTy).Contents (Elt F)),
    unary main_v5 main_v79 (broadcastInDim S1700000x1 ![0] bcast_S1700000_S1700000x1_0 : (⟨S1700000, .i32⟩ : BufTy).Contents (Elt F) → (⟨S1700000x1, .i32⟩ : BufTy).Contents (Elt F)),
    ternary main_v78 main_v79 main_v77 main_v80 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v67 main_v80 main_v81 (subf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3F800000#32),
    unary main_cst_20 main_v82 (broadcastInDim S100000x64 ![] bcast_S_S100000x64 : (⟨S_, .f32⟩ : BufTy).Contents (Elt F) → (⟨S100000x64, .f32⟩ : BufTy).Contents (Elt F)),
    binary main_v82 main_v81 main_v83 (mulf : (⟨S100000x64, .f32⟩ : BufTy).Contents (Elt F) → (⟨S100000x64, .f32⟩ : BufTy).Contents (Elt F) → (⟨S100000x64, .f32⟩ : BufTy).Contents (Elt F)),
    binary main_v67 main_v83 main_v84 (subf : (⟨S100000x64, .f32⟩ : BufTy).Contents (Elt F) → (⟨S100000x64, .f32⟩ : BufTy).Contents (Elt F) → (⟨S100000x64, .f32⟩ : BufTy).Contents (Elt F)),
    binary main_v84 main_arg0 main_v85 (subf : (⟨S100000x64, .f32⟩ : BufTy).Contents (Elt F) → (⟨S100000x64, .f32⟩ : BufTy).Contents (Elt F) → (⟨S100000x64, .f32⟩ : BufTy).Contents (Elt F)),
    binary main_v85 main_v85 main_v86 (mulf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x00000000#32),
    binary main_v86 main_cst_21 main_v87 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v87 main_v88 (Host.sqrt : (⟨S100000, .f32⟩ : BufTy).Contents (Elt F) → (⟨S100000, .f32⟩ : BufTy).Contents (Elt F)),
    nullary main_cst_22 (constant S_ .f32 0x00000000#32),
    unary main_cst_22 main_v89 (broadcastInDim S100000 ![] bcast_S_S100000 : (⟨S_, .f32⟩ : BufTy).Contents (Elt F) → (⟨S100000, .f32⟩ : BufTy).Contents (Elt F)),
    binary main_v88 main_v89 main_v90 (cmpf .ogt : (⟨S100000, .f32⟩ : BufTy).Contents (Elt F) → (⟨S100000, .f32⟩ : BufTy).Contents (Elt F) → (⟨S100000, .i1⟩ : BufTy).Contents (Elt F)),
    nullary main_cst_23 (constant S_ .f32 0x3D638E39#32),
    unary main_cst_23 main_v91 (broadcastInDim S100000 ![] bcast_S_S100000 : (⟨S_, .f32⟩ : BufTy).Contents (Elt F) → (⟨S100000, .f32⟩ : BufTy).Contents (Elt F)),
    binary main_v88 main_v91 main_v92 (subf : (⟨S100000, .f32⟩ : BufTy).Contents (Elt F) → (⟨S100000, .f32⟩ : BufTy).Contents (Elt F) → (⟨S100000, .f32⟩ : BufTy).Contents (Elt F)),
    nullary main_cst_24 (constant S_ .f32 0x00000000#32),
    unary main_cst_24 main_v93 (broadcastInDim S100000 ![] bcast_S_S100000 : (⟨S_, .f32⟩ : BufTy).Contents (Elt F) → (⟨S100000, .f32⟩ : BufTy).Contents (Elt F)),
    binary main_v92 main_v93 main_v94 (maximumf : (⟨S100000, .f32⟩ : BufTy).Contents (Elt F) → (⟨S100000, .f32⟩ : BufTy).Contents (Elt F) → (⟨S100000, .f32⟩ : BufTy).Contents (Elt F)),
    nullary main_cst_25 (constant S_ .f32 0x00000000#32),
    unary main_cst_25 main_v95 (broadcastInDim S100000 ![] bcast_S_S100000 : (⟨S_, .f32⟩ : BufTy).Contents (Elt F) → (⟨S100000, .f32⟩ : BufTy).Contents (Elt F)),
    binary main_v88 main_v95 main_v96 (cmpf .ogt : (⟨S100000, .f32⟩ : BufTy).Contents (Elt F) → (⟨S100000, .f32⟩ : BufTy).Contents (Elt F) → (⟨S100000, .i1⟩ : BufTy).Contents (Elt F)),
    nullary main_cst_26 (constant S_ .f32 0x3F800000#32),
    TRef.unary (.of main_cst_26 : TRef sig ⟨S_, .f32⟩) main_call3.v0 id,
    TRef.unary main_call3.v0 main_call3.v1 (broadcastInDim S100000 ![] bcast_S_S100000),
    TRef.ternary (.of main_v96 : TRef sig ⟨S100000, .i1⟩) (.of main_v88 : TRef sig ⟨S100000, .f32⟩) main_call3.v1 main_call3.v2 select,
    binary main_v94 main_v97 main_v98 (Host.divf : (⟨S100000, .f32⟩ : BufTy).Contents (Elt F) → (⟨S100000, .f32⟩ : BufTy).Contents (Elt F) → (⟨S100000, .f32⟩ : BufTy).Contents (Elt F)),
    nullary main_cst_27 (constant S_ .f32 0x00000000#32),
    TRef.unary (.of main_cst_27 : TRef sig ⟨S_, .f32⟩) main_call4.v0 id,
    TRef.unary main_call4.v0 main_call4.v1 (broadcastInDim S100000 ![] bcast_S_S100000),
    TRef.ternary (.of main_v90 : TRef sig ⟨S100000, .i1⟩) (.of main_v98 : TRef sig ⟨S100000, .f32⟩) main_call4.v1 main_call4.v2 select,
    unary main_v99 main_v100 (broadcastInDim S100000x1 ![0] bcast_S100000_S100000x1_0 : (⟨S100000, .f32⟩ : BufTy).Contents (Elt F) → (⟨S100000x1, .f32⟩ : BufTy).Contents (Elt F)),
    unary main_v100 main_v101 (broadcastInDim S100000x64 ![0, 1] bcast_S100000x1_S100000x64_0_1 : (⟨S100000x1, .f32⟩ : BufTy).Contents (Elt F) → (⟨S100000x64, .f32⟩ : BufTy).Contents (Elt F)),
    binary main_v101 main_v85 main_v102 (mulf : (⟨S100000x64, .f32⟩ : BufTy).Contents (Elt F) → (⟨S100000x64, .f32⟩ : BufTy).Contents (Elt F) → (⟨S100000x64, .f32⟩ : BufTy).Contents (Elt F)),
    binary main_arg0 main_v102 main_v103 (addf : (⟨S100000x64, .f32⟩ : BufTy).Contents (Elt F) → (⟨S100000x64, .f32⟩ : BufTy).Contents (Elt F) → (⟨S100000x64, .f32⟩ : BufTy).Contents (Elt F)) ]

/-- The third iteration's operations (statements %104 … %139), on the second iteration's result. -/
def ops3 : List (HloOp τ sig (Elt F)) :=
  [ nullary main_c_28 (constantI S_ 32 0#32),
    unary main_c_28 main_v104 (broadcastInDim S1700000 ![] bcast_S_S1700000 : (⟨S_, .i32⟩ : BufTy).Contents (Elt F) → (⟨S1700000, .i32⟩ : BufTy).Contents (Elt F)),
    binary main_v6 main_v104 main_v105 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v106 (broadcastInDim S1700000 ![] bcast_S_S1700000 : (⟨S_, .i32⟩ : BufTy).Contents (Elt F) → (⟨S1700000, .i32⟩ : BufTy).Contents (Elt F)),
    binary main_v6 main_v106 main_v107 (addi : (⟨S1700000, .i32⟩ : BufTy).Contents (Elt F) → (⟨S1700000, .i32⟩ : BufTy).Contents (Elt F) → (⟨S1700000, .i32⟩ : BufTy).Contents (Elt F)),
    ternary main_v105 main_v107 main_v6 main_v108 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v108 main_v109 (broadcastInDim S1700000x1 ![0] bcast_S1700000_S1700000x1_0 : (⟨S1700000, .i32⟩ : BufTy).Contents (Elt F) → (⟨S1700000x1, .i32⟩ : BufTy).Contents (Elt F)),
    binary main_v103 main_v109 main_v110 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v111 (broadcastInDim S1700000x1 ![0] bcast_S1700000_S1700000x1_0 : (⟨S1700000, .f32⟩ : BufTy).Contents (Elt F) → (⟨S1700000x1, .f32⟩ : BufTy).Contents (Elt F)),
    unary main_v111 main_v112 (broadcastInDim S1700000x64 ![0, 1] bcast_S1700000x1_S1700000x64_0_1 : (⟨S1700000x1, .f32⟩ : BufTy).Contents (Elt F) → (⟨S1700000x64, .f32⟩ : BufTy).Contents (Elt F)),
    binary main_v110 main_v112 main_v113 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v114 (broadcastInDim S100000x64 ![] bcast_S_S100000x64 : (⟨S_, .f32⟩ : BufTy).Contents (Elt F) → (⟨S100000x64, .f32⟩ : BufTy).Contents (Elt F)),
    unary main_v5 main_v115 (broadcastInDim S1700000x1 ![0] bcast_S1700000_S1700000x1_0 : (⟨S1700000, .i32⟩ : BufTy).Contents (Elt F) → (⟨S1700000x1, .i32⟩ : BufTy).Contents (Elt F)),
    ternary main_v114 main_v115 main_v113 main_v116 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v103 main_v116 main_v117 (subf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x3F800000#32),
    unary main_cst_31 main_v118 (broadcastInDim S100000x64 ![] bcast_S_S100000x64 : (⟨S_, .f32⟩ : BufTy).Contents (Elt F) → (⟨S100000x64, .f32⟩ : BufTy).Contents (Elt F)),
    binary main_v118 main_v117 main_v119 (mulf : (⟨S100000x64, .f32⟩ : BufTy).Contents (Elt F) → (⟨S100000x64, .f32⟩ : BufTy).Contents (Elt F) → (⟨S100000x64, .f32⟩ : BufTy).Contents (Elt F)),
    binary main_v103 main_v119 main_v120 (subf : (⟨S100000x64, .f32⟩ : BufTy).Contents (Elt F) → (⟨S100000x64, .f32⟩ : BufTy).Contents (Elt F) → (⟨S100000x64, .f32⟩ : BufTy).Contents (Elt F)),
    binary main_v120 main_arg0 main_v121 (subf : (⟨S100000x64, .f32⟩ : BufTy).Contents (Elt F) → (⟨S100000x64, .f32⟩ : BufTy).Contents (Elt F) → (⟨S100000x64, .f32⟩ : BufTy).Contents (Elt F)),
    binary main_v121 main_v121 main_v122 (mulf : (⟨S100000x64, .f32⟩ : BufTy).Contents (Elt F) → (⟨S100000x64, .f32⟩ : BufTy).Contents (Elt F) → (⟨S100000x64, .f32⟩ : BufTy).Contents (Elt F)),
    nullary main_cst_32 (constant S_ .f32 0x00000000#32),
    binary main_v122 main_cst_32 main_v123 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v123 main_v124 (Host.sqrt : (⟨S100000, .f32⟩ : BufTy).Contents (Elt F) → (⟨S100000, .f32⟩ : BufTy).Contents (Elt F)),
    nullary main_cst_33 (constant S_ .f32 0x00000000#32),
    unary main_cst_33 main_v125 (broadcastInDim S100000 ![] bcast_S_S100000 : (⟨S_, .f32⟩ : BufTy).Contents (Elt F) → (⟨S100000, .f32⟩ : BufTy).Contents (Elt F)),
    binary main_v124 main_v125 main_v126 (cmpf .ogt : (⟨S100000, .f32⟩ : BufTy).Contents (Elt F) → (⟨S100000, .f32⟩ : BufTy).Contents (Elt F) → (⟨S100000, .i1⟩ : BufTy).Contents (Elt F)),
    nullary main_cst_34 (constant S_ .f32 0x3D638E39#32),
    unary main_cst_34 main_v127 (broadcastInDim S100000 ![] bcast_S_S100000 : (⟨S_, .f32⟩ : BufTy).Contents (Elt F) → (⟨S100000, .f32⟩ : BufTy).Contents (Elt F)),
    binary main_v124 main_v127 main_v128 (subf : (⟨S100000, .f32⟩ : BufTy).Contents (Elt F) → (⟨S100000, .f32⟩ : BufTy).Contents (Elt F) → (⟨S100000, .f32⟩ : BufTy).Contents (Elt F)),
    nullary main_cst_35 (constant S_ .f32 0x00000000#32),
    unary main_cst_35 main_v129 (broadcastInDim S100000 ![] bcast_S_S100000 : (⟨S_, .f32⟩ : BufTy).Contents (Elt F) → (⟨S100000, .f32⟩ : BufTy).Contents (Elt F)),
    binary main_v128 main_v129 main_v130 (maximumf : (⟨S100000, .f32⟩ : BufTy).Contents (Elt F) → (⟨S100000, .f32⟩ : BufTy).Contents (Elt F) → (⟨S100000, .f32⟩ : BufTy).Contents (Elt F)),
    nullary main_cst_36 (constant S_ .f32 0x00000000#32),
    unary main_cst_36 main_v131 (broadcastInDim S100000 ![] bcast_S_S100000 : (⟨S_, .f32⟩ : BufTy).Contents (Elt F) → (⟨S100000, .f32⟩ : BufTy).Contents (Elt F)),
    binary main_v124 main_v131 main_v132 (cmpf .ogt : (⟨S100000, .f32⟩ : BufTy).Contents (Elt F) → (⟨S100000, .f32⟩ : BufTy).Contents (Elt F) → (⟨S100000, .i1⟩ : BufTy).Contents (Elt F)),
    nullary main_cst_37 (constant S_ .f32 0x3F800000#32),
    TRef.unary (.of main_cst_37 : TRef sig ⟨S_, .f32⟩) main_call5.v0 id,
    TRef.unary main_call5.v0 main_call5.v1 (broadcastInDim S100000 ![] bcast_S_S100000),
    TRef.ternary (.of main_v132 : TRef sig ⟨S100000, .i1⟩) (.of main_v124 : TRef sig ⟨S100000, .f32⟩) main_call5.v1 main_call5.v2 select,
    binary main_v130 main_v133 main_v134 (Host.divf : (⟨S100000, .f32⟩ : BufTy).Contents (Elt F) → (⟨S100000, .f32⟩ : BufTy).Contents (Elt F) → (⟨S100000, .f32⟩ : BufTy).Contents (Elt F)),
    nullary main_cst_38 (constant S_ .f32 0x00000000#32),
    TRef.unary (.of main_cst_38 : TRef sig ⟨S_, .f32⟩) main_call6.v0 id,
    TRef.unary main_call6.v0 main_call6.v1 (broadcastInDim S100000 ![] bcast_S_S100000),
    TRef.ternary (.of main_v126 : TRef sig ⟨S100000, .i1⟩) (.of main_v134 : TRef sig ⟨S100000, .f32⟩) main_call6.v1 main_call6.v2 select,
    unary main_v135 main_v136 (broadcastInDim S100000x1 ![0] bcast_S100000_S100000x1_0 : (⟨S100000, .f32⟩ : BufTy).Contents (Elt F) → (⟨S100000x1, .f32⟩ : BufTy).Contents (Elt F)),
    unary main_v136 main_v137 (broadcastInDim S100000x64 ![0, 1] bcast_S100000x1_S100000x64_0_1 : (⟨S100000x1, .f32⟩ : BufTy).Contents (Elt F) → (⟨S100000x64, .f32⟩ : BufTy).Contents (Elt F)),
    binary main_v137 main_v121 main_v138 (mulf : (⟨S100000x64, .f32⟩ : BufTy).Contents (Elt F) → (⟨S100000x64, .f32⟩ : BufTy).Contents (Elt F) → (⟨S100000x64, .f32⟩ : BufTy).Contents (Elt F)),
    binary main_arg0 main_v138 main_v139 (addf : (⟨S100000x64, .f32⟩ : BufTy).Contents (Elt F) → (⟨S100000x64, .f32⟩ : BufTy).Contents (Elt F) → (⟨S100000x64, .f32⟩ : BufTy).Contents (Elt F)) ]

/-- One operation's written buffer is in the list of written references. -/
local macro "writes_mem" : tactic =>
  `(tactic| (simp only [nullary_writes, unary_writes, binary_writes, ternary_writes, reshape_writes,
               Finset.singleton_subset_iff, List.mem_toFinset]
             exact List.mem_map_of_mem (by decide)))

/-! ## What the four lists touch and write -/

theorem opsA_sub : (opsA : List (HloOp τ sig (Elt F))).Forall fun op => op.bufs ⊆ tcRefs τ sig := by
  unfold opsA
  exact
    ⟨unary_bufs_sub .., reshape_bufs_sub .., unary_bufs_sub .., reshape_bufs_sub .., nullary_bufs_sub .., binary_bufs_sub ..,
      binary_bufs_sub .., nullary_bufs_sub .., unary_bufs_sub .., nullary_bufs_sub .., unary_bufs_sub .., unary_bufs_sub ..,
      ternary_bufs_sub .., nullary_bufs_sub .., unary_bufs_sub .., binary_bufs_sub .., unary_bufs_sub .., nullary_bufs_sub ..,
      unary_bufs_sub .., ternary_bufs_sub .., nullary_bufs_sub .., unary_bufs_sub .., binary_bufs_sub .., nullary_bufs_sub ..,
      unary_bufs_sub .., binary_bufs_sub .., ternary_bufs_sub .., unary_bufs_sub .., binary_bufs_sub .., binary_bufs_sub ..,
      nullary_bufs_sub .., unary_bufs_sub .., binary_bufs_sub .., nullary_bufs_sub .., unary_bufs_sub .., binary_bufs_sub ..,
      ternary_bufs_sub .., unary_bufs_sub .., binary_bufs_sub .., binary_bufs_sub ..⟩
theorem opsA_fresh : (opsA : List (HloOp τ sig (Elt F))).Forall fun op => op.fresh = ∅ := by
  unfold opsA; simp only [List.Forall]; repeat' constructor
/-- The references opsA's operations write. -/
abbrev opsA_W : List (Ref sig .tc) :=
  [main_v0, main_v1, main_v2, main_v3, main_v4, main_v5, main_v6, main_cst, main_v7, main_cst_0,
    main_v8, main_v9, main_v10, main_cst_1, main_v11, main_v12, main_v13, main_cst_2, main_v14, main_v15,
    main_c, main_v16, main_v17, main_c_3, main_v18, main_v19, main_v20, main_v21, main_v22, main_v23,
    main_c_4, main_v24, main_v25, main_c_5, main_v26, main_v27, main_v28, main_v29, main_v30, main_v31]
theorem opsA_writes : (opsA : List (HloOp τ sig (Elt F))).Forall fun op => op.writes ⊆ (opsA_W.map (Proc.devRef (τ := τ) .tc)).toFinset := by
  unfold opsA; simp only [List.Forall]
  repeat' apply And.intro
  all_goals writes_mem

theorem ops1_sub : (ops1 : List (HloOp τ sig (Elt F))).Forall fun op => op.bufs ⊆ tcRefs τ sig := by
  unfold ops1
  exact
    ⟨nullary_bufs_sub .., unary_bufs_sub .., binary_bufs_sub .., nullary_bufs_sub .., unary_bufs_sub .., binary_bufs_sub ..,
      ternary_bufs_sub .., unary_bufs_sub .., binary_bufs_sub .., unary_bufs_sub .., unary_bufs_sub .., binary_bufs_sub ..,
      nullary_bufs_sub .., unary_bufs_sub .., unary_bufs_sub .., ternary_bufs_sub .., binary_bufs_sub .., nullary_bufs_sub ..,
      unary_bufs_sub .., binary_bufs_sub .., binary_bufs_sub .., binary_bufs_sub .., binary_bufs_sub .., nullary_bufs_sub ..,
      binary_bufs_sub .., unary_bufs_sub .., nullary_bufs_sub .., unary_bufs_sub .., binary_bufs_sub .., nullary_bufs_sub ..,
      unary_bufs_sub .., binary_bufs_sub .., nullary_bufs_sub .., unary_bufs_sub .., binary_bufs_sub .., nullary_bufs_sub ..,
      unary_bufs_sub .., binary_bufs_sub .., nullary_bufs_sub .., unary_bufs_sub .., unary_bufs_sub .., ternary_bufs_sub ..,
      binary_bufs_sub .., nullary_bufs_sub .., unary_bufs_sub .., unary_bufs_sub .., ternary_bufs_sub .., unary_bufs_sub ..,
      unary_bufs_sub .., binary_bufs_sub .., binary_bufs_sub ..⟩
theorem ops1_fresh : (ops1 : List (HloOp τ sig (Elt F))).Forall fun op => op.fresh = ∅ := by
  unfold ops1; simp only [List.Forall]; repeat' constructor
/-- The references ops1's operations write. -/
abbrev ops1_W : List (Ref sig .tc) :=
  [main_c_6, main_v32, main_v33, main_c_7, main_v34, main_v35, main_v36, main_v37, main_v38, main_v39,
    main_v40, main_v41, main_cst_8, main_v42, main_v43, main_v44, main_v45, main_cst_9, main_v46, main_v47,
    main_v48, main_v49, main_v50, main_cst_10, main_v51, main_v52, main_cst_11, main_v53, main_v54, main_cst_12,
    main_v55, main_v56, main_cst_13, main_v57, main_v58, main_cst_14, main_v59, main_v60, main_cst_15, main_call1_v0,
    main_call1_v1, main_v61, main_v62, main_cst_16, main_call2_v0, main_call2_v1, main_v63, main_v64, main_v65, main_v66,
    main_v67]
theorem ops1_writes : (ops1 : List (HloOp τ sig (Elt F))).Forall fun op => op.writes ⊆ (ops1_W.map (Proc.devRef (τ := τ) .tc)).toFinset := by
  unfold ops1; simp only [List.Forall]
  repeat' apply And.intro
  all_goals writes_mem

theorem ops2_sub : (ops2 : List (HloOp τ sig (Elt F))).Forall fun op => op.bufs ⊆ tcRefs τ sig := by
  unfold ops2
  exact
    ⟨nullary_bufs_sub .., unary_bufs_sub .., binary_bufs_sub .., nullary_bufs_sub .., unary_bufs_sub .., binary_bufs_sub ..,
      ternary_bufs_sub .., unary_bufs_sub .., binary_bufs_sub .., unary_bufs_sub .., unary_bufs_sub .., binary_bufs_sub ..,
      nullary_bufs_sub .., unary_bufs_sub .., unary_bufs_sub .., ternary_bufs_sub .., binary_bufs_sub .., nullary_bufs_sub ..,
      unary_bufs_sub .., binary_bufs_sub .., binary_bufs_sub .., binary_bufs_sub .., binary_bufs_sub .., nullary_bufs_sub ..,
      binary_bufs_sub .., unary_bufs_sub .., nullary_bufs_sub .., unary_bufs_sub .., binary_bufs_sub .., nullary_bufs_sub ..,
      unary_bufs_sub .., binary_bufs_sub .., nullary_bufs_sub .., unary_bufs_sub .., binary_bufs_sub .., nullary_bufs_sub ..,
      unary_bufs_sub .., binary_bufs_sub .., nullary_bufs_sub .., unary_bufs_sub .., unary_bufs_sub .., ternary_bufs_sub ..,
      binary_bufs_sub .., nullary_bufs_sub .., unary_bufs_sub .., unary_bufs_sub .., ternary_bufs_sub .., unary_bufs_sub ..,
      unary_bufs_sub .., binary_bufs_sub .., binary_bufs_sub ..⟩
theorem ops2_fresh : (ops2 : List (HloOp τ sig (Elt F))).Forall fun op => op.fresh = ∅ := by
  unfold ops2; simp only [List.Forall]; repeat' constructor
/-- The references ops2's operations write. -/
abbrev ops2_W : List (Ref sig .tc) :=
  [main_c_17, main_v68, main_v69, main_c_18, main_v70, main_v71, main_v72, main_v73, main_v74, main_v75,
    main_v76, main_v77, main_cst_19, main_v78, main_v79, main_v80, main_v81, main_cst_20, main_v82, main_v83,
    main_v84, main_v85, main_v86, main_cst_21, main_v87, main_v88, main_cst_22, main_v89, main_v90, main_cst_23,
    main_v91, main_v92, main_cst_24, main_v93, main_v94, main_cst_25, main_v95, main_v96, main_cst_26, main_call3_v0,
    main_call3_v1, main_v97, main_v98, main_cst_27, main_call4_v0, main_call4_v1, main_v99, main_v100, main_v101, main_v102,
    main_v103]
theorem ops2_writes : (ops2 : List (HloOp τ sig (Elt F))).Forall fun op => op.writes ⊆ (ops2_W.map (Proc.devRef (τ := τ) .tc)).toFinset := by
  unfold ops2; simp only [List.Forall]
  repeat' apply And.intro
  all_goals writes_mem

theorem ops3_sub : (ops3 : List (HloOp τ sig (Elt F))).Forall fun op => op.bufs ⊆ tcRefs τ sig := by
  unfold ops3
  exact
    ⟨nullary_bufs_sub .., unary_bufs_sub .., binary_bufs_sub .., nullary_bufs_sub .., unary_bufs_sub .., binary_bufs_sub ..,
      ternary_bufs_sub .., unary_bufs_sub .., binary_bufs_sub .., unary_bufs_sub .., unary_bufs_sub .., binary_bufs_sub ..,
      nullary_bufs_sub .., unary_bufs_sub .., unary_bufs_sub .., ternary_bufs_sub .., binary_bufs_sub .., nullary_bufs_sub ..,
      unary_bufs_sub .., binary_bufs_sub .., binary_bufs_sub .., binary_bufs_sub .., binary_bufs_sub .., nullary_bufs_sub ..,
      binary_bufs_sub .., unary_bufs_sub .., nullary_bufs_sub .., unary_bufs_sub .., binary_bufs_sub .., nullary_bufs_sub ..,
      unary_bufs_sub .., binary_bufs_sub .., nullary_bufs_sub .., unary_bufs_sub .., binary_bufs_sub .., nullary_bufs_sub ..,
      unary_bufs_sub .., binary_bufs_sub .., nullary_bufs_sub .., unary_bufs_sub .., unary_bufs_sub .., ternary_bufs_sub ..,
      binary_bufs_sub .., nullary_bufs_sub .., unary_bufs_sub .., unary_bufs_sub .., ternary_bufs_sub .., unary_bufs_sub ..,
      unary_bufs_sub .., binary_bufs_sub .., binary_bufs_sub ..⟩
theorem ops3_fresh : (ops3 : List (HloOp τ sig (Elt F))).Forall fun op => op.fresh = ∅ := by
  unfold ops3; simp only [List.Forall]; repeat' constructor
/-- The references ops3's operations write. -/
abbrev ops3_W : List (Ref sig .tc) :=
  [main_c_28, main_v104, main_v105, main_c_29, main_v106, main_v107, main_v108, main_v109, main_v110, main_v111,
    main_v112, main_v113, main_cst_30, main_v114, main_v115, main_v116, main_v117, main_cst_31, main_v118, main_v119,
    main_v120, main_v121, main_v122, main_cst_32, main_v123, main_v124, main_cst_33, main_v125, main_v126, main_cst_34,
    main_v127, main_v128, main_cst_35, main_v129, main_v130, main_cst_36, main_v131, main_v132, main_cst_37, main_call5_v0,
    main_call5_v1, main_v133, main_v134, main_cst_38, main_call6_v0, main_call6_v1, main_v135, main_v136, main_v137, main_v138,
    main_v139]
theorem ops3_writes : (ops3 : List (HloOp τ sig (Elt F))).Forall fun op => op.writes ⊆ (ops3_W.map (Proc.devRef (τ := τ) .tc)).toFinset := by
  unfold ops3; simp only [List.Forall]
  repeat' apply And.intro
  all_goals writes_mem

/-! ## The program is the four lists run in order -/

/-- The buffers after two lists run in order. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

private theorem take_drop_app {α : Type} (l X : List α) (n : Nat) : l.take n ++ (l.drop n ++ X) = l ++ X := by
  rw [← List.append_assoc, List.take_append_drop]

/- The program is stated in four consecutive parts; they cut the iterations' lists after 20, 33 and 50 operations. -/
theorem main_part0_eq (c : Dev nD) : main_part0 (F := F) c = seq (opsA ++ ops1.take 20) := rfl
theorem main_part1_eq (c : Dev nD) : main_part1 (F := F) c = seq (ops1.drop 20 ++ ops2.take 33) := rfl
theorem main_part2_eq (c : Dev nD) : main_part2 (F := F) c = seq (ops2.drop 33 ++ ops3.take 50) := rfl
theorem main_part3_eq (c : Dev nD) : main_part3 (F := F) c = seq (ops3.drop 50) := rfl

/-- The whole list, the iterations nested to the right. -/
abbrev opsAll : List (HloOp τ sig (Elt F)) := opsA ++ (ops1 ++ (ops2 ++ ops3))

theorem main_eq (c : Dev nD) : main (F := F) c = seq opsAll := by
  have h : main (F := F) c
      = (main_part0 c >>= fun _ => main_part1 c >>= fun _ => main_part2 c >>= fun _ => main_part3 c) := rfl
  rw [h, main_part0_eq, main_part1_eq, main_part2_eq, main_part3_eq, ← seq_append, ← seq_append, ← seq_append]
  refine congrArg seq ?_
  simp only [List.append_assoc, take_drop_app, List.take_append_drop]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_iff_forall_mem.mpr fun op h => by
    simp only [opsAll, List.mem_append] at h
    rcases h with h | h | h | h
    exacts [List.forall_iff_forall_mem.mp opsA_sub op h, List.forall_iff_forall_mem.mp ops1_sub op h,
      List.forall_iff_forall_mem.mp ops2_sub op h, List.forall_iff_forall_mem.mp ops3_sub op h]

theorem opsAll_fresh : ∀ op ∈ (opsAll : List (HloOp τ sig (Elt F))), op.fresh = ∅ := fun op h => by
  simp only [opsAll, List.mem_append] at h
  rcases h with h | h | h | h
  exacts [List.forall_iff_forall_mem.mp opsA_fresh op h, List.forall_iff_forall_mem.mp ops1_fresh op h,
    List.forall_iff_forall_mem.mp ops2_fresh op h, List.forall_iff_forall_mem.mp ops3_fresh op h]

/-- On every device every buffer ends at the four lists' fold over the launch contents. -/
theorem run_all (m' : (ℓ : Loc nD τ sig) → Buf (Elt F) ℓ) (ρ' : Dev nD → PrngReg) :
    θ_run defs (onTc (τ := τ) (main (F := F))) ⟨m', fun _ => 0, ρ'⟩ fun r =>
      ∀ (c : Dev nD) (b : Ref sig .tc), r.2.mem ((c.tc : Thread nD τ).loc b)
        = after ops3 (after ops2 (after ops1 (after opsA (V0 m' c)))) (Proc.devRef .tc b) :=
  (θ_run defs _ _).mono (fun _ h c b => (h c b).trans (by rw [opsAll, after_app, after_app, after_app]))
    (run_seq scopedRefs_eq scopedSems_eq defs main (fun _ => opsAll) main_eq (fun _ => opsAll_sub) m' ρ'
      (fun _ => opsAll_fresh))

/-! ## Each iteration's list, read from the buffers it starts at

The list's fold at the iteration's result buffer, every operation's result put in for the buffer it writes, is the
proximal step of the iterate against its neighbour sum, term for term: the outlined selects read and write their
buffers at the buffers' own types, and the scalar's conversion is the identity. -/

theorem iter1_read (V : Valuation τ sig (Elt F)) :
    after (ops1 (F := F)) V (Proc.devRef .tc main_v67)
      = Cert.Spec.step (F := F) (V (Proc.devRef .tc main_v31)) (V (Proc.devRef .tc main_v5)) (V (Proc.devRef .tc main_v6))
          (V (Proc.devRef .tc main_arg0)) (V (Proc.devRef .tc main_arg0)) := by
  unfold ops1
  after_results_simp
  simp only [Cert.Spec.step, Cert.Spec.prox, Cert.Spec.spmm, Cert.Spec.resid, Cert.Spec.rowNorm, Cert.Spec.shrink,
    Cert.Spec.alongRows, Cert.Spec.rowsOf, TRef.ofBuf, TRef.toBuf, cast_eq, id_eq]

theorem iter2_read (V : Valuation τ sig (Elt F)) :
    after (ops2 (F := F)) V (Proc.devRef .tc main_v103)
      = Cert.Spec.step (F := F) (V (Proc.devRef .tc main_v31)) (V (Proc.devRef .tc main_v5)) (V (Proc.devRef .tc main_v6))
          (V (Proc.devRef .tc main_v67)) (V (Proc.devRef .tc main_arg0)) := by
  unfold ops2
  after_results_simp
  simp only [Cert.Spec.step, Cert.Spec.prox, Cert.Spec.spmm, Cert.Spec.resid, Cert.Spec.rowNorm, Cert.Spec.shrink,
    Cert.Spec.alongRows, Cert.Spec.rowsOf, TRef.ofBuf, TRef.toBuf, cast_eq, id_eq]

theorem iter3_read (V : Valuation τ sig (Elt F)) :
    after (ops3 (F := F)) V (Proc.devRef .tc main_v139)
      = Cert.Spec.step (F := F) (V (Proc.devRef .tc main_v31)) (V (Proc.devRef .tc main_v5)) (V (Proc.devRef .tc main_v6))
          (V (Proc.devRef .tc main_v103)) (V (Proc.devRef .tc main_arg0)) := by
  unfold ops3
  after_results_simp
  simp only [Cert.Spec.step, Cert.Spec.prox, Cert.Spec.spmm, Cert.Spec.resid, Cert.Spec.rowNorm, Cert.Spec.shrink,
    Cert.Spec.alongRows, Cert.Spec.rowsOf, TRef.ofBuf, TRef.toBuf, cast_eq, id_eq]

/-! ## What each list leaves as it was -/

theorem opsA_keep (V : Valuation τ sig (Elt F)) (r : Ref sig .tc) (h : r ∉ opsA_W) :
    after (opsA (F := F)) V (Proc.devRef .tc r) = V (Proc.devRef .tc r) :=
  after_of_writes_sub opsA V opsA_writes h
theorem ops1_keep (V : Valuation τ sig (Elt F)) (r : Ref sig .tc) (h : r ∉ ops1_W) :
    after (ops1 (F := F)) V (Proc.devRef .tc r) = V (Proc.devRef .tc r) :=
  after_of_writes_sub ops1 V ops1_writes h
theorem ops2_keep (V : Valuation τ sig (Elt F)) (r : Ref sig .tc) (h : r ∉ ops2_W) :
    after (ops2 (F := F)) V (Proc.devRef .tc r) = V (Proc.devRef .tc r) :=
  after_of_writes_sub ops2 V ops2_writes h
theorem ops3_keep (V : Valuation τ sig (Elt F)) (r : Ref sig .tc) (h : r ∉ ops3_W) :
    after (ops3 (F := F)) V (Proc.devRef .tc r) = V (Proc.devRef .tc r) :=
  after_of_writes_sub ops3 V ops3_writes h

/-- No list writes either argument. -/
theorem arg_keep (V : Valuation τ sig (Elt F)) (r : Ref sig .tc) (hA : r ∉ opsA_W) (h1 : r ∉ ops1_W) (h2 : r ∉ ops2_W)
    (h3 : r ∉ ops3_W) :
    after (ops3 (F := F)) (after ops2 (after ops1 (after opsA V))) (Proc.devRef .tc r) = V (Proc.devRef .tc r) := by
  rw [ops3_keep _ r h3, ops2_keep _ r h2, ops1_keep _ r h1, opsA_keep _ r hA]

/-- The result buffer after the four lists: three steps from the input features, with the weights and the index
    lists the first list leaves. -/
theorem read_all (V : Valuation τ sig (Elt F)) :
    after (ops3 (F := F)) (after ops2 (after ops1 (after opsA V))) (Proc.devRef .tc main_v139)
      = Cert.Spec.result (F := F) (wR V) (rowR V) (colR V) (V (Proc.devRef .tc main_arg0)) := by
  rw [iter3_read, iter2_read,
    ops2_keep _ main_v31 (by decide), ops2_keep _ main_v5 (by decide), ops2_keep _ main_v6 (by decide),
    ops2_keep _ main_arg0 (by decide), iter1_read,
    ops1_keep _ main_v31 (by decide), ops1_keep _ main_v5 (by decide), ops1_keep _ main_v6 (by decide),
    ops1_keep _ main_arg0 (by decide), opsA_keep _ main_arg0 (by decide)]
  rfl

/-- THE RUN of the reference. -/
theorem ref_run (m' : (ℓ : Loc nD τ sig) → Buf (Elt F) ℓ) (ρ' : Dev nD → PrngReg) :
    θ_run defs (onTc (τ := τ) (main (F := F))) ⟨m', fun _ => 0, ρ'⟩ (fun r => ∀ c : Dev nD,
      r.2.mem ((c.tc : Thread nD τ).loc main_v139)
          = Cert.Spec.result (F := F) (wR (V0 m' c)) (rowR (V0 m' c)) (colR (V0 m' c)) (m' ((c.tc : Thread nD τ).loc main_arg0))
      ∧ r.2.mem ((c.tc : Thread nD τ).loc main_arg0) = m' ((c.tc : Thread nD τ).loc main_arg0)
      ∧ r.2.mem ((c.tc : Thread nD τ).loc main_arg1) = m' ((c.tc : Thread nD τ).loc main_arg1)) := by
  refine (θ_run defs _ _).mono (fun r h c => ⟨?_, ?_, ?_⟩) (run_all m' ρ')
  · exact (h c main_v139).trans (read_all (V0 m' c))
  · exact (h c main_arg0).trans (arg_keep (V0 m' c) main_arg0 (by decide) (by decide) (by decide) (by decide))
  · exact (h c main_arg1).trans (arg_keep (V0 m' c) main_arg1 (by decide) (by decide) (by decide) (by decide))

end Cert.ReferenceIdeal.Hand

end
-- ==== Proof.Value.Prefix.lean ====
/-
  The two programs compute the same index lists and, at the exact instance, the same edge weights from edge lists that
  agree. The index lists are the same operations on both sides. The weights differ by one factor: the reference
  multiplies the gathered inverse square-root degree by a vector of ones before the second factor, and on the
  extended reals x · 1 = x for every x, infinite ones included.
-/
import proofs.«410928_j41137196761669_3_alg».proof.Proof.Value.KernelValue
import proofs.«410928_j41137196761669_3_alg».proof.Proof.Value.RefRun
import Idealize.ShloMosaic.PureOps.Ideal.Laws

set_option maxRecDepth 16384

noncomputable section

namespace Cert.HandPrefix

open Idealize.ShloMosaic Idealize.ShloMosaic.TcCoe Idealize.SL.Sem Idealize.ShloMosaic.StableHlo

/-- The reads left inside a concatenate's operand list, one rewriting at a time: an operation's result at its own
    result buffer is its function's value, at any other buffer what was there. -/
local macro "reads_inside" : tactic =>
  `(tactic| repeat (first
      | rewrite [nullary_result] | rewrite [unary_result] | rewrite [binary_result] | rewrite [ternary_result]
      | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide)))

section Generic
variable {F : FTy → Type} [FloatOps F]

set_option maxHeartbeats 4000000 in
/-- The row lists are the same operations on the edge list. -/
theorem rows_eq (V : Valuation Cert.KernelIdeal.τ Cert.KernelIdeal.sig (Elt F))
    (V' : Valuation Cert.ReferenceIdeal.τ Cert.ReferenceIdeal.sig (Elt F))
    (h : V' (Proc.devRef .tc Cert.ReferenceIdeal.main_arg1) = V (Proc.devRef .tc Cert.KernelIdeal.main_arg1)) :
    (StableHlo.after (Cert.ReferenceIdeal.Hand.opsA (F := F)) V' (Proc.devRef .tc Cert.ReferenceIdeal.main_v5) : IVec Cert.ReferenceIdeal.S1700000 32)
      = StableHlo.after Cert.KernelIdeal.Gen.hostOps0_2 (StableHlo.after Cert.KernelIdeal.Gen.hostOps0_1 (StableHlo.after Cert.KernelIdeal.Gen.hostOps0 V))
          (Proc.devRef .tc Cert.KernelIdeal.main_v5) := by
  simp only [Cert.ReferenceIdeal.Hand.opsA, Cert.KernelIdeal.Gen.hostOps0, Cert.KernelIdeal.Gen.hostOps0_1, Cert.KernelIdeal.Gen.hostOps0_2]
  after_results_simp
  reads_inside
  rewrite [h]
  rfl

set_option maxHeartbeats 4000000 in
/-- The column lists are the same operations on the edge list. -/
theorem cols_eq (V : Valuation Cert.KernelIdeal.τ Cert.KernelIdeal.sig (Elt F))
    (V' : Valuation Cert.ReferenceIdeal.τ Cert.ReferenceIdeal.sig (Elt F))
    (h : V' (Proc.devRef .tc Cert.ReferenceIdeal.main_arg1) = V (Proc.devRef .tc Cert.KernelIdeal.main_arg1)) :
    (StableHlo.after (Cert.ReferenceIdeal.Hand.opsA (F := F)) V' (Proc.devRef .tc Cert.ReferenceIdeal.main_v6) : IVec Cert.ReferenceIdeal.S1700000 32)
      = StableHlo.after Cert.KernelIdeal.Gen.hostOps0_2 (StableHlo.after Cert.KernelIdeal.Gen.hostOps0_1 (StableHlo.after Cert.KernelIdeal.Gen.hostOps0 V))
          (Proc.devRef .tc Cert.KernelIdeal.main_v6) := by
  simp only [Cert.ReferenceIdeal.Hand.opsA, Cert.KernelIdeal.Gen.hostOps0, Cert.KernelIdeal.Gen.hostOps0_1, Cert.KernelIdeal.Gen.hostOps0_2]
  after_results_simp
  reads_inside
  rewrite [h]
  rfl

set_option maxHeartbeats 8000000 in
/-- The two weight vectors are products of the same two gathered factors a and b, the reference's with a vector of
    ones between them: (a · ones) · b against a · b. -/
theorem weights_split (V : Valuation Cert.KernelIdeal.τ Cert.KernelIdeal.sig (Elt F))
    (V' : Valuation Cert.ReferenceIdeal.τ Cert.ReferenceIdeal.sig (Elt F))
    (h : V' (Proc.devRef .tc Cert.ReferenceIdeal.main_arg1) = V (Proc.devRef .tc Cert.KernelIdeal.main_arg1)) :
    ∃ a b : FVec F Cert.ReferenceIdeal.S1700000 .f32,
      (StableHlo.after (Cert.ReferenceIdeal.Hand.opsA (F := F)) V' (Proc.devRef .tc Cert.ReferenceIdeal.main_v31) : FVec F Cert.ReferenceIdeal.S1700000 .f32)
        = mulf (mulf a (broadcastInDim Cert.ReferenceIdeal.S1700000 ![] Cert.ReferenceIdeal.Gen.bcast_S_S1700000
            (constant Cert.ReferenceIdeal.S_ .f32 0x3F800000#32))) b
      ∧ (StableHlo.after Cert.KernelIdeal.Gen.hostOps0_2 (StableHlo.after Cert.KernelIdeal.Gen.hostOps0_1 (StableHlo.after Cert.KernelIdeal.Gen.hostOps0 V))
          (Proc.devRef .tc Cert.KernelIdeal.main_v30) : FVec F Cert.ReferenceIdeal.S1700000 .f32) = mulf a b :=
  -- a is the inverse square-root degree gathered at the row list, b the same gathered at the column list
  ⟨StableHlo.after (Cert.ReferenceIdeal.Hand.opsA (F := F)) V' (Proc.devRef .tc Cert.ReferenceIdeal.main_v22),
   StableHlo.after (Cert.ReferenceIdeal.Hand.opsA (F := F)) V' (Proc.devRef .tc Cert.ReferenceIdeal.main_v30),
    (by
      -- both sides read the same list: one pass leaves the same term on each
      simp only [Cert.ReferenceIdeal.Hand.opsA]
      after_results_simp),
    (by
      simp only [Cert.ReferenceIdeal.Hand.opsA, Cert.KernelIdeal.Gen.hostOps0, Cert.KernelIdeal.Gen.hostOps0_1,
        Cert.KernelIdeal.Gen.hostOps0_2]
      after_results_simp
      reads_inside
      rewrite [h]
      rfl)⟩

end Generic

/-- The word 0x3F800000 is the float one. -/
theorem one_word : Ideal.ofBits .f32 0x3F800000#32 = 1 := by
  simp [Ideal.ofBits, Ideal.ieee, -EReal.coe_mul]; norm_num

theorem prefix_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    Cert.ReferenceIdeal.Hand.wR (F := Ideal) (Cert.ReferenceIdeal.Hand.V0 m' c) = Cert.KernelIdeal.HandValue.wK m c
    ∧ Cert.ReferenceIdeal.Hand.rowR (F := Ideal) (Cert.ReferenceIdeal.Hand.V0 m' c) = Cert.KernelIdeal.HandValue.rowK m c
    ∧ Cert.ReferenceIdeal.Hand.colR (F := Ideal) (Cert.ReferenceIdeal.Hand.V0 m' c) = Cert.KernelIdeal.HandValue.colK m c := by
  refine ⟨?_, rows_eq (F := Ideal) (Cert.KernelIdeal.Hand.W0 m c) (Cert.ReferenceIdeal.Hand.V0 m' c) h1,
    cols_eq (F := Ideal) (Cert.KernelIdeal.Hand.W0 m c) (Cert.ReferenceIdeal.Hand.V0 m' c) h1⟩
  obtain ⟨a, b, hR, hK⟩ := weights_split (F := Ideal) (Cert.KernelIdeal.Hand.W0 m c) (Cert.ReferenceIdeal.Hand.V0 m' c) h1
  refine hR.trans (Eq.trans ?_ hK.symm)
  -- (a · 1) · b = a · b at every edge, on the extended reals
  funext i
  show a i * Ideal.ofBits .f32 0x3F800000#32 * b i = a i * b i
  rw [one_word, mul_one]

end Cert.HandPrefix

end
-- ==== Proof.lean ====
/-
  The certificate of the three-step proximal graph smoothing: a kernel program that computes the symmetric
  normalisation's edge weights on the host, then three times gathers, weights and scatter-adds the current iterate
  into a normalised neighbour sum on the host and applies the row-wise proximal step in a pallas_call over 50 blocks
  of 2000 rows, against a reference that does all of it on the host.

  The two programs are the same function of their arguments on the extended reals. Their host operations are the same
  operations but for one factor of one in the reference's edge weights (x · 1 = x on every extended real). The
  pallas_call's body is the reference's proximal step restricted to a block of rows: it sums the squares of a row
  over the 64 columns the block holds whole, so no row is split across blocks, and every other operation is pointwise
  in the row. The three frames (each program runs to the end, faults nowhere, leaves its two arguments unchanged) come
  off the same runs; the idealization rewrote nothing, so nothing is owed for it.
-/
import proofs.«410928_j41137196761669_3_alg».proof.Defs
import proofs.«410928_j41137196761669_3_alg».proof.Proof.Gen.Kernel
import proofs.«410928_j41137196761669_3_alg».proof.Proof.Gen.KernelIdeal
import proofs.«410928_j41137196761669_3_alg».proof.Proof.Gen.ReferenceIdeal
import proofs.«410928_j41137196761669_3_alg».proof.Proof.Gen.Pre_finite_inputs
import proofs.«410928_j41137196761669_3_alg».proof.Proof.K.Run
import proofs.«410928_j41137196761669_3_alg».proof.Proof.KI.Run
import proofs.«410928_j41137196761669_3_alg».proof.Proof.Value.KernelValue
import proofs.«410928_j41137196761669_3_alg».proof.Proof.Value.RefRun
import proofs.«410928_j41137196761669_3_alg».proof.Proof.Value.Prefix

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_result (F := Bits) m ρ)

/-- So does the kernel program read at the exact instance. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_result (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Hand.ref_run (F := Ideal) m ρ)

/-- From arguments that agree, both programs end at the three-step iteration from the input features with the kernel
    program's weights and index lists, which are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (F := Ideal) (Cert.KernelIdeal.HandValue.wK m c) (Cert.KernelIdeal.HandValue.rowK m c)
      (Cert.KernelIdeal.HandValue.colK m c) (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (Cert.KernelIdeal.HandValue.kernel_value m c), (h c).2⟩)
      (Cert.KernelIdeal.Hand.run_result (F := Ideal) m ρ)
  · refine (θ_run (Cert.ReferenceIdeal.defs (F := Ideal)) _ _).mono (fun _ h c => ⟨(h c).1.trans ?_, (h c).2⟩)
      (Cert.ReferenceIdeal.Hand.ref_run (F := Ideal) m' ρ')
    obtain ⟨hw, hr, hc⟩ := Cert.HandPrefix.prefix_eq m m' c (hagree c).2
    rw [hw, hr, hc, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
